-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v160)) (v1 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_v154) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S255x1025 : Shape := ⟨2, ![255, 1025]⟩
abbrev S1000x256 : Shape := ⟨2, ![1000, 256]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S255x1025 : S_.BroadcastsInDim S255x1025 (![] : Fin 0 → Fin S255x1025.rank)
  reducesTo_S255x1025_S_d0_1 : S255x1025.ReducesTo [0, 1] S_
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S32768x1024 .f32) (main_arg1 : FVec F S255x1025 .f32) (main_arg2 : FVec F S1000x256 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S255x1025 .f32 := Host.absf main_arg1
  let main_cst_0 : FVec F S_ .f32 := constant S_ .f32 0x7F800000#32
  let main_v5 : FVec F S255x1025 .f32 := broadcastInDim S255x1025 ![] bcast_S_S255x1025 main_cst_0
  let main_v6 : IVec S255x1025 1 := cmpf .olt main_v4 main_v5
  let main_c_1 : IVec S_ 1 := constantI S_ 1 1#1
  let main_v7 : IVec S_ 1 := (fun x v => Host.reduce IntOp.andi x v reducesTo_S255x1025_S_d0_1 h_S_) main_v6 main_c_1
  let main_v8 : IVec S_ 1 := andi main_v3 main_v7
  let main_v9 : FVec F S1000x256 .f32 := Host.absf main_arg2
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  main_v13
-- ==== Kernel.lean ====
abbrev S32768x1024 : Shape := ⟨2, ![32768, 1024]⟩
abbrev S255x1025 : Shape := ⟨2, ![255, 1025]⟩
abbrev S1000x256 : Shape := ⟨2, ![1000, 256]⟩
abbrev S255x1 : Shape := ⟨2, ![255, 1]⟩
abbrev S255 : Shape := ⟨1, ![255]⟩
abbrev S1x255 : Shape := ⟨2, ![1, 255]⟩
abbrev S255x1024 : Shape := ⟨2, ![255, 1024]⟩
abbrev S1024x255 : Shape := ⟨2, ![1024, 255]⟩
abbrev S32768x255 : Shape := ⟨2, ![32768, 255]⟩
abbrev S2048x1024 : Shape := ⟨2, ![2048, 1024]⟩
abbrev S2048x255 : Shape := ⟨2, ![2048, 255]⟩
abbrev S_ : Shape := ⟨0, ![]⟩
abbrev S32768x1 : Shape := ⟨2, ![32768, 1]⟩
abbrev S1 : Shape := ⟨1, ![1]⟩
abbrev S32768x1x1 : Shape := ⟨3, ![32768, 1, 1]⟩
abbrev S32768x1x2 : Shape := ⟨3, ![32768, 1, 2]⟩
abbrev S32768x2 : Shape := ⟨2, ![32768, 2]⟩
abbrev S2 : Shape := ⟨1, ![2]⟩
abbrev S32768x2x1 : Shape := ⟨3, ![32768, 2, 1]⟩
abbrev S32768x2x2 : Shape := ⟨3, ![32768, 2, 2]⟩
abbrev S32768x4 : Shape := ⟨2, ![32768, 4]⟩
abbrev S4 : Shape := ⟨1, ![4]⟩
abbrev S32768x4x1 : Shape := ⟨3, ![32768, 4, 1]⟩
abbrev S32768x4x2 : Shape := ⟨3, ![32768, 4, 2]⟩
abbrev S32768x8 : Shape := ⟨2, ![32768, 8]⟩
abbrev S8 : Shape := ⟨1, ![8]⟩
abbrev S32768x8x1 : Shape := ⟨3, ![32768, 8, 1]⟩
abbrev S32768x8x2 : Shape := ⟨3, ![32768, 8, 2]⟩
abbrev S32768x16 : Shape := ⟨2, ![32768, 16]⟩
abbrev S16 : Shape := ⟨1, ![16]⟩
abbrev S32768x16x1 : Shape := ⟨3, ![32768, 16, 1]⟩
abbrev S32768x16x2 : Shape := ⟨3, ![32768, 16, 2]⟩
abbrev S32768x32 : Shape := ⟨2, ![32768, 32]⟩
abbrev S32 : Shape := ⟨1, ![32]⟩
abbrev S32768x32x1 : Shape := ⟨3, ![32768, 32, 1]⟩
abbrev S32768x32x2 : Shape := ⟨3, ![32768, 32, 2]⟩
abbrev S32768x64 : Shape := ⟨2, ![32768, 64]⟩
abbrev S64 : Shape := ⟨1, ![64]⟩
abbrev S32768x64x1 : Shape := ⟨3, ![32768, 64, 1]⟩
abbrev S32768x64x2 : Shape := ⟨3, ![32768, 64, 2]⟩
abbrev S32768x128 : Shape := ⟨2, ![32768, 128]⟩
abbrev S128 : Shape := ⟨1, ![128]⟩
abbrev S32768x128x1 : Shape := ⟨3, ![32768, 128, 1]⟩
abbrev S32768x128x2 : Shape := ⟨3, ![32768, 128, 2]⟩
abbrev S32768x256 : Shape := ⟨2, ![32768, 256]⟩
abbrev S256x1000 : Shape := ⟨2, ![256, 1000]⟩
abbrev S32768x1000 : Shape := ⟨2, ![32768, 1000]⟩
abbrev S2048x256 : Shape := ⟨2, ![2048, 256]⟩
abbrev S2048x1000 : Shape := ⟨2, ![2048, 1000]⟩

abbrev nBuf : Space → Nat
  | .hbm => 206
  | .vmem => 11
  | .smem => 0
  | _ => 0

abbrev hbmTy0_0 (i : Nat) : BufTy := match i % 128 with
  | 0 => ⟨S32768x1024, .f32⟩
  | 1 => ⟨S255x1025, .f32⟩
  | 2 => ⟨S1000x256, .f32⟩
  | 3 => ⟨S255x1, .f32⟩
  | 4 => ⟨S255, .f32⟩
  | 5 => ⟨S1x255, .f32⟩
  | 6 => ⟨S255x1024, .f32⟩
  | 7 => ⟨S1024x255, .f32⟩
  | 8 => ⟨S32768x255, .f32⟩
  | 9 => ⟨S_, .f32⟩
  | 10 => ⟨S32768x1, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S_, .f32⟩
  | 18 => ⟨S1, .f32⟩
  | 19 => ⟨S_, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S32768x1x1, .f32⟩
  | 33 => ⟨S32768x1x1, .f32⟩
  | 34 => ⟨S32768x1x2, .f32⟩
  | 35 => ⟨S32768x2, .f32⟩
  | 36 => ⟨S32768x2, .f32⟩
  | 37 => ⟨S32768x2, .f32⟩
  | 38 => ⟨S_, .f32⟩
  | 39 => ⟨S32768x2, .f32⟩
  | 40 => ⟨S32768x2, .f32⟩
  | 41 => ⟨S32768x2, .f32⟩
  | 42 => ⟨S_, .f32⟩
  | 43 => ⟨S2, .f32⟩
  | 44 => ⟨S_, .f32⟩
  | 45 => ⟨S2, .f32⟩
  | 46 => ⟨S2, .f32⟩
  | 47 => ⟨S2, .f32⟩
  | 48 => ⟨S2, .f32⟩
  | 49 => ⟨S2, .f32⟩
  | 50 => ⟨S2, .f32⟩
  | 51 => ⟨S_, .f32⟩
  | 52 => ⟨S_, .f32⟩
  | 53 => ⟨S_, .f32⟩
  | 54 => ⟨S_, .f32⟩
  | 55 => ⟨S_, .f32⟩
  | 56 => ⟨S32768x2x1, .f32⟩
  | 57 => ⟨S32768x2x1, .f32⟩
  | 58 => ⟨S32768x2x2, .f32⟩
  | 59 => ⟨S32768x4, .f32⟩
  | 60 => ⟨S32768x4, .f32⟩
  | 61 => ⟨S32768x4, .f32⟩
  | 62 => ⟨S_, .f32⟩
  | 63 => ⟨S32768x4, .f32⟩
  | 64 => ⟨S32768x4, .f32⟩
  | 65 => ⟨S32768x4, .f32⟩
  | 66 => ⟨S_, .f32⟩
  | 67 => ⟨S4, .f32⟩
  | 68 => ⟨S_, .f32⟩
  | 69 => ⟨S4, .f32⟩
  | 70 => ⟨S4, .f32⟩
  | 71 => ⟨S4, .f32⟩
  | 72 => ⟨S4, .f32⟩
  | 73 => ⟨S4, .f32⟩
  | 74 => ⟨S4, .f32⟩
  | 75 => ⟨S_, .f32⟩
  | 76 => ⟨S_, .f32⟩
  | 77 => ⟨S_, .f32⟩
  | 78 => ⟨S_, .f32⟩
  | 79 => ⟨S_, .f32⟩
  | 80 => ⟨S32768x4x1, .f32⟩
  | 81 => ⟨S32768x4x1, .f32⟩
  | 82 => ⟨S32768x4x2, .f32⟩
  | 83 => ⟨S32768x8, .f32⟩
  | 84 => ⟨S32768x8, .f32⟩
  | 85 => ⟨S32768x8, .f32⟩
  | 86 => ⟨S_, .f32⟩
  | 87 => ⟨S32768x8, .f32⟩
  | 88 => ⟨S32768x8, .f32⟩
  | 89 => ⟨S32768x8, .f32⟩
  | 90 => ⟨S_, .f32⟩
  | 91 => ⟨S8, .f32⟩
  | 92 => ⟨S_, .f32⟩
  | 93 => ⟨S8, .f32⟩
  | 94 => ⟨S8, .f32⟩
  | 95 => ⟨S8, .f32⟩
  | 96 => ⟨S8, .f32⟩
  | 97 => ⟨S8, .f32⟩
  | 98 => ⟨S8, .f32⟩
  | 99 => ⟨S_, .f32⟩
  | 100 => ⟨S_, .f32⟩
  | 101 => ⟨S_, .f32⟩
  | 102 => ⟨S_, .f32⟩
  | 103 => ⟨S_, .f32⟩
  | 104 => ⟨S32768x8x1, .f32⟩
  | 105 => ⟨S32768x8x1, .f32⟩
  | 106 => ⟨S32768x8x2, .f32⟩
  | 107 => ⟨S32768x16, .f32⟩
  | 108 => ⟨S32768x16, .f32⟩
  | 109 => ⟨S32768x16, .f32⟩
  | 110 => ⟨S_, .f32⟩
  | 111 => ⟨S32768x16, .f32⟩
  | 112 => ⟨S32768x16, .f32⟩
  | 113 => ⟨S32768x16, .f32⟩
  | 114 => ⟨S_, .f32⟩
  | 115 => ⟨S16, .f32⟩
  | 116 => ⟨S_, .f32⟩
  | 117 => ⟨S16, .f32⟩
  | 118 => ⟨S16, .f32⟩
  | 119 => ⟨S16, .f32⟩
  | 120 => ⟨S16, .f32⟩
  | 121 => ⟨S16, .f32⟩
  | 122 => ⟨S16, .f32⟩
  | 123 => ⟨S_, .f32⟩
  | 124 => ⟨S_, .f32⟩
  | 125 => ⟨S_, .f32⟩
  | 126 => ⟨S_, .f32⟩
  | 127 => ⟨S_, .f32⟩
  | _ => ⟨S32768x1024, .f32⟩

abbrev hbmTy0_1 (i : Nat) : BufTy := match i % 128 with
  | 0 => ⟨S32768x16x1, .f32⟩
  | 1 => ⟨S32768x16x1, .f32⟩
  | 2 => ⟨S32768x16x2, .f32⟩
  | 3 => ⟨S32768x32, .f32⟩
  | 4 => ⟨S32768x32, .f32⟩
  | 5 => ⟨S32768x32, .f32⟩
  | 6 => ⟨S_, .f32⟩
  | 7 => ⟨S32768x32, .f32⟩
  | 8 => ⟨S32768x32, .f32⟩
  | 9 => ⟨S32768x32, .f32⟩
  | 10 => ⟨S_, .f32⟩
  | 11 => ⟨S32, .f32⟩
  | 12 => ⟨S_, .f32⟩
  | 13 => ⟨S32, .f32⟩
  | 14 => ⟨S32, .f32⟩
  | 15 => ⟨S32, .f32⟩
  | 16 => ⟨S32, .f32⟩
  | 17 => ⟨S32, .f32⟩
  | 18 => ⟨S32, .f32⟩
  | 19 => ⟨S_, .f32⟩
  | 20 => ⟨S_, .f32⟩
  | 21 => ⟨S_, .f32⟩
  | 22 => ⟨S_, .f32⟩
  | 23 => ⟨S_, .f32⟩
  | 24 => ⟨S32768x32x1, .f32⟩
  | 25 => ⟨S32768x32x1, .f32⟩
  | 26 => ⟨S32768x32x2, .f32⟩
  | 27 => ⟨S32768x64, .f32⟩
  | 28 => ⟨S32768x64, .f32⟩
  | 29 => ⟨S32768x64, .f32⟩
  | 30 => ⟨S_, .f32⟩
  | 31 => ⟨S32768x64, .f32⟩
  | 32 => ⟨S32768x64, .f32⟩
  | 33 => ⟨S32768x64, .f32⟩
  | 34 => ⟨S_, .f32⟩
  | 35 => ⟨S64, .f32⟩
  | 36 => ⟨S_, .f32⟩
  | 37 => ⟨S64, .f32⟩
  | 38 => ⟨S64, .f32⟩
  | 39 => ⟨S64, .f32⟩
  | 40 => ⟨S64, .f32⟩
  | 41 => ⟨S64, .f32⟩
  | 42 => ⟨S64, .f32⟩
  | 43 => ⟨S_, .f32⟩
  | 44 => ⟨S_, .f32⟩
  | 45 => ⟨S_, .f32⟩
  | 46 => ⟨S_, .f32⟩
  | 47 => ⟨S_, .f32⟩
  | 48 => ⟨S32768x64x1, .f32⟩
  | 49 => ⟨S32768x64x1, .f32⟩
  | 50 => ⟨S32768x64x2, .f32⟩
  | 51 => ⟨S32768x128, .f32⟩
  | 52 => ⟨S32768x128, .f32⟩
  | 53 => ⟨S32768x128, .f32⟩
  | 54 => ⟨S_, .f32⟩
  | 55 => ⟨S32768x128, .f32⟩
  | 56 => ⟨S32768x128, .f32⟩
  | 57 => ⟨S32768x128, .f32⟩
  | 58 => ⟨S_, .f32⟩
  | 59 => ⟨S128, .f32⟩
  | 60 => ⟨S_, .f32⟩
  | 61 => ⟨S128, .f32⟩
  | 62 => ⟨S128, .f32⟩
  | 63 => ⟨S128, .f32⟩
  | 64 => ⟨S128, .f32⟩
  | 65 => ⟨S128, .f32⟩
  | 66 => ⟨S128, .f32⟩
  | 67 => ⟨S_, .f32⟩
  | 68 => ⟨S_, .f32⟩
  | 69 => ⟨S_, .f32⟩
  | 70 => ⟨S_, .f32⟩
  | 71 => ⟨S_, .f32⟩
  | 72 => ⟨S32768x128x1, .f32⟩
  | 73 => ⟨S32768x128x1, .f32⟩
  | 74 => ⟨S32768x128x2, .f32⟩
  | 75 => ⟨S32768x256, .f32⟩
  | 76 => ⟨S256x1000, .f32⟩
  | 77 => ⟨S32768x1000, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1024x255, .f32⟩
  | .local _ .vmem, ⟨3, _⟩ => ⟨S1x255, .f32⟩
  | .local _ .vmem, ⟨4, _⟩ => ⟨S2048x255, .f32⟩
  | .local _ .vmem, ⟨5, _⟩ => ⟨S2048x255, .f32⟩
  | .local _ .vmem, ⟨6, _⟩ => ⟨S2048x256, .f32⟩
  | .local _ .vmem, ⟨7, _⟩ => ⟨S2048x256, .f32⟩
  | .local _ .vmem, ⟨8, _⟩ => ⟨S256x1000, .f32⟩
  | .local _ .vmem, ⟨9, _⟩ => ⟨S2048x1000, .f32⟩
  | .local _ .vmem, ⟨10, _⟩ => ⟨S2048x1000, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_16 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_cst_18 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_cst_20 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_21 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_22 : Ref sig .tc := ⟨.hbm, 114, rfl⟩
abbrev main_v88 : Ref sig .tc := ⟨.hbm, 115, rfl⟩
abbrev main_cst_23 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_24 : Ref sig .tc := ⟨.hbm, 123, rfl⟩
abbrev main_v95 : Ref sig .tc := ⟨.hbm, 124, rfl⟩
abbrev main_cst_25 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_26 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_27 : Ref sig .tc := ⟨.hbm, 138, rfl⟩
abbrev main_v107 : Ref sig .tc := ⟨.hbm, 139, rfl⟩
abbrev main_cst_28 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_29 : Ref sig .tc := ⟨.hbm, 147, rfl⟩
abbrev main_v114 : Ref sig .tc := ⟨.hbm, 148, rfl⟩
abbrev main_cst_30 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_31 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_32 : Ref sig .tc := ⟨.hbm, 162, rfl⟩
abbrev main_v126 : Ref sig .tc := ⟨.hbm, 163, rfl⟩
abbrev main_cst_33 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_34 : Ref sig .tc := ⟨.hbm, 171, rfl⟩
abbrev main_v133 : Ref sig .tc := ⟨.hbm, 172, rfl⟩
abbrev main_cst_35 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_36 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_37 : Ref sig .tc := ⟨.hbm, 186, rfl⟩
abbrev main_v145 : Ref sig .tc := ⟨.hbm, 187, rfl⟩
abbrev main_cst_38 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_39 : Ref sig .tc := ⟨.hbm, 195, rfl⟩
abbrev main_v152 : Ref sig .tc := ⟨.hbm, 196, rfl⟩
abbrev main_cst_40 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x255 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x255 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S255x1025_S255x1_0_0 : S255x1025.Slices ![0, 0] S255x1
  shapeCasts_S255x1_S255 : S255x1.ShapeCasts S255
  shapeCasts_S255_S1x255 : S255.ShapeCasts S1x255
  slices_S255x1025_S255x1024_0_1 : S255x1025.Slices ![0, 1] S255x1024
  transposes_S255x1024_S1024x255_1_0 : S255x1024.Transposes [1, 0] S1024x255
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x255_S1024x255_0_0 : ∀ a, (![0, 0] : Fin 2 → Nat) a + S1024x255.size a ≤ S1024x255.size a
  h_S1024x255 : 0 < S1024x255.numel
  shapeCasts_S1024x255_S1024x255 : S1024x255.ShapeCasts S1024x255
  inb_S1x255_S1x255_0_0 : ∀ a, (![0, 0] : Fin 2 → Nat) a + S1x255.size a ≤ S1x255.size a
  h_S1x255 : 0 < S1x255.numel
  shapeCasts_S1x255_S1x255 : S1x255.ShapeCasts S1x255
  broadcasts_S1x255_S2048x255 : S1x255.Broadcasts S2048x255
  inb_S2048x255_S2048x255_0_0 : ∀ a, (![0, 0] : Fin 2 → Nat) a + S2048x255.size a ≤ S2048x255.size a
  h_S2048x255 : 0 < S2048x255.numel
  bcast_S_S32768x1 : S_.BroadcastsInDim S32768x1 (![] : Fin 0 → Fin S32768x1.rank)
  slices_S32768x255_S32768x1_0_0 : S32768x255.Slices ![0, 0] S32768x1
  reducesTo_S32768x1_S1_d0 : S32768x1.ReducesTo [0] S1
  h_S_ : 0 < S_.numel
  reducesTo_S1_S_d0 : S1.ReducesTo [0] S_
  bcast_S32768x1_S32768x1x1_0_1 : S32768x1.BroadcastsInDim S32768x1x1 (![0, 1] : Fin 2 → Fin S32768x1x1.rank)
  concatenates_S32768x1x1_S32768x1x1_S32768x1x2_d2 : Shape.Concatenates [S32768x1x1, S32768x1x1] S32768x1x2 2
  shapeCasts_S32768x1x2_S32768x2 : S32768x1x2.ShapeCasts S32768x2
  slices_S32768x255_S32768x2_0_1 : S32768x255.Slices ![0, 1] S32768x2
  bcast_S_S32768x2 : S_.BroadcastsInDim S32768x2 (![] : Fin 0 → Fin S32768x2.rank)
  reducesTo_S32768x2_S2_d0 : S32768x2.ReducesTo [0] S2
  reducesTo_S2_S_d0 : S2.ReducesTo [0] S_
  bcast_S32768x2_S32768x2x1_0_1 : S32768x2.BroadcastsInDim S32768x2x1 (![0, 1] : Fin 2 → Fin S32768x2x1.rank)
  concatenates_S32768x2x1_S32768x2x1_S32768x2x2_d2 : Shape.Concatenates [S32768x2x1, S32768x2x1] S32768x2x2 2
  shapeCasts_S32768x2x2_S32768x4 : S32768x2x2.ShapeCasts S32768x4
  slices_S32768x255_S32768x4_0_3 : S32768x255.Slices ![0, 3] S32768x4
  bcast_S_S32768x4 : S_.BroadcastsInDim S32768x4 (![] : Fin 0 → Fin S32768x4.rank)
  reducesTo_S32768x4_S4_d0 : S32768x4.ReducesTo [0] S4
  reducesTo_S4_S_d0 : S4.ReducesTo [0] S_
  bcast_S32768x4_S32768x4x1_0_1 : S32768x4.BroadcastsInDim S32768x4x1 (![0, 1] : Fin 2 → Fin S32768x4x1.rank)
  concatenates_S32768x4x1_S32768x4x1_S32768x4x2_d2 : Shape.Concatenates [S32768x4x1, S32768x4x1] S32768x4x2 2
  shapeCasts_S32768x4x2_S32768x8 : S32768x4x2.ShapeCasts S32768x8
  slices_S32768x255_S32768x8_0_7 : S32768x255.Slices ![0, 7] S32768x8
  bcast_S_S32768x8 : S_.BroadcastsInDim S32768x8 (![] : Fin 0 → Fin S32768x8.rank)
  reducesTo_S32768x8_S8_d0 : S32768x8.ReducesTo [0] S8
  reducesTo_S8_S_d0 : S8.ReducesTo [0] S_
  bcast_S32768x8_S32768x8x1_0_1 : S32768x8.BroadcastsInDim S32768x8x1 (![0, 1] : Fin 2 → Fin S32768x8x1.rank)
  concatenates_S32768x8x1_S32768x8x1_S32768x8x2_d2 : Shape.Concatenates [S32768x8x1, S32768x8x1] S32768x8x2 2
  shapeCasts_S32768x8x2_S32768x16 : S32768x8x2.ShapeCasts S32768x16
  slices_S32768x255_S32768x16_0_15 : S32768x255.Slices ![0, 15] S32768x16
  bcast_S_S32768x16 : S_.BroadcastsInDim S32768x16 (![] : Fin 0 → Fin S32768x16.rank)
  reducesTo_S32768x16_S16_d0 : S32768x16.ReducesTo [0] S16
  reducesTo_S16_S_d0 : S16.ReducesTo [0] S_
  bcast_S32768x16_S32768x16x1_0_1 : S32768x16.BroadcastsInDim S32768x16x1 (![0, 1] : Fin 2 → Fin S32768x16x1.rank)
  concatenates_S32768x16x1_S32768x16x1_S32768x16x2_d2 : Shape.Concatenates [S32768x16x1, S32768x16x1] S32768x16x2 2
  shapeCasts_S32768x16x2_S32768x32 : S32768x16x2.ShapeCasts S32768x32
  slices_S32768x255_S32768x32_0_31 : S32768x255.Slices ![0, 31] S32768x32
  bcast_S_S32768x32 : S_.BroadcastsInDim S32768x32 (![] : Fin 0 → Fin S32768x32.rank)
  reducesTo_S32768x32_S32_d0 : S32768x32.ReducesTo [0] S32
  reducesTo_S32_S_d0 : S32.ReducesTo [0] S_
  bcast_S32768x32_S32768x32x1_0_1 : S32768x32.BroadcastsInDim S32768x32x1 (![0, 1] : Fin 2 → Fin S32768x32x1.rank)
  concatenates_S32768x32x1_S32768x32x1_S32768x32x2_d2 : Shape.Concatenates [S32768x32x1, S32768x32x1] S32768x32x2 2
  shapeCasts_S32768x32x2_S32768x64 : S32768x32x2.ShapeCasts S32768x64
  slices_S32768x255_S32768x64_0_63 : S32768x255.Slices ![0, 63] S32768x64
  bcast_S_S32768x64 : S_.BroadcastsInDim S32768x64 (![] : Fin 0 → Fin S32768x64.rank)
  reducesTo_S32768x64_S64_d0 : S32768x64.ReducesTo [0] S64
  reducesTo_S64_S_d0 : S64.ReducesTo [0] S_
  bcast_S32768x64_S32768x64x1_0_1 : S32768x64.BroadcastsInDim S32768x64x1 (![0, 1] : Fin 2 → Fin S32768x64x1.rank)
  concatenates_S32768x64x1_S32768x64x1_S32768x64x2_d2 : Shape.Concatenates [S32768x64x1, S32768x64x1] S32768x64x2 2
  shapeCasts_S32768x64x2_S32768x128 : S32768x64x2.ShapeCasts S32768x128
  slices_S32768x255_S32768x128_0_127 : S32768x255.Slices ![0, 127] S32768x128
  bcast_S_S32768x128 : S_.BroadcastsInDim S32768x128 (![] : Fin 0 → Fin S32768x128.rank)
  reducesTo_S32768x128_S128_d0 : S32768x128.ReducesTo [0] S128
  reducesTo_S128_S_d0 : S128.ReducesTo [0] S_
  bcast_S32768x128_S32768x128x1_0_1 : S32768x128.BroadcastsInDim S32768x128x1 (![0, 1] : Fin 2 → Fin S32768x128x1.rank)
  concatenates_S32768x128x1_S32768x128x1_S32768x128x2_d2 : Shape.Concatenates [S32768x128x1, S32768x128x1] S32768x128x2 2
  shapeCasts_S32768x128x2_S32768x256 : S32768x128x2.ShapeCasts S32768x256
  transposes_S1000x256_S256x1000_1_0 : S1000x256.Transposes [1, 0] S256x1000
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S2048x1000_S2048x1000_0_0 : ∀ a, (![0, 0] : Fin 2 → Nat) a + S2048x1000.size a ≤ S2048x1000.size a
  h_S2048x1000 : 0 < S2048x1000.numel
  dot_S2048x1024_S1024x255_S2048x255_1_0_0_1_n_n_wf : DotDims.WF S2048x1024 S1024x255 S2048x255 [1] [0] [0] [1] [] []
  dot_S2048x256_S256x1000_S2048x1000_1_0_0_1_n_n_wf : DotDims.WF S2048x256 S256x1000 S2048x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x255.size a ≤ S1024x255.size a
  hwx0_1 : ∀ i : grid0.Coords, EltTy.bits .f32 = 32 ∨ (Rect.block (s := S1024x255) S1024x255.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x255.size a ≤ S1x255.size a
  hwx0_2 : ∀ i : grid0.Coords, EltTy.bits .f32 = 32 ∨ (Rect.block (s := S1x255) S1x255.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x255.size a ≤ S32768x255.size a
  hwx0_3 : ∀ i : grid0.Coords, EltTy.bits .f32 = 32 ∨ (Rect.block (s := S32768x255) S2048x255.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S32768x256.size a
  hwx1_0 : ∀ i : grid1.Coords, EltTy.bits .f32 = 32 ∨ (Rect.block (s := S32768x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1000.size a ≤ S256x1000.size a
  hwx1_1 : ∀ i : grid1.Coords, EltTy.bits .f32 = 32 ∨ (Rect.block (s := S256x1000) S256x1000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1000.size a ≤ S32768x1000.size a
  hwx1_2 : ∀ i : grid1.Coords, EltTy.bits .f32 = 32 ∨ (Rect.block (s := S32768x1000) S2048x1000.size (cc1_transform_2 i) (hinb1_2 i)).WholeWords (EltTy.packing .f32)

variable [Facts₀]

def dot_S2048x1024_S1024x255_S2048x255_1_0_0_1_n_n : DotDims S2048x1024 S1024x255 S2048x255 where
  lhsContracting := [1]
  rhsContracting := [0]
  lhsNonContracting := [0]
  rhsNonContracting := [1]
  lhsBatch := []
  rhsBatch := []
  wf := dot_S2048x1024_S1024x255_S2048x255_1_0_0_1_n_n_wf
def dot_S2048x256_S256x1000_S2048x1000_1_0_0_1_n_n : DotDims S2048x256 S256x1000 S2048x1000 where
  lhsContracting := [1]
  rhsContracting := [0]
  lhsNonContracting := [0]
  rhsNonContracting := [1]
  lhsBatch := []
  rhsBatch := []
  wf := dot_S2048x256_S256x1000_S2048x1000_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x255.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x255.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x255.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v158) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v159) S256x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v160) S2048x1000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S255x1025 : Shape := ⟨2, ![255, 1025]⟩
abbrev S1000x256 : Shape := ⟨2, ![1000, 256]⟩
abbrev S_ : Shape := ⟨0, ![]⟩
abbrev S32768x1 : Shape := ⟨2, ![32768, 1]⟩
abbrev S32768x1025 : Shape := ⟨2, ![32768, 1025]⟩
abbrev S1025x255 : Shape := ⟨2, ![1025, 255]⟩
abbrev S32768x255 : Shape := ⟨2, ![32768, 255]⟩
abbrev S32768x255x1 : Shape := ⟨3, ![32768, 255, 1]⟩
abbrev S32768x255x2 : Shape := ⟨3, ![32768, 255, 2]⟩
abbrev S32768x1x2 : Shape := ⟨3, ![32768, 1, 2]⟩
abbrev S32768x2 : Shape := ⟨2, ![32768, 2]⟩
abbrev S2 : Shape := ⟨1, ![2]⟩
abbrev S32768x2x2 : Shape := ⟨3, ![32768, 2, 2]⟩
abbrev S32768x4 : Shape := ⟨2, ![32768, 4]⟩
abbrev S4 : Shape := ⟨1, ![4]⟩
abbrev S32768x4x2 : Shape := ⟨3, ![32768, 4, 2]⟩
abbrev S32768x8 : Shape := ⟨2, ![32768, 8]⟩
abbrev S8 : Shape := ⟨1, ![8]⟩
abbrev S32768x8x2 : Shape := ⟨3, ![32768, 8, 2]⟩
abbrev S32768x16 : Shape := ⟨2, ![32768, 16]⟩
abbrev S16 : Shape := ⟨1, ![16]⟩
abbrev S32768x16x2 : Shape := ⟨3, ![32768, 16, 2]⟩
abbrev S32768x32 : Shape := ⟨2, ![32768, 32]⟩
abbrev S32 : Shape := ⟨1, ![32]⟩
abbrev S32768x32x2 : Shape := ⟨3, ![32768, 32, 2]⟩
abbrev S32768x64 : Shape := ⟨2, ![32768, 64]⟩
abbrev S64 : Shape := ⟨1, ![64]⟩
abbrev S32768x64x2 : Shape := ⟨3, ![32768, 64, 2]⟩
abbrev S32768x128 : Shape := ⟨2, ![32768, 128]⟩
abbrev S128 : Shape := ⟨1, ![128]⟩
abbrev S32768x128x2 : Shape := ⟨3, ![32768, 128, 2]⟩
abbrev S32768x256 : Shape := ⟨2, ![32768, 256]⟩
abbrev S256 : Shape := ⟨1, ![256]⟩
abbrev S256x1000 : Shape := ⟨2, ![256, 1000]⟩
abbrev S32768x1000 : Shape := ⟨2, ![32768, 1000]⟩

abbrev nBuf : Space → Nat
  | .hbm => 187
  | .vmem => 0
  | .smem => 0
  | _ => 0

abbrev hbmTy0_0 (i : Nat) : BufTy := match i % 128 with
  | 0 => ⟨S32768x1024, .f32⟩
  | 1 => ⟨S255x1025, .f32⟩
  | 2 => ⟨S1000x256, .f32⟩
  | 3 => ⟨S_, .f32⟩
  | 4 => ⟨S32768x1, .f32⟩
  | 5 => ⟨S32768x1025, .f32⟩
  | 6 => ⟨S1025x255, .f32⟩
  | 7 => ⟨S32768x255, .f32⟩
  | 8 => ⟨S32768x255, .f32⟩
  | 9 => ⟨S32768x255, .f32⟩
  | 10 => ⟨S_, .f32⟩
  | 11 => ⟨S32768x255, .f32⟩
  | 12 => ⟨S32768x255, .f32⟩
  | 13 => ⟨S_, .f32⟩
  | 14 => ⟨S32768x255, .f32⟩
  | 15 => ⟨S32768x255, .f32⟩
  | 16 => ⟨S_, .f32⟩
  | 17 => ⟨S32768x255, .f32⟩
  | 18 => ⟨S32768x255, .f32⟩
  | 19 => ⟨S32768x255x1, .f32⟩
  | 20 => ⟨S32768x255x1, .f32⟩
  | 21 => ⟨S32768x255x2, .f32⟩
  | 22 => ⟨S_, .f32⟩
  | 23 => ⟨S32768x1, .f32⟩
  | 24 => ⟨S32768x1x2, .f32⟩
  | 25 => ⟨S32768x2, .f32⟩
  | 26 => ⟨S32768x1x2, .f32⟩
  | 27 => ⟨S32768x2, .f32⟩
  | 28 => ⟨S32768x2, .f32⟩
  | 29 => ⟨S_, .f32⟩
  | 30 => ⟨S2, .f32⟩
  | 31 => ⟨S_, .f32⟩
  | 32 => ⟨S2, .f32⟩
  | 33 => ⟨S2, .f32⟩
  | 34 => ⟨S2, .f32⟩
  | 35 => ⟨S2, .f32⟩
  | 36 => ⟨S2, .f32⟩
  | 37 => ⟨S2, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S32768x2, .f32⟩
  | 45 => ⟨S32768x2x2, .f32⟩
  | 46 => ⟨S32768x4, .f32⟩
  | 47 => ⟨S32768x2x2, .f32⟩
  | 48 => ⟨S32768x4, .f32⟩
  | 49 => ⟨S32768x4, .f32⟩
  | 50 => ⟨S_, .f32⟩
  | 51 => ⟨S4, .f32⟩
  | 52 => ⟨S_, .f32⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S_, .f32⟩
  | 60 => ⟨S_, .f32⟩
  | 61 => ⟨S_, .f32⟩
  | 62 => ⟨S_, .f32⟩
  | 63 => ⟨S_, .f32⟩
  | 64 => ⟨S32768x4, .f32⟩
  | 65 => ⟨S32768x4x2, .f32⟩
  | 66 => ⟨S32768x8, .f32⟩
  | 67 => ⟨S32768x4x2, .f32⟩
  | 68 => ⟨S32768x8, .f32⟩
  | 69 => ⟨S32768x8, .f32⟩
  | 70 => ⟨S_, .f32⟩
  | 71 => ⟨S8, .f32⟩
  | 72 => ⟨S_, .f32⟩
  | 73 => ⟨S8, .f32⟩
  | 74 => ⟨S8, .f32⟩
  | 75 => ⟨S8, .f32⟩
  | 76 => ⟨S8, .f32⟩
  | 77 => ⟨S8, .f32⟩
  | 78 => ⟨S8, .f32⟩
  | 79 => ⟨S_, .f32⟩
  | 80 => ⟨S_, .f32⟩
  | 81 => ⟨S_, .f32⟩
  | 82 => ⟨S_, .f32⟩
  | 83 => ⟨S_, .f32⟩
  | 84 => ⟨S32768x8, .f32⟩
  | 85 => ⟨S32768x8x2, .f32⟩
  | 86 => ⟨S32768x16, .f32⟩
  | 87 => ⟨S32768x8x2, .f32⟩
  | 88 => ⟨S32768x16, .f32⟩
  | 89 => ⟨S32768x16, .f32⟩
  | 90 => ⟨S_, .f32⟩
  | 91 => ⟨S16, .f32⟩
  | 92 => ⟨S_, .f32⟩
  | 93 => ⟨S16, .f32⟩
  | 94 => ⟨S16, .f32⟩
  | 95 => ⟨S16, .f32⟩
  | 96 => ⟨S16, .f32⟩
  | 97 => ⟨S16, .f32⟩
  | 98 => ⟨S16, .f32⟩
  | 99 => ⟨S_, .f32⟩
  | 100 => ⟨S_, .f32⟩
  | 101 => ⟨S_, .f32⟩
  | 102 => ⟨S_, .f32⟩
  | 103 => ⟨S_, .f32⟩
  | 104 => ⟨S32768x16, .f32⟩
  | 105 => ⟨S32768x16x2, .f32⟩
  | 106 => ⟨S32768x32, .f32⟩
  | 107 => ⟨S32768x16x2, .f32⟩
  | 108 => ⟨S32768x32, .f32⟩
  | 109 => ⟨S32768x32, .f32⟩
  | 110 => ⟨S_, .f32⟩
  | 111 => ⟨S32, .f32⟩
  | 112 => ⟨S_, .f32⟩
  | 113 => ⟨S32, .f32⟩
  | 114 => ⟨S32, .f32⟩
  | 115 => ⟨S32, .f32⟩
  | 116 => ⟨S32, .f32⟩
  | 117 => ⟨S32, .f32⟩
  | 118 => ⟨S32, .f32⟩
  | 119 => ⟨S_, .f32⟩
  | 120 => ⟨S_, .f32⟩
  | 121 => ⟨S_, .f32⟩
  | 122 => ⟨S_, .f32⟩
  | 123 => ⟨S_, .f32⟩
  | 124 => ⟨S32768x32, .f32⟩
  | 125 => ⟨S32768x32x2, .f32⟩
  | 126 => ⟨S32768x64, .f32⟩
  | 127 => ⟨S32768x32x2, .f32⟩
  | _ => ⟨S32768x1024, .f32⟩

abbrev hbmTy0_1 (i : Nat) : BufTy := match i % 128 with
  | 0 => ⟨S32768x64, .f32⟩
  | 1 => ⟨S32768x64, .f32⟩
  | 2 => ⟨S_, .f32⟩
  | 3 => ⟨S64, .f32⟩
  | 4 => ⟨S_, .f32⟩
  | 5 => ⟨S64, .f32⟩
  | 6 => ⟨S64, .f32⟩
  | 7 => ⟨S64, .f32⟩
  | 8 => ⟨S64, .f32⟩
  | 9 => ⟨S64, .f32⟩
  | 10 => ⟨S64, .f32⟩
  | 11 => ⟨S_, .f32⟩
  | 12 => ⟨S_, .f32⟩
  | 13 => ⟨S_, .f32⟩
  | 14 => ⟨S_, .f32⟩
  | 15 => ⟨S_, .f32⟩
  | 16 => ⟨S32768x64, .f32⟩
  | 17 => ⟨S32768x64x2, .f32⟩
  | 18 => ⟨S32768x128, .f32⟩
  | 19 => ⟨S32768x64x2, .f32⟩
  | 20 => ⟨S32768x128, .f32⟩
  | 21 => ⟨S32768x128, .f32⟩
  | 22 => ⟨S_, .f32⟩
  | 23 => ⟨S128, .f32⟩
  | 24 => ⟨S_, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S_, .f32⟩
  | 32 => ⟨S_, .f32⟩
  | 33 => ⟨S_, .f32⟩
  | 34 => ⟨S_, .f32⟩
  | 35 => ⟨S_, .f32⟩
  | 36 => ⟨S32768x128, .f32⟩
  | 37 => ⟨S32768x128x2, .f32⟩
  | 38 => ⟨S32768x256, .f32⟩
  | 39 => ⟨S32768x128x2, .f32⟩
  | 40 => ⟨S32768x256, .f32⟩
  | 41 => ⟨S32768x256, .f32⟩
  | 42 => ⟨S_, .f32⟩
  | 43 => ⟨S256, .f32⟩
  | 44 => ⟨S_, .f32⟩
  | 45 => ⟨S256, .f32⟩
  | 46 => ⟨S256, .f32⟩
  | 47 => ⟨S256, .f32⟩
  | 48 => ⟨S256, .f32⟩
  | 49 => ⟨S256, .f32⟩
  | 50 => ⟨S256, .f32⟩
  | 51 => ⟨S_, .f32⟩
  | 52 => ⟨S_, .f32⟩
  | 53 => ⟨S_, .f32⟩
  | 54 => ⟨S_, .f32⟩
  | 55 => ⟨S_, .f32⟩
  | 56 => ⟨S32768x256, .f32⟩
  | 57 => ⟨S256x1000, .f32⟩
  | 58 => ⟨S32768x1000, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_cst_18 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_19 : Ref sig .tc := ⟨.hbm, 99, rfl⟩
abbrev main_v76 : Ref sig .tc := ⟨.hbm, 100, rfl⟩
abbrev main_cst_20 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_21 : Ref sig .tc := ⟨.hbm, 110, rfl⟩
abbrev main_v85 : Ref sig .tc := ⟨.hbm, 111, rfl⟩
abbrev main_cst_22 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_23 : Ref sig .tc := ⟨.hbm, 119, rfl⟩
abbrev main_v92 : Ref sig .tc := ⟨.hbm, 120, rfl⟩
abbrev main_cst_24 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_25 : Ref sig .tc := ⟨.hbm, 130, rfl⟩
abbrev main_v101 : Ref sig .tc := ⟨.hbm, 131, rfl⟩
abbrev main_cst_26 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_27 : Ref sig .tc := ⟨.hbm, 139, rfl⟩
abbrev main_v108 : Ref sig .tc := ⟨.hbm, 140, rfl⟩
abbrev main_cst_28 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_29 : Ref sig .tc := ⟨.hbm, 150, rfl⟩
abbrev main_v117 : Ref sig .tc := ⟨.hbm, 151, rfl⟩
abbrev main_cst_30 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_31 : Ref sig .tc := ⟨.hbm, 159, rfl⟩
abbrev main_v124 : Ref sig .tc := ⟨.hbm, 160, rfl⟩
abbrev main_cst_32 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_33 : Ref sig .tc := ⟨.hbm, 170, rfl⟩
abbrev main_v133 : Ref sig .tc := ⟨.hbm, 171, rfl⟩
abbrev main_cst_34 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_35 : Ref sig .tc := ⟨.hbm, 179, rfl⟩
abbrev main_v140 : Ref sig .tc := ⟨.hbm, 180, rfl⟩
abbrev main_cst_36 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩

abbrev nD : Nat := 1
abbrev τ : Topo := Topo.v7x

variable {F : FTy → Type} [FloatOps F]

class Facts₀ : Prop where
  bcast_S_S32768x1 : S_.BroadcastsInDim S32768x1 (![] : Fin 0 → Fin S32768x1.rank)
  concatenates_S32768x1_S32768x1024_S32768x1025_d1 : Shape.Concatenates [S32768x1, S32768x1024] S32768x1025 1
  transposes_S255x1025_S1025x255_1_0 : S255x1025.Transposes [1, 0] S1025x255
  bcast_S_S32768x255 : S_.BroadcastsInDim S32768x255 (![] : Fin 0 → Fin S32768x255.rank)
  bcast_S32768x255_S32768x255x1_0_1 : S32768x255.BroadcastsInDim S32768x255x1 (![0, 1] : Fin 2 → Fin S32768x255x1.rank)
  concatenates_S32768x255x1_S32768x255x1_S32768x255x2_d2 : Shape.Concatenates [S32768x255x1, S32768x255x1] S32768x255x2 2
  slices_S32768x255x2_S32768x1x2_0_0_0 : S32768x255x2.Slices ![0, 0, 0] S32768x1x2
  shapeCasts_S32768x1x2_S32768x2 : S32768x1x2.ShapeCasts S32768x2
  bcast_S32768x1_S32768x1x2_0_1 : S32768x1.BroadcastsInDim S32768x1x2 (![0, 1] : Fin 2 → Fin S32768x1x2.rank)
  reducesTo_S32768x2_S2_d0 : S32768x2.ReducesTo [0] S2
  h_S_ : 0 < S_.numel
  reducesTo_S2_S_d0 : S2.ReducesTo [0] S_
  slices_S32768x255x2_S32768x2x2_0_1_0 : S32768x255x2.Slices ![0, 1, 0] S32768x2x2
  shapeCasts_S32768x2x2_S32768x4 : S32768x2x2.ShapeCasts S32768x4
  bcast_S32768x2_S32768x2x2_0_1 : S32768x2.BroadcastsInDim S32768x2x2 (![0, 1] : Fin 2 → Fin S32768x2x2.rank)
  reducesTo_S32768x4_S4_d0 : S32768x4.ReducesTo [0] S4
  reducesTo_S4_S_d0 : S4.ReducesTo [0] S_
  slices_S32768x255x2_S32768x4x2_0_3_0 : S32768x255x2.Slices ![0, 3, 0] S32768x4x2
  shapeCasts_S32768x4x2_S32768x8 : S32768x4x2.ShapeCasts S32768x8
  bcast_S32768x4_S32768x4x2_0_1 : S32768x4.BroadcastsInDim S32768x4x2 (![0, 1] : Fin 2 → Fin S32768x4x2.rank)
  reducesTo_S32768x8_S8_d0 : S32768x8.ReducesTo [0] S8
  reducesTo_S8_S_d0 : S8.ReducesTo [0] S_
  slices_S32768x255x2_S32768x8x2_0_7_0 : S32768x255x2.Slices ![0, 7, 0] S32768x8x2
  shapeCasts_S32768x8x2_S32768x16 : S32768x8x2.ShapeCasts S32768x16
  bcast_S32768x8_S32768x8x2_0_1 : S32768x8.BroadcastsInDim S32768x8x2 (![0, 1] : Fin 2 → Fin S32768x8x2.rank)
  reducesTo_S32768x16_S16_d0 : S32768x16.ReducesTo [0] S16
  reducesTo_S16_S_d0 : S16.ReducesTo [0] S_
  slices_S32768x255x2_S32768x16x2_0_15_0 : S32768x255x2.Slices ![0, 15, 0] S32768x16x2
  shapeCasts_S32768x16x2_S32768x32 : S32768x16x2.ShapeCasts S32768x32
  bcast_S32768x16_S32768x16x2_0_1 : S32768x16.BroadcastsInDim S32768x16x2 (![0, 1] : Fin 2 → Fin S32768x16x2.rank)
  reducesTo_S32768x32_S32_d0 : S32768x32.ReducesTo [0] S32
  reducesTo_S32_S_d0 : S32.ReducesTo [0] S_
  slices_S32768x255x2_S32768x32x2_0_31_0 : S32768x255x2.Slices ![0, 31, 0] S32768x32x2
  shapeCasts_S32768x32x2_S32768x64 : S32768x32x2.ShapeCasts S32768x64
  bcast_S32768x32_S32768x32x2_0_1 : S32768x32.BroadcastsInDim S32768x32x2 (![0, 1] : Fin 2 → Fin S32768x32x2.rank)
  reducesTo_S32768x64_S64_d0 : S32768x64.ReducesTo [0] S64
  reducesTo_S64_S_d0 : S64.ReducesTo [0] S_
  slices_S32768x255x2_S32768x64x2_0_63_0 : S32768x255x2.Slices ![0, 63, 0] S32768x64x2
  shapeCasts_S32768x64x2_S32768x128 : S32768x64x2.ShapeCasts S32768x128
  bcast_S32768x64_S32768x64x2_0_1 : S32768x64.BroadcastsInDim S32768x64x2 (![0, 1] : Fin 2 → Fin S32768x64x2.rank)
  reducesTo_S32768x128_S128_d0 : S32768x128.ReducesTo [0] S128
  reducesTo_S128_S_d0 : S128.ReducesTo [0] S_
  slices_S32768x255x2_S32768x128x2_0_127_0 : S32768x255x2.Slices ![0, 127, 0] S32768x128x2
  shapeCasts_S32768x128x2_S32768x256 : S32768x128x2.ShapeCasts S32768x256
  bcast_S32768x128_S32768x128x2_0_1 : S32768x128.BroadcastsInDim S32768x128x2 (![0, 1] : Fin 2 → Fin S32768x128x2.rank)
  reducesTo_S32768x256_S256_d0 : S32768x256.ReducesTo [0] S256
  reducesTo_S256_S_d0 : S256.ReducesTo [0] S_
  transposes_S1000x256_S256x1000_1_0 : S1000x256.Transposes [1, 0] S256x1000
  dot_S32768x1025_S1025x255_S32768x255_1_0_0_1_n_n_wf : DotDims.WF S32768x1025 S1025x255 S32768x255 [1] [0] [0] [1] [] []
  dot_S32768x256_S256x1000_S32768x1000_1_0_0_1_n_n_wf : DotDims.WF S32768x256 S256x1000 S32768x1000 [1] [0] [0] [1] [] []

variable [Facts₀]

def dot_S32768x1025_S1025x255_S32768x255_1_0_0_1_n_n : DotDims S32768x1025 S1025x255 S32768x255 where
  lhsContracting := [1]
  rhsContracting := [0]
  lhsNonContracting := [0]
  rhsNonContracting := [1]
  lhsBatch := []
  rhsBatch := []
  wf := dot_S32768x1025_S1025x255_S32768x255_1_0_0_1_n_n_wf
def dot_S32768x256_S256x1000_S32768x1000_1_0_0_1_n_n : DotDims S32768x256 S256x1000 S32768x1000 where
  lhsContracting := [1]
  rhsContracting := [0]
  lhsNonContracting := [0]
  rhsNonContracting := [1]
  lhsBatch := []
  rhsBatch := []
  wf := dot_S32768x256_S256x1000_S32768x1000_1_0_0_1_n_n_wf

class Facts : Prop extends Facts₀ where

variable [Facts]
-- ==== Proof.KDefs.lean ====
/-
  The tree recursion of the kernel's host stretch between its two pallas_calls, as named whole-array terms of the
  routing probabilities `P` (the first call's result, [32768, 255]). Layer `l` has `n = 2^l` nodes, read from
  columns `n - 1 … 2n - 2` of `P`:
    pl   = P[:, n-1 : 2n-1]                      the layer's routing probabilities
    mu'  = interleave (mu · pl, mu · (1 - pl))   the path probabilities of the 2n children
    α    = Σ_b (mu · pl) / Σ_b mu                the mean routing of each node, weighted by its path probability
    term = c_l · Σ_k (log α_k + log1p (-α_k))    with c_l = f32(1e-3) · 2^(-l)
  and the penalty is 0 - term_0 - term_1 - … - term_7. Each definition is the printed program's own term for that
  buffer, so that reading the host stretch back gives these names.
-/
import proofs.«134657_j7687991460616_1_alg».proof.KernelIdeal
import proofs.«134657_j7687991460616_1_alg».proof.Proof.Gen.KernelIdeal

noncomputable section

namespace Cert.KernelIdeal.Tree

open Cert.KernelIdeal Idealize.ShloMosaic Idealize.ShloMosaic.TcCoe
open Cert.KernelIdeal.Facts₀ Cert.KernelIdeal.Facts

variable {F : FTy → Type} [FloatOps F]

/-- Before the first layer every sample is at the root with probability one. -/
def mu0 (P : Vec F S32768x255 .f32) : Vec F S32768x1 .f32 := broadcastInDim S32768x1 ![] bcast_S_S32768x1 (constant S_ .f32 0x3F800000#32)

/-! ## Layer 0: 1 node, columns 0 … 0 of `P` -/

/-- The layer's routing probabilities: 1 column of `P` from column 0. -/
def pl0 (P : Vec F S32768x255 .f32) : Vec F S32768x1 .f32 := extractStridedSlice S32768x1 ![0, 0] P slices_S32768x255_S32768x1_0_0
/-- The path probability into each left child: the node's, times its routing probability. -/
def left0 (P : Vec F S32768x255 .f32) : Vec F S32768x1 .f32 := mulf (mu0 P) (pl0 P)
/-- The path probability into each right child: the node's, times one minus its routing probability. -/
def right0 (P : Vec F S32768x255 .f32) : Vec F S32768x1 .f32 :=
  mulf (mu0 P) (subf (broadcastInDim S32768x1 ![] bcast_S_S32768x1 (constant S_ .f32 0x3F800000#32)) (pl0 P))
/-- Each node's mean routing over the batch, weighted by the path probability into the node. -/
def alpha0 (P : Vec F S32768x255 .f32) : Vec F S1 .f32 :=
  Host.divf (Host.reduceAdd (left0 P) (constant S_ .f32 0x00000000#32) reducesTo_S32768x1_S1_d0 h_S_) (Host.reduceAdd (mu0 P) (constant S_ .f32 0x00000000#32) reducesTo_S32768x1_S1_d0 h_S_)
/-- The layer's share of the penalty: its coefficient times the sum over its nodes of log α + log1p (-α). -/
def term0 (P : Vec F S32768x255 .f32) : Vec F S_ .f32 :=
  mulf (constant S_ .f32 0x3A83126F#32) (Host.reduceAdd (addf (Host.log (alpha0 P)) (Host.log1p (Host.negf (alpha0 P)))) (constant S_ .f32 0x00000000#32) reducesTo_S1_S_d0 h_S_)
/-- The penalty after this layer. -/
def pen0 (P : Vec F S32768x255 .f32) : Vec F S_ .f32 := subf (constant S_ .f32 0x00000000#32) (term0 P)
/-- The children's path probabilities, left and right interleaved: [32768, 1, 2] flattened to [32768, 2]. -/
def mu1 (P : Vec F S32768x255 .f32) : Vec F S32768x2 .f32 :=
  shapeCast S32768x2 (concatenate S32768x1x2 2 [⟨S32768x1x1, broadcastInDim S32768x1x1 ![0, 1] bcast_S32768x1_S32768x1x1_0_1 (left0 P)⟩, ⟨S32768x1x1, broadcastInDim S32768x1x1 ![0, 1] bcast_S32768x1_S32768x1x1_0_1 (right0 P)⟩] concatenates_S32768x1x1_S32768x1x1_S32768x1x2_d2) shapeCasts_S32768x1x2_S32768x2

/-! ## Layer 1: 2 nodes, columns 1 … 2 of `P` -/

/-- The layer's routing probabilities: 2 columns of `P` from column 1. -/
def pl1 (P : Vec F S32768x255 .f32) : Vec F S32768x2 .f32 := extractStridedSlice S32768x2 ![0, 1] P slices_S32768x255_S32768x2_0_1
/-- The path probability into each left child: the node's, times its routing probability. -/
def left1 (P : Vec F S32768x255 .f32) : Vec F S32768x2 .f32 := mulf (mu1 P) (pl1 P)
/-- The path probability into each right child: the node's, times one minus its routing probability. -/
def right1 (P : Vec F S32768x255 .f32) : Vec F S32768x2 .f32 :=
  mulf (mu1 P) (subf (broadcastInDim S32768x2 ![] bcast_S_S32768x2 (constant S_ .f32 0x3F800000#32)) (pl1 P))
/-- Each node's mean routing over the batch, weighted by the path probability into the node. -/
def alpha1 (P : Vec F S32768x255 .f32) : Vec F S2 .f32 :=
  Host.divf (Host.reduceAdd (left1 P) (constant S_ .f32 0x00000000#32) reducesTo_S32768x2_S2_d0 h_S_) (Host.reduceAdd (mu1 P) (constant S_ .f32 0x00000000#32) reducesTo_S32768x2_S2_d0 h_S_)
/-- The layer's share of the penalty: its coefficient times the sum over its nodes of log α + log1p (-α). -/
def term1 (P : Vec F S32768x255 .f32) : Vec F S_ .f32 :=
  mulf (constant S_ .f32 0x3A03126F#32) (Host.reduceAdd (addf (Host.log (alpha1 P)) (Host.log1p (Host.negf (alpha1 P)))) (constant S_ .f32 0x00000000#32) reducesTo_S2_S_d0 h_S_)
/-- The penalty after this layer. -/
def pen1 (P : Vec F S32768x255 .f32) : Vec F S_ .f32 := subf (pen0 P) (term1 P)
/-- The children's path probabilities, left and right interleaved: [32768, 2, 2] flattened to [32768, 4]. -/
def mu2 (P : Vec F S32768x255 .f32) : Vec F S32768x4 .f32 :=
  shapeCast S32768x4 (concatenate S32768x2x2 2 [⟨S32768x2x1, broadcastInDim S32768x2x1 ![0, 1] bcast_S32768x2_S32768x2x1_0_1 (left1 P)⟩, ⟨S32768x2x1, broadcastInDim S32768x2x1 ![0, 1] bcast_S32768x2_S32768x2x1_0_1 (right1 P)⟩] concatenates_S32768x2x1_S32768x2x1_S32768x2x2_d2) shapeCasts_S32768x2x2_S32768x4

/-! ## Layer 2: 4 nodes, columns 3 … 6 of `P` -/

/-- The layer's routing probabilities: 4 columns of `P` from column 3. -/
def pl2 (P : Vec F S32768x255 .f32) : Vec F S32768x4 .f32 := extractStridedSlice S32768x4 ![0, 3] P slices_S32768x255_S32768x4_0_3
/-- The path probability into each left child: the node's, times its routing probability. -/
def left2 (P : Vec F S32768x255 .f32) : Vec F S32768x4 .f32 := mulf (mu2 P) (pl2 P)
/-- The path probability into each right child: the node's, times one minus its routing probability. -/
def right2 (P : Vec F S32768x255 .f32) : Vec F S32768x4 .f32 :=
  mulf (mu2 P) (subf (broadcastInDim S32768x4 ![] bcast_S_S32768x4 (constant S_ .f32 0x3F800000#32)) (pl2 P))
/-- Each node's mean routing over the batch, weighted by the path probability into the node. -/
def alpha2 (P : Vec F S32768x255 .f32) : Vec F S4 .f32 :=
  Host.divf (Host.reduceAdd (left2 P) (constant S_ .f32 0x00000000#32) reducesTo_S32768x4_S4_d0 h_S_) (Host.reduceAdd (mu2 P) (constant S_ .f32 0x00000000#32) reducesTo_S32768x4_S4_d0 h_S_)
/-- The layer's share of the penalty: its coefficient times the sum over its nodes of log α + log1p (-α). -/
def term2 (P : Vec F S32768x255 .f32) : Vec F S_ .f32 :=
  mulf (constant S_ .f32 0x3983126F#32) (Host.reduceAdd (addf (Host.log (alpha2 P)) (Host.log1p (Host.negf (alpha2 P)))) (constant S_ .f32 0x00000000#32) reducesTo_S4_S_d0 h_S_)
/-- The penalty after this layer. -/
def pen2 (P : Vec F S32768x255 .f32) : Vec F S_ .f32 := subf (pen1 P) (term2 P)
/-- The children's path probabilities, left and right interleaved: [32768, 4, 2] flattened to [32768, 8]. -/
def mu3 (P : Vec F S32768x255 .f32) : Vec F S32768x8 .f32 :=
  shapeCast S32768x8 (concatenate S32768x4x2 2 [⟨S32768x4x1, broadcastInDim S32768x4x1 ![0, 1] bcast_S32768x4_S32768x4x1_0_1 (left2 P)⟩, ⟨S32768x4x1, broadcastInDim S32768x4x1 ![0, 1] bcast_S32768x4_S32768x4x1_0_1 (right2 P)⟩] concatenates_S32768x4x1_S32768x4x1_S32768x4x2_d2) shapeCasts_S32768x4x2_S32768x8

/-! ## Layer 3: 8 nodes, columns 7 … 14 of `P` -/

/-- The layer's routing probabilities: 8 columns of `P` from column 7. -/
def pl3 (P : Vec F S32768x255 .f32) : Vec F S32768x8 .f32 := extractStridedSlice S32768x8 ![0, 7] P slices_S32768x255_S32768x8_0_7
/-- The path probability into each left child: the node's, times its routing probability. -/
def left3 (P : Vec F S32768x255 .f32) : Vec F S32768x8 .f32 := mulf (mu3 P) (pl3 P)
/-- The path probability into each right child: the node's, times one minus its routing probability. -/
def right3 (P : Vec F S32768x255 .f32) : Vec F S32768x8 .f32 :=
  mulf (mu3 P) (subf (broadcastInDim S32768x8 ![] bcast_S_S32768x8 (constant S_ .f32 0x3F800000#32)) (pl3 P))
/-- Each node's mean routing over the batch, weighted by the path probability into the node. -/
def alpha3 (P : Vec F S32768x255 .f32) : Vec F S8 .f32 :=
  Host.divf (Host.reduceAdd (left3 P) (constant S_ .f32 0x00000000#32) reducesTo_S32768x8_S8_d0 h_S_) (Host.reduceAdd (mu3 P) (constant S_ .f32 0x00000000#32) reducesTo_S32768x8_S8_d0 h_S_)
/-- The layer's share of the penalty: its coefficient times the sum over its nodes of log α + log1p (-α). -/
def term3 (P : Vec F S32768x255 .f32) : Vec F S_ .f32 :=
  mulf (constant S_ .f32 0x3903126F#32) (Host.reduceAdd (addf (Host.log (alpha3 P)) (Host.log1p (Host.negf (alpha3 P)))) (constant S_ .f32 0x00000000#32) reducesTo_S8_S_d0 h_S_)
/-- The penalty after this layer. -/
def pen3 (P : Vec F S32768x255 .f32) : Vec F S_ .f32 := subf (pen2 P) (term3 P)
/-- The children's path probabilities, left and right interleaved: [32768, 8, 2] flattened to [32768, 16]. -/
def mu4 (P : Vec F S32768x255 .f32) : Vec F S32768x16 .f32 :=
  shapeCast S32768x16 (concatenate S32768x8x2 2 [⟨S32768x8x1, broadcastInDim S32768x8x1 ![0, 1] bcast_S32768x8_S32768x8x1_0_1 (left3 P)⟩, ⟨S32768x8x1, broadcastInDim S32768x8x1 ![0, 1] bcast_S32768x8_S32768x8x1_0_1 (right3 P)⟩] concatenates_S32768x8x1_S32768x8x1_S32768x8x2_d2) shapeCasts_S32768x8x2_S32768x16

/-! ## Layer 4: 16 nodes, columns 15 … 30 of `P` -/

/-- The layer's routing probabilities: 16 columns of `P` from column 15. -/
def pl4 (P : Vec F S32768x255 .f32) : Vec F S32768x16 .f32 := extractStridedSlice S32768x16 ![0, 15] P slices_S32768x255_S32768x16_0_15
/-- The path probability into each left child: the node's, times its routing probability. -/
def left4 (P : Vec F S32768x255 .f32) : Vec F S32768x16 .f32 := mulf (mu4 P) (pl4 P)
/-- The path probability into each right child: the node's, times one minus its routing probability. -/
def right4 (P : Vec F S32768x255 .f32) : Vec F S32768x16 .f32 :=
  mulf (mu4 P) (subf (broadcastInDim S32768x16 ![] bcast_S_S32768x16 (constant S_ .f32 0x3F800000#32)) (pl4 P))
/-- Each node's mean routing over the batch, weighted by the path probability into the node. -/
def alpha4 (P : Vec F S32768x255 .f32) : Vec F S16 .f32 :=
  Host.divf (Host.reduceAdd (left4 P) (constant S_ .f32 0x00000000#32) reducesTo_S32768x16_S16_d0 h_S_) (Host.reduceAdd (mu4 P) (constant S_ .f32 0x00000000#32) reducesTo_S32768x16_S16_d0 h_S_)
/-- The layer's share of the penalty: its coefficient times the sum over its nodes of log α + log1p (-α). -/
def term4 (P : Vec F S32768x255 .f32) : Vec F S_ .f32 :=
  mulf (constant S_ .f32 0x3883126F#32) (Host.reduceAdd (addf (Host.log (alpha4 P)) (Host.log1p (Host.negf (alpha4 P)))) (constant S_ .f32 0x00000000#32) reducesTo_S16_S_d0 h_S_)
/-- The penalty after this layer. -/
def pen4 (P : Vec F S32768x255 .f32) : Vec F S_ .f32 := subf (pen3 P) (term4 P)
/-- The children's path probabilities, left and right interleaved: [32768, 16, 2] flattened to [32768, 32]. -/
def mu5 (P : Vec F S32768x255 .f32) : Vec F S32768x32 .f32 :=
  shapeCast S32768x32 (concatenate S32768x16x2 2 [⟨S32768x16x1, broadcastInDim S32768x16x1 ![0, 1] bcast_S32768x16_S32768x16x1_0_1 (left4 P)⟩, ⟨S32768x16x1, broadcastInDim S32768x16x1 ![0, 1] bcast_S32768x16_S32768x16x1_0_1 (right4 P)⟩] concatenates_S32768x16x1_S32768x16x1_S32768x16x2_d2) shapeCasts_S32768x16x2_S32768x32

/-! ## Layer 5: 32 nodes, columns 31 … 62 of `P` -/

/-- The layer's routing probabilities: 32 columns of `P` from column 31. -/
def pl5 (P : Vec F S32768x255 .f32) : Vec F S32768x32 .f32 := extractStridedSlice S32768x32 ![0, 31] P slices_S32768x255_S32768x32_0_31
/-- The path probability into each left child: the node's, times its routing probability. -/
def left5 (P : Vec F S32768x255 .f32) : Vec F S32768x32 .f32 := mulf (mu5 P) (pl5 P)
/-- The path probability into each right child: the node's, times one minus its routing probability. -/
def right5 (P : Vec F S32768x255 .f32) : Vec F S32768x32 .f32 :=
  mulf (mu5 P) (subf (broadcastInDim S32768x32 ![] bcast_S_S32768x32 (constant S_ .f32 0x3F800000#32)) (pl5 P))
/-- Each node's mean routing over the batch, weighted by the path probability into the node. -/
def alpha5 (P : Vec F S32768x255 .f32) : Vec F S32 .f32 :=
  Host.divf (Host.reduceAdd (left5 P) (constant S_ .f32 0x00000000#32) reducesTo_S32768x32_S32_d0 h_S_) (Host.reduceAdd (mu5 P) (constant S_ .f32 0x00000000#32) reducesTo_S32768x32_S32_d0 h_S_)
/-- The layer's share of the penalty: its coefficient times the sum over its nodes of log α + log1p (-α). -/
def term5 (P : Vec F S32768x255 .f32) : Vec F S_ .f32 :=
  mulf (constant S_ .f32 0x3803126F#32) (Host.reduceAdd (addf (Host.log (alpha5 P)) (Host.log1p (Host.negf (alpha5 P)))) (constant S_ .f32 0x00000000#32) reducesTo_S32_S_d0 h_S_)
/-- The penalty after this layer. -/
def pen5 (P : Vec F S32768x255 .f32) : Vec F S_ .f32 := subf (pen4 P) (term5 P)
/-- The children's path probabilities, left and right interleaved: [32768, 32, 2] flattened to [32768, 64]. -/
def mu6 (P : Vec F S32768x255 .f32) : Vec F S32768x64 .f32 :=
  shapeCast S32768x64 (concatenate S32768x32x2 2 [⟨S32768x32x1, broadcastInDim S32768x32x1 ![0, 1] bcast_S32768x32_S32768x32x1_0_1 (left5 P)⟩, ⟨S32768x32x1, broadcastInDim S32768x32x1 ![0, 1] bcast_S32768x32_S32768x32x1_0_1 (right5 P)⟩] concatenates_S32768x32x1_S32768x32x1_S32768x32x2_d2) shapeCasts_S32768x32x2_S32768x64

/-! ## Layer 6: 64 nodes, columns 63 … 126 of `P` -/

/-- The layer's routing probabilities: 64 columns of `P` from column 63. -/
def pl6 (P : Vec F S32768x255 .f32) : Vec F S32768x64 .f32 := extractStridedSlice S32768x64 ![0, 63] P slices_S32768x255_S32768x64_0_63
/-- The path probability into each left child: the node's, times its routing probability. -/
def left6 (P : Vec F S32768x255 .f32) : Vec F S32768x64 .f32 := mulf (mu6 P) (pl6 P)
/-- The path probability into each right child: the node's, times one minus its routing probability. -/
def right6 (P : Vec F S32768x255 .f32) : Vec F S32768x64 .f32 :=
  mulf (mu6 P) (subf (broadcastInDim S32768x64 ![] bcast_S_S32768x64 (constant S_ .f32 0x3F800000#32)) (pl6 P))
/-- Each node's mean routing over the batch, weighted by the path probability into the node. -/
def alpha6 (P : Vec F S32768x255 .f32) : Vec F S64 .f32 :=
  Host.divf (Host.reduceAdd (left6 P) (constant S_ .f32 0x00000000#32) reducesTo_S32768x64_S64_d0 h_S_) (Host.reduceAdd (mu6 P) (constant S_ .f32 0x00000000#32) reducesTo_S32768x64_S64_d0 h_S_)
/-- The layer's share of the penalty: its coefficient times the sum over its nodes of log α + log1p (-α). -/
def term6 (P : Vec F S32768x255 .f32) : Vec F S_ .f32 :=
  mulf (constant S_ .f32 0x3783126F#32) (Host.reduceAdd (addf (Host.log (alpha6 P)) (Host.log1p (Host.negf (alpha6 P)))) (constant S_ .f32 0x00000000#32) reducesTo_S64_S_d0 h_S_)
/-- The penalty after this layer. -/
def pen6 (P : Vec F S32768x255 .f32) : Vec F S_ .f32 := subf (pen5 P) (term6 P)
/-- The children's path probabilities, left and right interleaved: [32768, 64, 2] flattened to [32768, 128]. -/
def mu7 (P : Vec F S32768x255 .f32) : Vec F S32768x128 .f32 :=
  shapeCast S32768x128 (concatenate S32768x64x2 2 [⟨S32768x64x1, broadcastInDim S32768x64x1 ![0, 1] bcast_S32768x64_S32768x64x1_0_1 (left6 P)⟩, ⟨S32768x64x1, broadcastInDim S32768x64x1 ![0, 1] bcast_S32768x64_S32768x64x1_0_1 (right6 P)⟩] concatenates_S32768x64x1_S32768x64x1_S32768x64x2_d2) shapeCasts_S32768x64x2_S32768x128

/-! ## Layer 7: 128 nodes, columns 127 … 254 of `P` -/

/-- The layer's routing probabilities: 128 columns of `P` from column 127. -/
def pl7 (P : Vec F S32768x255 .f32) : Vec F S32768x128 .f32 := extractStridedSlice S32768x128 ![0, 127] P slices_S32768x255_S32768x128_0_127
/-- The path probability into each left child: the node's, times its routing probability. -/
def left7 (P : Vec F S32768x255 .f32) : Vec F S32768x128 .f32 := mulf (mu7 P) (pl7 P)
/-- The path probability into each right child: the node's, times one minus its routing probability. -/
def right7 (P : Vec F S32768x255 .f32) : Vec F S32768x128 .f32 :=
  mulf (mu7 P) (subf (broadcastInDim S32768x128 ![] bcast_S_S32768x128 (constant S_ .f32 0x3F800000#32)) (pl7 P))
/-- Each node's mean routing over the batch, weighted by the path probability into the node. -/
def alpha7 (P : Vec F S32768x255 .f32) : Vec F S128 .f32 :=
  Host.divf (Host.reduceAdd (left7 P) (constant S_ .f32 0x00000000#32) reducesTo_S32768x128_S128_d0 h_S_) (Host.reduceAdd (mu7 P) (constant S_ .f32 0x00000000#32) reducesTo_S32768x128_S128_d0 h_S_)
/-- The layer's share of the penalty: its coefficient times the sum over its nodes of log α + log1p (-α). -/
def term7 (P : Vec F S32768x255 .f32) : Vec F S_ .f32 :=
  mulf (constant S_ .f32 0x3703126F#32) (Host.reduceAdd (addf (Host.log (alpha7 P)) (Host.log1p (Host.negf (alpha7 P)))) (constant S_ .f32 0x00000000#32) reducesTo_S128_S_d0 h_S_)
/-- The penalty after this layer. -/
def pen7 (P : Vec F S32768x255 .f32) : Vec F S_ .f32 := subf (pen6 P) (term7 P)
/-- The children's path probabilities, left and right interleaved: [32768, 128, 2] flattened to [32768, 256]. -/
def mu8 (P : Vec F S32768x255 .f32) : Vec F S32768x256 .f32 :=
  shapeCast S32768x256 (concatenate S32768x128x2 2 [⟨S32768x128x1, broadcastInDim S32768x128x1 ![0, 1] bcast_S32768x128_S32768x128x1_0_1 (left7 P)⟩, ⟨S32768x128x1, broadcastInDim S32768x128x1 ![0, 1] bcast_S32768x128_S32768x128x1_0_1 (right7 P)⟩] concatenates_S32768x128x1_S32768x128x1_S32768x128x2_d2) shapeCasts_S32768x128x2_S32768x256

end Cert.KernelIdeal.Tree

end
-- ==== Proof.LBase.lean ====
/-
  Shared vocabulary of the tree layers' proofs: what it means for an extended real to be a positive real, and to be a
  real strictly between 0 and 1; the words of one and zero; and "the word c is twice the word d", the relation between
  the kernel's penalty coefficient of a layer (f32(1e-3) · 2^(-l)) and the reference's (half of it).
-/
import Idealize.ShloMosaic.PureOps.Ideal
import Idealize.ShloMosaic.PureOps.Ideal.Laws

noncomputable section

namespace Cert.Layer

open Idealize.ShloMosaic

/-- An extended real that is a positive real number. -/
def Pos (x : EReal) : Prop := ∃ r : ℝ, 0 < r ∧ x = (r : EReal)

/-- An extended real that is a real number strictly between 0 and 1. -/
def Unit01 (x : EReal) : Prop := ∃ r : ℝ, 0 < r ∧ r < 1 ∧ x = (r : EReal)

/-- An extended real that is a real number. -/
def IsReal (x : EReal) : Prop := ∃ r : ℝ, x = (r : EReal)

/-- The f32 word `c` denotes twice the real the f32 word `d` denotes. -/
def Halves (c d : BitVec 32) : Prop :=
  ∃ r : ℝ, Ideal.ofBits .f32 d = (r : EReal) ∧ Ideal.ofBits .f32 c = ((2 * r : ℝ) : EReal)

/-- The f32 word of 1.0 is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

end Cert.Layer

end
-- ==== Proof.LayerIdx.lean ====
/-
  One layer of the tree, for ANY number of nodes `n` (the layer's children are `n2 = 2n`; its routing probabilities are
  columns `off … off + n - 1` of `P`), as the two programs compute it, and the comparison.
  The kernel's program interleaves the two products: children (mu · pl, mu · (1 - pl)) stacked on a new last axis and
  flattened. The reference interleaves first — (P, 1 - P) stacked on a new last axis once for all layers, the layer's
  columns sliced out and flattened; mu repeated twice along a new last axis and flattened — and multiplies after.
  At an index (b, 2k + s) both read mu(b, k) · (P(b, off + k) if s = 0, 1 - P(b, off + k) if s = 1).
-/
import proofs.«134657_j7687991460616_1_alg».proof.Proof.LBase
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Layer

open Idealize.ShloMosaic Idealize.ShloMosaic.ValueIdx

/-! ## Shapes, for any number of nodes -/

abbrev S0 : Shape := ⟨0, ![]⟩
abbrev SP : Shape := ⟨2, ![32768, 255]⟩
abbrev SP1 : Shape := ⟨3, ![32768, 255, 1]⟩
abbrev SP2 : Shape := ⟨3, ![32768, 255, 2]⟩
abbrev Sb (n : ℕ) : Shape := ⟨2, ![32768, n]⟩
abbrev Sb1 (n : ℕ) : Shape := ⟨3, ![32768, n, 1]⟩
abbrev Sb2 (n : ℕ) : Shape := ⟨3, ![32768, n, 2]⟩
abbrev Sn (n : ℕ) : Shape := ⟨1, ![n]⟩

abbrev one0 : FVec Ideal S0 .f32 := constant S0 .f32 0x3F800000#32
abbrev zero0 : FVec Ideal S0 .f32 := constant S0 .f32 0x00000000#32

/-- The shape facts the kernel's layer of `n` nodes takes. -/
structure KFacts (n n2 off : ℕ) : Prop where
  sl : SP.Slices ![0, off] (Sb n)
  b1 : S0.BroadcastsInDim (Sb n) ![]
  bb : (Sb n).BroadcastsInDim (Sb1 n) ![0, 1]
  cc : Shape.Concatenates [Sb1 n, Sb1 n] (Sb2 n) 2
  sc : (Sb2 n).ShapeCasts (Sb n2)
  rd : (Sb n).ReducesTo [0] (Sn n)
  rs : (Sn n).ReducesTo [0] S0
  h0 : 0 < S0.numel

/-- The shape facts of the reference's stacked (P, 1 - P). -/
structure PFacts : Prop where
  b1 : S0.BroadcastsInDim SP ![]
  bb : SP.BroadcastsInDim SP1 ![0, 1]
  cc : Shape.Concatenates [SP1, SP1] SP2 2

/-- The shape facts the reference's layer of `n` nodes takes. -/
structure RFacts (n n2 off : ℕ) : Prop where
  sl : SP2.Slices ![0, off, 0] (Sb2 n)
  bb : (Sb n).BroadcastsInDim (Sb2 n) ![0, 1]
  sc : (Sb2 n).ShapeCasts (Sb n2)
  rd : (Sb n2).ReducesTo [0] (Sn n2)
  rs : (Sn n2).ReducesTo [0] S0
  h0 : 0 < S0.numel

variable {n n2 off : ℕ}

/-! ## The kernel's layer -/

/-- The layer's routing probabilities: columns `off … off + n - 1` of `P`. -/
def kpl (f : KFacts n n2 off) (P : FVec Ideal SP .f32) : FVec Ideal (Sb n) .f32 :=
  extractStridedSlice (Sb n) ![0, off] P f.sl
def kleft (f : KFacts n n2 off) (M : FVec Ideal (Sb n) .f32) (P : FVec Ideal SP .f32) : FVec Ideal (Sb n) .f32 :=
  mulf M (kpl f P)
def kright (f : KFacts n n2 off) (M : FVec Ideal (Sb n) .f32) (P : FVec Ideal SP .f32) : FVec Ideal (Sb n) .f32 :=
  mulf M (subf (broadcastInDim (Sb n) ![] f.b1 one0) (kpl f P))
/-- The children's path probabilities. -/
def kNext (f : KFacts n n2 off) (M : FVec Ideal (Sb n) .f32) (P : FVec Ideal SP .f32) : FVec Ideal (Sb n2) .f32 :=
  shapeCast (Sb n2) (concatenate (Sb2 n) 2 [⟨Sb1 n, broadcastInDim (Sb1 n) ![0, 1] f.bb (kleft f M P)⟩, ⟨Sb1 n, broadcastInDim (Sb1 n) ![0, 1] f.bb (kright f M P)⟩] f.cc) f.sc
/-- Each node's weighted mean routing. -/
def kAlpha (f : KFacts n n2 off) (M : FVec Ideal (Sb n) .f32) (P : FVec Ideal SP .f32) : FVec Ideal (Sn n) .f32 :=
  Host.divf (Host.reduceAdd (kleft f M P) zero0 f.rd f.h0) (Host.reduceAdd M zero0 f.rd f.h0)
/-- The layer's share of the penalty, with coefficient word `c`. -/
def kTerm (f : KFacts n n2 off) (c : BitVec 32) (M : FVec Ideal (Sb n) .f32) (P : FVec Ideal SP .f32) : FVec Ideal S0 .f32 :=
  mulf (constant S0 .f32 c) (Host.reduceAdd (addf (Host.log (kAlpha f M P)) (Host.log1p (Host.negf (kAlpha f M P)))) zero0 f.rs f.h0)

/-! ## The reference's layer -/

/-- (P, 1 - P) stacked on a new last axis. -/
def PP (p : PFacts) (P : FVec Ideal SP .f32) : FVec Ideal SP2 .f32 :=
  concatenate SP2 2 [⟨SP1, broadcastInDim SP1 ![0, 1] p.bb P⟩, ⟨SP1, broadcastInDim SP1 ![0, 1] p.bb (subf (broadcastInDim SP ![] p.b1 one0) P)⟩] p.cc
/-- The layer's interleaved (p, 1 - p). -/
def rpp (g : RFacts n n2 off) (PPv : FVec Ideal SP2 .f32) : FVec Ideal (Sb n2) .f32 :=
  shapeCast (Sb n2) (extractStridedSlice (Sb2 n) ![0, off, 0] PPv g.sl) g.sc
/-- Each node's path probability, repeated for its two children. -/
def rrep (g : RFacts n n2 off) (M : FVec Ideal (Sb n) .f32) : FVec Ideal (Sb n2) .f32 :=
  shapeCast (Sb n2) (broadcastInDim (Sb2 n) ![0, 1] g.bb M) g.sc
def rNext (g : RFacts n n2 off) (M : FVec Ideal (Sb n) .f32) (PPv : FVec Ideal SP2 .f32) : FVec Ideal (Sb n2) .f32 :=
  mulf (rrep g M) (rpp g PPv)
def rAlpha (g : RFacts n n2 off) (M : FVec Ideal (Sb n) .f32) (PPv : FVec Ideal SP2 .f32) : FVec Ideal (Sn n2) .f32 :=
  Host.divf (Host.reduceAdd (mulf (rpp g PPv) (rrep g M)) zero0 g.rd g.h0) (Host.reduceAdd (rrep g M) zero0 g.rd g.h0)
def rTerm (g : RFacts n n2 off) (d : BitVec 32) (M : FVec Ideal (Sb n) .f32) (PPv : FVec Ideal SP2 .f32) : FVec Ideal S0 .f32 :=
  mulf (constant S0 .f32 d) (Host.reduceAdd (addf (Host.log (rAlpha g M PPv)) (Host.log1p (Host.negf (rAlpha g M PPv)))) zero0 g.rs g.h0)

/-! ## Indices -/

/-- Child `s` of node `k`, as a column of the children's array. -/
def child (h2 : n2 = 2 * n) (k : Fin n) (s : Fin 2) : Fin n2 := ⟨2 * k.val + s.val, by have := k.isLt; have := s.isLt; omega⟩
/-- Node `k`'s column of `P`. -/
def col (ho : off + n ≤ 255) (k : Fin n) : Fin 255 := ⟨off + k.val, by have := k.isLt; omega⟩

/-- The routing factor of child `s`: the node's probability for the left child, one minus it for the right. -/
def route (x : EReal) (s : Fin 2) : EReal := if s.val = 0 then x else Ideal.ofBits .f32 0x3F800000#32 - x

/-! ## The layer read at an index -/

/-- A [n0, n1] array broadcast along a new last axis reads, at (b, k, s), the array at (b, k). -/
private theorem bcast_last {α : Type} {n0 n1 m : ℕ}
    (h : (⟨2, ![n0, n1]⟩ : Shape).BroadcastsInDim ⟨3, ![n0, n1, m]⟩ ![0, 1]) (x : (⟨2, ![n0, n1]⟩ : Shape).Idx → α)
    (b : Fin n0) (k : Fin n1) (s : Fin m) :
    broadcastInDim ⟨3, ![n0, n1, m]⟩ ![0, 1] h x (ix3 b k s) = x (ix2 b k) := by
  refine broadcastInDim_apply ![0, 1] h x (ix3 b k s) (ix2 b k) fun a => ?_
  match a with
  | ⟨0, _⟩ =>
    show b.val = if n0 = 1 then 0 else b.val
    have := b.isLt
    split
    · omega
    · rfl
  | ⟨1, _⟩ =>
    show k.val = if n1 = 1 then 0 else k.val
    have := k.isLt
    split
    · omega
    · rfl

/-- Two [n0, n1] arrays stacked on a new last axis read, at (b, k, s), the first array at (b, k) for s = 0 and the
    second for s = 1. -/
private theorem stack2_apply {α : Type} {n0 n1 : ℕ}
    (hb : (⟨2, ![n0, n1]⟩ : Shape).BroadcastsInDim ⟨3, ![n0, n1, 1]⟩ ![0, 1])
    (hc : Shape.Concatenates [⟨3, ![n0, n1, 1]⟩, ⟨3, ![n0, n1, 1]⟩] ⟨3, ![n0, n1, 2]⟩ 2)
    (y₁ y₂ : (⟨2, ![n0, n1]⟩ : Shape).Idx → α) (b : Fin n0) (k : Fin n1) (s : Fin 2) :
    concatenate ⟨3, ![n0, n1, 2]⟩ 2
      [⟨⟨3, ![n0, n1, 1]⟩, broadcastInDim ⟨3, ![n0, n1, 1]⟩ ![0, 1] hb y₁⟩,
       ⟨⟨3, ![n0, n1, 1]⟩, broadcastInDim ⟨3, ![n0, n1, 1]⟩ ![0, 1] hb y₂⟩] hc (ix3 b k s)
      = if s.val = 0 then y₁ (ix2 b k) else y₂ (ix2 b k) := by
  match s with
  | ⟨0, _⟩ =>
    rw [if_pos rfl]
    refine (concatenate_pair_apply_left 2 _ _ hc _ rfl (ix3 b k (0 : Fin 1)) fun a => ?_).trans
      (bcast_last hb y₁ b k 0)
    match a with
    | ⟨0, _⟩ => rfl
    | ⟨1, _⟩ => rfl
    | ⟨2, _⟩ => rfl
  | ⟨1, h1⟩ =>
    rw [if_neg (show ¬ ((⟨1, h1⟩ : Fin 2).val = 0) from Nat.one_ne_zero)]
    refine (concatenate_pair_apply_right 2 _ _ hc _ rfl rfl (ix3 b k (0 : Fin 1)) (fun a ha => ?_) rfl).trans
      (bcast_last hb y₂ b k 0)
    match a, ha with
    | ⟨0, _⟩, _ => rfl
    | ⟨1, _⟩, _ => rfl
    | ⟨2, _⟩, ha => exact absurd rfl ha

theorem kpl_apply (f : KFacts n n2 off) (ho : off + n ≤ 255) (P : FVec Ideal SP .f32) (b : Fin 32768) (k : Fin n) :
    kpl f P (ix2 b k) = P (ix2 b (col ho k)) := by
  unfold kpl
  refine extractStridedSlice_apply ![0, off] P f.sl (ix2 b k) (ix2 b (col ho k)) fun a => ?_
  match a with
  | ⟨0, _⟩ => show b.val = 0 + b.val; omega
  | ⟨1, _⟩ => show off + k.val = off + k.val; rfl

/-- The flattening [32768, n, 2] → [32768, 2n] read at a child's column: the stacked array at (sample, node, child),
    since (b·n + k)·2 + s = b·(2n) + (2k + s). -/
private theorem cast_child {α : Type} (hsc : (Sb2 n).ShapeCasts (Sb n2)) (h2 : n2 = 2 * n) (x : (Sb2 n).Idx → α)
    (b : Fin 32768) (k : Fin n) (s : Fin 2) :
    shapeCast (Sb n2) x hsc (ix2 b (child h2 k s)) = x (ix3 b k s) := by
  refine shapeCast_apply x hsc (ix2 b (child h2 k s)) (ix3 b k s) ?_
  rw [Shape.rowMajor_val_three, Shape.rowMajor_val_two]
  show (b.val * n + k.val) * 2 + s.val = b.val * n2 + (2 * k.val + s.val)
  subst h2
  ring

theorem kNext_apply (f : KFacts n n2 off) (h2 : n2 = 2 * n) (ho : off + n ≤ 255) (M : FVec Ideal (Sb n) .f32) (P : FVec Ideal SP .f32)
    (b : Fin 32768) (k : Fin n) (s : Fin 2) :
    kNext f M P (ix2 b (child h2 k s)) = M (ix2 b k) * route (P (ix2 b (col ho k))) s := by
  unfold kNext
  refine (cast_child f.sc h2 _ b k s).trans ?_
  refine (stack2_apply f.bb f.cc (kleft f M P) (kright f M P) b k s).trans ?_
  unfold route
  by_cases hs : s.val = 0
  · rw [if_pos hs, if_pos hs]
    show M (ix2 b k) * kpl f P (ix2 b k) = _
    rw [kpl_apply f ho P b k]
  · rw [if_neg hs, if_neg hs]
    show M (ix2 b k) * (broadcastInDim (Sb n) ![] f.b1 one0 (ix2 b k) - kpl f P (ix2 b k)) = _
    rw [kpl_apply f ho P b k, broadcastInDim_scalar_apply f.b1 one0 (ix2 b k)]
    rfl

theorem rpp_apply (g : RFacts n n2 off) (p : PFacts) (h2 : n2 = 2 * n) (ho : off + n ≤ 255) (P : FVec Ideal SP .f32)
    (b : Fin 32768) (k : Fin n) (s : Fin 2) :
    rpp g (PP p P) (ix2 b (child h2 k s)) = route (P (ix2 b (col ho k))) s := by
  unfold rpp
  refine (cast_child g.sc h2 _ b k s).trans ?_
  refine (extractStridedSlice_apply ![0, off, 0] (PP p P) g.sl (ix3 b k s) (ix3 b (col ho k) s) fun a => ?_).trans ?_
  · match a with
    | ⟨0, _⟩ => show b.val = 0 + b.val; omega
    | ⟨1, _⟩ => show off + k.val = off + k.val; rfl
    | ⟨2, _⟩ => show s.val = 0 + s.val; omega
  unfold PP
  refine (stack2_apply p.bb p.cc P (subf (broadcastInDim SP ![] p.b1 one0) P) b (col ho k) s).trans ?_
  unfold route
  by_cases hs : s.val = 0
  · rw [if_pos hs, if_pos hs]
  · rw [if_neg hs, if_neg hs]
    show broadcastInDim SP ![] p.b1 one0 (ix2 b (col ho k)) - P (ix2 b (col ho k)) = _
    rw [broadcastInDim_scalar_apply p.b1 one0 (ix2 b (col ho k))]
    rfl

theorem rrep_apply (g : RFacts n n2 off) (h2 : n2 = 2 * n) (M : FVec Ideal (Sb n) .f32) (b : Fin 32768) (k : Fin n) (s : Fin 2) :
    rrep g M (ix2 b (child h2 k s)) = M (ix2 b k) := by
  unfold rrep
  exact (cast_child g.sc h2 _ b k s).trans (bcast_last g.bb M b k s)

/-- Every index of the children's array is some sample's, some node's, some child's. -/
theorem exists_child (h2 : n2 = 2 * n) (j : (Sb n2).Idx) : ∃ (b : Fin 32768) (k : Fin n) (s : Fin 2), j = ix2 b (child h2 k s) := by
  have h1 : (j 1).val < n2 := idx2_lt1 j
  refine ⟨j 0, ⟨(j 1).val / 2, by omega⟩, ⟨(j 1).val % 2, Nat.mod_lt _ (by decide)⟩, ?_⟩
  funext a
  match a with
  | ⟨0, _⟩ => rfl
  | ⟨1, _⟩ =>
    refine Fin.ext ?_
    show (j 1).val = 2 * ((j 1).val / 2) + (j 1).val % 2
    omega

/-! ## The comparison -/

/-- The two programs' children's path probabilities are one array. -/
theorem next_eq (f : KFacts n n2 off) (g : RFacts n n2 off) (p : PFacts) (h2 : n2 = 2 * n) (ho : off + n ≤ 255)
    (M : FVec Ideal (Sb n) .f32) (P : FVec Ideal SP .f32) : kNext f M P = rNext g M (PP p P) := by
  funext j
  obtain ⟨b, k, s, rfl⟩ := exists_child h2 j
  refine (kNext_apply f h2 ho M P b k s).trans ?_
  show _ = rrep g M (ix2 b (child h2 k s)) * rpp g (PP p P) (ix2 b (child h2 k s))
  rw [rrep_apply g h2 M b k s, rpp_apply g p h2 ho P b k s]

/-- Positive path probabilities and routing probabilities strictly inside (0, 1) give positive children. -/
theorem next_pos (f : KFacts n n2 off) (h2 : n2 = 2 * n) (ho : off + n ≤ 255) (M : FVec Ideal (Sb n) .f32) (P : FVec Ideal SP .f32)
    (hM : ∀ i, Pos (M i)) (hP : ∀ i, Unit01 (P i)) : ∀ i, Pos (kNext f M P i) := by
  intro i
  obtain ⟨b, k, s, rfl⟩ := exists_child h2 i
  rw [kNext_apply f h2 ho M P b k s]
  obtain ⟨m, hm, hMe⟩ := hM (ix2 b k)
  obtain ⟨r, hr0, hr1, hPe⟩ := hP (ix2 b (col ho k))
  rw [hMe, hPe]
  unfold route
  by_cases hs : s.val = 0
  · -- the left child: a positive real times a positive real
    rw [if_pos hs]
    exact ⟨m * r, mul_pos hm hr0, (EReal.coe_mul m r).symm⟩
  · -- the right child: a positive real times 1 - r, and r < 1
    rw [if_neg hs, ofBits_one]
    refine ⟨m * (1 - r), mul_pos hm (by linarith), ?_⟩
    rw [EReal.coe_mul, EReal.coe_sub, EReal.coe_one]

end Cert.Layer

end
-- ==== Proof.LayerTerm.lean ====
/-
  One layer's share of the penalty is the same number in the two programs. The kernel sums f(α) = log α + log1p(-α)
  over the layer's n nodes, α the node's weighted mean routing, with coefficient c; the reference sums f over the
  2n children's means with coefficient c/2. A right child's mean is one minus its left sibling's (the two products
  mu·p and mu·(1-p) add up to mu, and the node's total path probability is a positive real), and f(1-α) = f(α): the
  reference's sum is twice the kernel's.
-/
import proofs.«134657_j7687991460616_1_alg».proof.Proof.LayerIdx
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Mathlib.Data.EReal.Basic
import Mathlib.Data.EReal.Operations
import Mathlib.Analysis.SpecialFunctions.Log.Basic
import Mathlib.Algebra.Group.Basic
import Mathlib.Algebra.BigOperators.Fin
import Mathlib.Algebra.BigOperators.Group.Finset.Defs
import Mathlib.Algebra.BigOperators.Group.Finset.Basic
import Mathlib.Algebra.Order.BigOperators.Group.Finset
import Mathlib.Algebra.Order.Field.Basic
import Mathlib.Data.Fintype.BigOperators
import Mathlib.Tactic.Ring
import Mathlib.Tactic.Linarith

noncomputable section

namespace Cert.Layer

open Idealize.ShloMosaic Idealize.ShloMosaic.ValueIdx

variable {n n2 off : ℕ}

/-! ## The arithmetic, with no shapes -/

/-- A finite sum of reals read in the extended reals is the extended reals' sum. -/
private theorem coe_sum {ι : Type} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- One node's penalty: log x + log1p (-x). -/
private def pen (x : EReal) : EReal := Ideal.log x + Ideal.log1p (-x)

/-- At a real strictly between 0 and 1 the penalty is the real log x + log (1 - x). -/
private theorem pen_coe {x : ℝ} (h0 : 0 < x) (h1 : x < 1) : pen (x : EReal) = ((Real.log x + Real.log (1 - x) : ℝ) : EReal) := by
  have e : (1 : EReal) + -(x : EReal) = ((1 - x : ℝ) : EReal) := by
    rw [sub_eq_add_neg, EReal.coe_add, EReal.coe_neg, EReal.coe_one]
  unfold pen Ideal.log1p
  rw [e, Ideal.log_coe, Ideal.log_coe, if_neg (not_le.2 h0), if_neg (not_le.2 (by linarith)), ← EReal.coe_add]

/-- The quotient of two sums of reals, the divisor's terms positive, is the reals' quotient. -/
private theorem mean_coe {B : Type} [Fintype B] [Nonempty B] (rw ra : B → ℝ) (ha : ∀ b, 0 < ra b) :
    Ideal.div (0 + ∑ b, ((rw b : ℝ) : EReal)) (0 + ∑ b, ((ra b : ℝ) : EReal)) = (((∑ b, rw b) / (∑ b, ra b) : ℝ) : EReal) := by
  have hS : (∑ b, ra b) ≠ 0 := (Finset.sum_pos (fun b _ => ha b) Finset.univ_nonempty).ne'
  rw [zero_add, zero_add, coe_sum, coe_sum, Ideal.div_coe hS, ← EReal.coe_mul, one_div, div_eq_mul_inv]

/-- The left child's routing factor is the node's probability. -/
private theorem route_zero (x : EReal) : route x 0 = x := if_pos rfl

/-- The right child's routing factor is one minus the node's probability. -/
private theorem route_one (x : EReal) : route x 1 = 1 - x := by
  unfold route
  rw [if_neg (by decide), Ideal.ofBits_one_f32]

/-- One node: its penalty is a real, and each of its two children's penalties is that same real. -/
private theorem node_alg {B : Type} [Fintype B] [Nonempty B] (a q : B → EReal) (ha : ∀ b, Pos (a b)) (hq : ∀ b, Unit01 (q b)) :
    ∃ t : ℝ, pen (Ideal.div (0 + ∑ b, a b * q b) (0 + ∑ b, a b)) = (t : EReal) ∧
      ∀ s : Fin 2, pen (Ideal.div (0 + ∑ b, route (q b) s * a b) (0 + ∑ b, a b)) = (t : EReal) := by
  choose ra hra hae using ha
  choose rq hq0 hq1 hqe using hq
  have ea : a = fun b => ((ra b : ℝ) : EReal) := funext hae
  have eq : q = fun b => ((rq b : ℝ) : EReal) := funext hqe
  subst ea eq
  have hS : 0 < ∑ b, ra b := Finset.sum_pos (fun b _ => hra b) Finset.univ_nonempty
  have hN : 0 < ∑ b, ra b * rq b := Finset.sum_pos (fun b _ => mul_pos (hra b) (hq0 b)) Finset.univ_nonempty
  have hNS : ∑ b, ra b * rq b < ∑ b, ra b :=
    Finset.sum_lt_sum_of_nonempty Finset.univ_nonempty (fun b _ => by nlinarith [hra b, hq1 b])
  have h0 : 0 < (∑ b, ra b * rq b) / (∑ b, ra b) := div_pos hN hS
  have h1 : (∑ b, ra b * rq b) / (∑ b, ra b) < 1 := (div_lt_one hS).2 hNS
  refine ⟨Real.log ((∑ b, ra b * rq b) / (∑ b, ra b)) + Real.log (1 - (∑ b, ra b * rq b) / (∑ b, ra b)), ?_, ?_⟩
  · simp only [← EReal.coe_mul]
    rw [mean_coe _ _ hra, pen_coe h0 h1]
  · have e0 : ∀ b, route ((rq b : ℝ) : EReal) 0 * ((ra b : ℝ) : EReal) = ((ra b * rq b : ℝ) : EReal) := fun b => by
      rw [route_zero, mul_comm, EReal.coe_mul]
    have e1 : ∀ b, route ((rq b : ℝ) : EReal) 1 * ((ra b : ℝ) : EReal) = ((ra b - ra b * rq b : ℝ) : EReal) := fun b => by
      rw [route_one, ← EReal.coe_one, ← EReal.coe_sub, ← EReal.coe_mul]
      congr 1; ring
    refine Fin.forall_fin_two.2 ⟨?_, ?_⟩
    · simp only [e0]
      rw [mean_coe _ _ hra, pen_coe h0 h1]
    · simp only [e1]
      have em : (∑ b, (ra b - ra b * rq b)) / (∑ b, ra b) = 1 - (∑ b, ra b * rq b) / (∑ b, ra b) := by
        rw [Finset.sum_sub_distrib, sub_div, div_self hS.ne']
      rw [mean_coe _ _ hra, em, pen_coe (by linarith) (by linarith), sub_sub_cancel, add_comm]

/-- A layer: the nodes' penalties with the coefficient 2r are the children's penalties with the coefficient r. -/
private theorem layer_alg {B K : Type} [Fintype B] [Nonempty B] [Fintype K] (a q : B → K → EReal)
    (ha : ∀ b k, Pos (a b k)) (hq : ∀ b k, Unit01 (q b k)) (c d : EReal) (r : ℝ) (hd : d = (r : EReal))
    (hc : c = ((2 * r : ℝ) : EReal)) :
    c * (0 + ∑ k, pen (Ideal.div (0 + ∑ b, a b k * q b k) (0 + ∑ b, a b k)))
      = d * (0 + ∑ k, ∑ s : Fin 2, pen (Ideal.div (0 + ∑ b, route (q b k) s * a b k) (0 + ∑ b, a b k))) := by
  have hn : ∀ k, ∃ t : ℝ, pen (Ideal.div (0 + ∑ b, a b k * q b k) (0 + ∑ b, a b k)) = (t : EReal) ∧
      ∀ s : Fin 2, pen (Ideal.div (0 + ∑ b, route (q b k) s * a b k) (0 + ∑ b, a b k)) = (t : EReal) :=
    fun k => node_alg (fun b => a b k) (fun b => q b k) (fun b => ha b k) (fun b => hq b k)
  choose t ht hts using hn
  simp only [ht, hts, Fin.sum_univ_two, ← EReal.coe_add]
  rw [coe_sum, coe_sum, zero_add, zero_add, hc, hd, ← EReal.coe_mul, ← EReal.coe_mul, Finset.sum_add_distrib]
  congr 1; ring

/-! ## The two programs read down to the arithmetic -/

/-- A sum over the indices of a rank-1 array is the sum over its one coordinate. -/
private theorem sum_idx1 {A : Type} [AddCommMonoid A] {m : ℕ} (x : (Sn m).Idx → A) : ∑ i, x i = ∑ k : Fin m, x (ix1 k) := by
  refine (Fintype.sum_bijective (fun k : Fin m => (ix1 k : (Sn m).Idx)) ⟨?_, ?_⟩ _ _ (fun _ => rfl)).symm
  · intro k k' e; exact congrFun e 0
  · intro i; exact ⟨i 0, (eq_ix1 i).symm⟩

/-- A sum over the 2n children is the sum over the n nodes of the sum over each node's two children. -/
private theorem sum_children {A : Type} [AddCommMonoid A] (h2 : n2 = 2 * n) (F : Fin n2 → A) :
    ∑ j, F j = ∑ k : Fin n, ∑ s : Fin 2, F (child h2 k s) := by
  rw [← Fintype.sum_prod_type (f := fun p : Fin n × Fin 2 => F (child h2 p.1 p.2))]
  refine (Fintype.sum_bijective (fun p : Fin n × Fin 2 => child h2 p.1 p.2) ⟨?_, ?_⟩ _ _ (fun _ => rfl)).symm
  · rintro ⟨k, s⟩ ⟨k', s'⟩ e
    have ev : 2 * k.val + s.val = 2 * k'.val + s'.val := congrArg Fin.val e
    have := s.isLt; have := s'.isLt
    exact Prod.ext (Fin.ext (by show k.val = k'.val; omega)) (Fin.ext (by show s.val = s'.val; omega))
  · intro j
    have := j.isLt
    exact ⟨(⟨j.val / 2, by omega⟩, ⟨j.val % 2, by omega⟩), Fin.ext (by show 2 * (j.val / 2) + j.val % 2 = j.val; omega)⟩

/-- A [32768, m] array summed over its rows, at column k: the initial value plus the sum down the column. -/
private theorem rows_sum {m : ℕ} (h : (Sb m).ReducesTo [0] (Sn m)) (x : (Sb m).Idx → EReal) (init : EReal) (k : Fin m) :
    Ideal.hostReduceAdd h x init (ix1 k) = init + ∑ b : Fin 32768, x (ix2 b k) := by
  have hr : (Sb m).Reduces [0] (Sn m) := ⟨h.1, Nat.one_pos, h.2⟩
  rw [Ideal.hostReduceAdd_single h hr]
  show init + ∑ b : Fin 32768, x (hr.lift (ix1 k) b) = _
  refine congrArg (init + ·) (Finset.sum_congr rfl fun b _ => congrArg x ?_)
  funext c
  match c with
  | ⟨0, _⟩ => rfl
  | ⟨1, _⟩ => rfl

/-- A rank-1 array summed into a scalar: the initial value plus the sum of its entries. -/
private theorem all_sum {m : ℕ} (h : (Sn m).ReducesTo [0] S0) (x : (Sn m).Idx → EReal) (init : EReal) (j : S0.Idx) :
    Ideal.hostReduceAdd h x init j = init + ∑ k : Fin m, x (ix1 k) := by
  rw [Ideal.hostReduceAdd_total h (fun b => b.elim0), sum_idx1]

/-- The scalar zero the sums start from is the extended real zero. -/
private theorem zero0_apply (i : S0.Idx) : zero0 i = (0 : EReal) := Ideal.ofBits_zero_f32

/-- The penalty's integrand at an index is the node penalty of the entry there. -/
private theorem pen_apply {s : Shape} (x : FVec Ideal s .f32) (i : s.Idx) :
    addf (Host.log x) (Host.log1p (Host.negf x)) i = pen (x i) := rfl

/-- A node's weighted mean routing: the column sum of path probability times routing probability over the column sum of
    path probability, each started from zero. -/
private theorem kAlpha_apply (f : KFacts n n2 off) (ho : off + n ≤ 255) (M : FVec Ideal (Sb n) .f32) (P : FVec Ideal SP .f32) (k : Fin n) :
    kAlpha f M P (ix1 k)
      = Ideal.div (0 + ∑ b : Fin 32768, M (ix2 b k) * P (ix2 b (col ho k))) (0 + ∑ b : Fin 32768, M (ix2 b k)) := by
  unfold kAlpha
  rw [hostDivf_apply, hostReduceAdd_apply, hostReduceAdd_apply, rows_sum, rows_sum, zero0_apply]
  simp only [kleft, mulf_apply, kpl_apply f ho]

/-- A child's weighted mean in the reference: the column sum of its routing factor times its parent's path probability over
    the column sum of the parent's path probability. -/
private theorem rAlpha_apply (g : RFacts n n2 off) (p : PFacts) (h2 : n2 = 2 * n) (ho : off + n ≤ 255) (M : FVec Ideal (Sb n) .f32)
    (P : FVec Ideal SP .f32) (k : Fin n) (s : Fin 2) :
    rAlpha g M (PP p P) (ix1 (child h2 k s))
      = Ideal.div (0 + ∑ b : Fin 32768, route (P (ix2 b (col ho k))) s * M (ix2 b k)) (0 + ∑ b : Fin 32768, M (ix2 b k)) := by
  unfold rAlpha
  rw [hostDivf_apply, hostReduceAdd_apply, hostReduceAdd_apply, rows_sum, rows_sum, zero0_apply]
  simp only [mulf_apply, rpp_apply g p h2 ho, rrep_apply g h2]

theorem term_eq (f : KFacts n n2 off) (g : RFacts n n2 off) (p : PFacts) (h2 : n2 = 2 * n) (ho : off + n ≤ 255)
    (c d : BitVec 32) (hcd : Halves c d) (M : FVec Ideal (Sb n) .f32) (P : FVec Ideal SP .f32)
    (hM : ∀ i, Pos (M i)) (hP : ∀ i, Unit01 (P i)) : kTerm f c M P = rTerm g d M (PP p P) := by
  obtain ⟨r, hd, hc⟩ := hcd
  funext j
  have hL : kTerm f c M P j = Ideal.ofBits .f32 c * (0 + ∑ k : Fin n, pen (kAlpha f M P (ix1 k))) := by
    unfold kTerm
    rw [mulf_apply, constant_apply, hostReduceAdd_apply, all_sum, zero0_apply]
    simp only [pen_apply]
  have hR : rTerm g d M (PP p P) j = Ideal.ofBits .f32 d * (0 + ∑ i : Fin n2, pen (rAlpha g M (PP p P) (ix1 i))) := by
    unfold rTerm
    rw [mulf_apply, constant_apply, hostReduceAdd_apply, all_sum, zero0_apply]
    simp only [pen_apply]
  rw [hL, hR, sum_children h2]
  simp only [kAlpha_apply f ho, rAlpha_apply g p h2 ho]
  exact layer_alg (fun b k => M (ix2 b k)) (fun b k => P (ix2 b (col ho k))) (fun b k => hM _) (fun b k => hP _) _ _ r hd hc

end Cert.Layer

end
-- ==== Proof.Consts.lean ====
/-
  The penalty coefficients' words. The kernel's layer l uses f32(1e-3) · 2^(-l), the reference's half of it: each
  kernel word denotes twice the real its reference word denotes (one step of the exponent field, the same mantissa).
-/
import proofs.«134657_j7687991460616_1_alg».proof.Proof.LBase

noncomputable section

namespace Cert.Layer

open Idealize.ShloMosaic

/-- The word of f32(1e-3) · 2^(-0): sign 0, exponent field 117, mantissa 0x03126F, the real 8589935 · 2^(-33). -/
private theorem word0 : Ideal.ofBits .f32 0x3A83126F#32 = (((8589935 : ℝ) / 2 ^ 33 : ℝ) : EReal) := by
  simp [Ideal.ofBits, Ideal.ieee, -EReal.coe_mul]
  norm_num

/-- The word of f32(1e-3) · 2^(-1): sign 0, exponent field 116, mantissa 0x03126F, the real 8589935 · 2^(-34). -/
private theorem word1 : Ideal.ofBits .f32 0x3A03126F#32 = (((8589935 : ℝ) / 2 ^ 34 : ℝ) : EReal) := by
  simp [Ideal.ofBits, Ideal.ieee, -EReal.coe_mul]
  norm_num

/-- The word of f32(1e-3) · 2^(-2): sign 0, exponent field 115, mantissa 0x03126F, the real 8589935 · 2^(-35). -/
private theorem word2 : Ideal.ofBits .f32 0x3983126F#32 = (((8589935 : ℝ) / 2 ^ 35 : ℝ) : EReal) := by
  simp [Ideal.ofBits, Ideal.ieee, -EReal.coe_mul]
  norm_num

/-- The word of f32(1e-3) · 2^(-3): sign 0, exponent field 114, mantissa 0x03126F, the real 8589935 · 2^(-36). -/
private theorem word3 : Ideal.ofBits .f32 0x3903126F#32 = (((8589935 : ℝ) / 2 ^ 36 : ℝ) : EReal) := by
  simp [Ideal.ofBits, Ideal.ieee, -EReal.coe_mul]
  norm_num

/-- The word of f32(1e-3) · 2^(-4): sign 0, exponent field 113, mantissa 0x03126F, the real 8589935 · 2^(-37). -/
private theorem word4 : Ideal.ofBits .f32 0x3883126F#32 = (((8589935 : ℝ) / 2 ^ 37 : ℝ) : EReal) := by
  simp [Ideal.ofBits, Ideal.ieee, -EReal.coe_mul]
  norm_num

/-- The word of f32(1e-3) · 2^(-5): sign 0, exponent field 112, mantissa 0x03126F, the real 8589935 · 2^(-38). -/
private theorem word5 : Ideal.ofBits .f32 0x3803126F#32 = (((8589935 : ℝ) / 2 ^ 38 : ℝ) : EReal) := by
  simp [Ideal.ofBits, Ideal.ieee, -EReal.coe_mul]
  norm_num

/-- The word of f32(1e-3) · 2^(-6): sign 0, exponent field 111, mantissa 0x03126F, the real 8589935 · 2^(-39). -/
private theorem word6 : Ideal.ofBits .f32 0x3783126F#32 = (((8589935 : ℝ) / 2 ^ 39 : ℝ) : EReal) := by
  simp [Ideal.ofBits, Ideal.ieee, -EReal.coe_mul]
  norm_num

/-- The word of f32(1e-3) · 2^(-7): sign 0, exponent field 110, mantissa 0x03126F, the real 8589935 · 2^(-40). -/
private theorem word7 : Ideal.ofBits .f32 0x3703126F#32 = (((8589935 : ℝ) / 2 ^ 40 : ℝ) : EReal) := by
  simp [Ideal.ofBits, Ideal.ieee, -EReal.coe_mul]
  norm_num

/-- The word of f32(1e-3) · 2^(-8): sign 0, exponent field 109, mantissa 0x03126F, the real 8589935 · 2^(-41). -/
private theorem word8 : Ideal.ofBits .f32 0x3683126F#32 = (((8589935 : ℝ) / 2 ^ 41 : ℝ) : EReal) := by
  simp [Ideal.ofBits, Ideal.ieee, -EReal.coe_mul]
  norm_num

theorem halves0 : Halves 0x3A83126F#32 0x3A03126F#32 :=
  ⟨(8589935 : ℝ) / 2 ^ 34, word1, by rw [word0]; exact congrArg _ (by norm_num)⟩

theorem halves1 : Halves 0x3A03126F#32 0x3983126F#32 :=
  ⟨(8589935 : ℝ) / 2 ^ 35, word2, by rw [word1]; exact congrArg _ (by norm_num)⟩

theorem halves2 : Halves 0x3983126F#32 0x3903126F#32 :=
  ⟨(8589935 : ℝ) / 2 ^ 36, word3, by rw [word2]; exact congrArg _ (by norm_num)⟩

theorem halves3 : Halves 0x3903126F#32 0x3883126F#32 :=
  ⟨(8589935 : ℝ) / 2 ^ 37, word4, by rw [word3]; exact congrArg _ (by norm_num)⟩

theorem halves4 : Halves 0x3883126F#32 0x3803126F#32 :=
  ⟨(8589935 : ℝ) / 2 ^ 38, word5, by rw [word4]; exact congrArg _ (by norm_num)⟩

theorem halves5 : Halves 0x3803126F#32 0x3783126F#32 :=
  ⟨(8589935 : ℝ) / 2 ^ 39, word6, by rw [word5]; exact congrArg _ (by norm_num)⟩

theorem halves6 : Halves 0x3783126F#32 0x3703126F#32 :=
  ⟨(8589935 : ℝ) / 2 ^ 40, word7, by rw [word6]; exact congrArg _ (by norm_num)⟩

theorem halves7 : Halves 0x3703126F#32 0x3683126F#32 :=
  ⟨(8589935 : ℝ) / 2 ^ 41, word8, by rw [word7]; exact congrArg _ (by norm_num)⟩

end Cert.Layer

end
-- ==== Proof.Chain.lean ====
/-
  The tree recursion compared layer by layer. With the same routing probabilities `Pr` (the reference's sigmoid
  array) in both programs: the kernel's path probabilities after each layer are the reference's (mu_eq1 … mu_eq8), they
  are positive reals (pos0 … pos8), and each layer's share of the penalty is the same number (term_eq0 … term_eq7);
  so the leaves' path probabilities and the penalty are the same.
-/
import proofs.«134657_j7687991460616_1_alg».proof.Proof.KDefs
import proofs.«134657_j7687991460616_1_alg».proof.Proof.LayerIdx
import proofs.«134657_j7687991460616_1_alg».proof.Proof.LayerTerm
import proofs.«134657_j7687991460616_1_alg».proof.Proof.Consts
import proofs.«134657_j7687991460616_1_alg».proof.Proof.Gen.ReferenceIdeal.Run

noncomputable section

namespace Cert.Chain

open Idealize.ShloMosaic Idealize.ShloMosaic.TcCoe Cert.Layer Cert.ReferenceIdeal.Value
open Cert.KernelIdeal

variable (V0 : Valuation Cert.ReferenceIdeal.τ Cert.ReferenceIdeal.sig (Elt Ideal))

/-- The routing probabilities, as the reference computes them. -/
abbrev Pr : FVec Ideal SP .f32 := res_main_v9 V0

/-- The shape facts of the reference's stacked (p, 1 - p). -/
theorem pR : PFacts := ⟨Cert.ReferenceIdeal.Facts₀.bcast_S_S32768x255, Cert.ReferenceIdeal.Facts₀.bcast_S32768x255_S32768x255x1_0_1, Cert.ReferenceIdeal.Facts₀.concatenates_S32768x255x1_S32768x255x1_S32768x255x2_d2⟩

/-- At the root every sample has path probability one. -/
theorem pos0 (hP : ∀ i, Unit01 (Pr V0 i)) : ∀ i, Pos (Tree.mu0 (F := Ideal) (Pr V0) i) := fun i =>
  ⟨1, one_pos, by
    rw [show Tree.mu0 (F := Ideal) (Pr V0) i = Ideal.ofBits .f32 0x3F800000#32 from rfl, ofBits_one]
    norm_cast⟩

/-! ## Layer 0: 1 node -/

/-- The shape facts of layer 0 in the two programs. -/
theorem fK0 : KFacts 1 2 0 := ⟨Cert.KernelIdeal.Facts₀.slices_S32768x255_S32768x1_0_0, Cert.KernelIdeal.Facts₀.bcast_S_S32768x1, Cert.KernelIdeal.Facts₀.bcast_S32768x1_S32768x1x1_0_1, Cert.KernelIdeal.Facts₀.concatenates_S32768x1x1_S32768x1x1_S32768x1x2_d2, Cert.KernelIdeal.Facts₀.shapeCasts_S32768x1x2_S32768x2, Cert.KernelIdeal.Facts₀.reducesTo_S32768x1_S1_d0, Cert.KernelIdeal.Facts₀.reducesTo_S1_S_d0, Cert.KernelIdeal.Facts₀.h_S_⟩
theorem gR0 : RFacts 1 2 0 := ⟨Cert.ReferenceIdeal.Facts₀.slices_S32768x255x2_S32768x1x2_0_0_0, Cert.ReferenceIdeal.Facts₀.bcast_S32768x1_S32768x1x2_0_1, Cert.ReferenceIdeal.Facts₀.shapeCasts_S32768x1x2_S32768x2, Cert.ReferenceIdeal.Facts₀.reducesTo_S32768x2_S2_d0, Cert.ReferenceIdeal.Facts₀.reducesTo_S2_S_d0, Cert.ReferenceIdeal.Facts₀.h_S_⟩

/-- The kernel's children's path probabilities are the reference's: repeated mu times interleaved (p, 1 - p). -/
theorem mu_eq1 : Tree.mu1 (F := Ideal) (Pr V0) = mulf (res_main_v19 V0) (res_main_v17 V0) := by
  have e : Tree.mu1 (F := Ideal) (Pr V0) = kNext fK0 (Tree.mu0 (F := Ideal) (Pr V0)) (Pr V0) := rfl
  rw [e, next_eq fK0 gR0 pR (by norm_num) (by norm_num)]
  rfl

/-- They are positive reals when the routing probabilities lie strictly between 0 and 1. -/
theorem pos1 (hP : ∀ i, Unit01 (Pr V0 i)) : ∀ i, Pos (Tree.mu1 (F := Ideal) (Pr V0) i) := by
  have e : Tree.mu1 (F := Ideal) (Pr V0) = kNext fK0 (Tree.mu0 (F := Ideal) (Pr V0)) (Pr V0) := rfl
  rw [e]
  exact next_pos fK0 (by norm_num) (by norm_num) _ _ (pos0 V0 hP) hP

/-- The layer's share of the penalty: the kernel's coefficient over 1 node, the reference's half of it over 2 children. -/
def rterm0 : FVec Ideal Cert.ReferenceIdeal.S_ .f32 :=
  mulf (constant Cert.ReferenceIdeal.S_ .f32 0x3A03126F#32) (Host.reduceAdd (addf (Host.log (res_main_v23 V0)) (Host.log1p (Host.negf (res_main_v23 V0)))) (constant Cert.ReferenceIdeal.S_ .f32 0x00000000#32) Cert.ReferenceIdeal.Facts₀.reducesTo_S2_S_d0 Cert.ReferenceIdeal.Facts₀.h_S_)

theorem term_eq0 (hP : ∀ i, Unit01 (Pr V0 i)) : Tree.term0 (F := Ideal) (Pr V0) = rterm0 V0 := by
  have e : Tree.term0 (F := Ideal) (Pr V0) = kTerm fK0 0x3A83126F#32 (Tree.mu0 (F := Ideal) (Pr V0)) (Pr V0) := rfl
  rw [e, term_eq fK0 gR0 pR (by norm_num) (by norm_num) _ _ halves0 _ _ (pos0 V0 hP) hP]
  rfl

/-! ## Layer 1: 2 nodes -/

/-- The shape facts of layer 1 in the two programs. -/
theorem fK1 : KFacts 2 4 1 := ⟨Cert.KernelIdeal.Facts₀.slices_S32768x255_S32768x2_0_1, Cert.KernelIdeal.Facts₀.bcast_S_S32768x2, Cert.KernelIdeal.Facts₀.bcast_S32768x2_S32768x2x1_0_1, Cert.KernelIdeal.Facts₀.concatenates_S32768x2x1_S32768x2x1_S32768x2x2_d2, Cert.KernelIdeal.Facts₀.shapeCasts_S32768x2x2_S32768x4, Cert.KernelIdeal.Facts₀.reducesTo_S32768x2_S2_d0, Cert.KernelIdeal.Facts₀.reducesTo_S2_S_d0, Cert.KernelIdeal.Facts₀.h_S_⟩
theorem gR1 : RFacts 2 4 1 := ⟨Cert.ReferenceIdeal.Facts₀.slices_S32768x255x2_S32768x2x2_0_1_0, Cert.ReferenceIdeal.Facts₀.bcast_S32768x2_S32768x2x2_0_1, Cert.ReferenceIdeal.Facts₀.shapeCasts_S32768x2x2_S32768x4, Cert.ReferenceIdeal.Facts₀.reducesTo_S32768x4_S4_d0, Cert.ReferenceIdeal.Facts₀.reducesTo_S4_S_d0, Cert.ReferenceIdeal.Facts₀.h_S_⟩

/-- The kernel's children's path probabilities are the reference's: repeated mu times interleaved (p, 1 - p). -/
theorem mu_eq2 : Tree.mu2 (F := Ideal) (Pr V0) = mulf (res_main_v35 V0) (res_main_v33 V0) := by
  have e : Tree.mu2 (F := Ideal) (Pr V0) = kNext fK1 (Tree.mu1 (F := Ideal) (Pr V0)) (Pr V0) := rfl
  rw [e, next_eq fK1 gR1 pR (by norm_num) (by norm_num), mu_eq1 V0]
  rfl

/-- They are positive reals when the routing probabilities lie strictly between 0 and 1. -/
theorem pos2 (hP : ∀ i, Unit01 (Pr V0 i)) : ∀ i, Pos (Tree.mu2 (F := Ideal) (Pr V0) i) := by
  have e : Tree.mu2 (F := Ideal) (Pr V0) = kNext fK1 (Tree.mu1 (F := Ideal) (Pr V0)) (Pr V0) := rfl
  rw [e]
  exact next_pos fK1 (by norm_num) (by norm_num) _ _ (pos1 V0 hP) hP

/-- The layer's share of the penalty: the kernel's coefficient over 2 nodes, the reference's half of it over 4 children. -/
def rterm1 : FVec Ideal Cert.ReferenceIdeal.S_ .f32 :=
  mulf (constant Cert.ReferenceIdeal.S_ .f32 0x3983126F#32) (Host.reduceAdd (addf (Host.log (res_main_v39 V0)) (Host.log1p (Host.negf (res_main_v39 V0)))) (constant Cert.ReferenceIdeal.S_ .f32 0x00000000#32) Cert.ReferenceIdeal.Facts₀.reducesTo_S4_S_d0 Cert.ReferenceIdeal.Facts₀.h_S_)

theorem term_eq1 (hP : ∀ i, Unit01 (Pr V0 i)) : Tree.term1 (F := Ideal) (Pr V0) = rterm1 V0 := by
  have e : Tree.term1 (F := Ideal) (Pr V0) = kTerm fK1 0x3A03126F#32 (Tree.mu1 (F := Ideal) (Pr V0)) (Pr V0) := rfl
  rw [e, term_eq fK1 gR1 pR (by norm_num) (by norm_num) _ _ halves1 _ _ (pos1 V0 hP) hP, mu_eq1 V0]
  rfl

/-! ## Layer 2: 4 nodes -/

/-- The shape facts of layer 2 in the two programs. -/
theorem fK2 : KFacts 4 8 3 := ⟨Cert.KernelIdeal.Facts₀.slices_S32768x255_S32768x4_0_3, Cert.KernelIdeal.Facts₀.bcast_S_S32768x4, Cert.KernelIdeal.Facts₀.bcast_S32768x4_S32768x4x1_0_1, Cert.KernelIdeal.Facts₀.concatenates_S32768x4x1_S32768x4x1_S32768x4x2_d2, Cert.KernelIdeal.Facts₀.shapeCasts_S32768x4x2_S32768x8, Cert.KernelIdeal.Facts₀.reducesTo_S32768x4_S4_d0, Cert.KernelIdeal.Facts₀.reducesTo_S4_S_d0, Cert.KernelIdeal.Facts₀.h_S_⟩
theorem gR2 : RFacts 4 8 3 := ⟨Cert.ReferenceIdeal.Facts₀.slices_S32768x255x2_S32768x4x2_0_3_0, Cert.ReferenceIdeal.Facts₀.bcast_S32768x4_S32768x4x2_0_1, Cert.ReferenceIdeal.Facts₀.shapeCasts_S32768x4x2_S32768x8, Cert.ReferenceIdeal.Facts₀.reducesTo_S32768x8_S8_d0, Cert.ReferenceIdeal.Facts₀.reducesTo_S8_S_d0, Cert.ReferenceIdeal.Facts₀.h_S_⟩

/-- The kernel's children's path probabilities are the reference's: repeated mu times interleaved (p, 1 - p). -/
theorem mu_eq3 : Tree.mu3 (F := Ideal) (Pr V0) = mulf (res_main_v51 V0) (res_main_v49 V0) := by
  have e : Tree.mu3 (F := Ideal) (Pr V0) = kNext fK2 (Tree.mu2 (F := Ideal) (Pr V0)) (Pr V0) := rfl
  rw [e, next_eq fK2 gR2 pR (by norm_num) (by norm_num), mu_eq2 V0]
  rfl

/-- They are positive reals when the routing probabilities lie strictly between 0 and 1. -/
theorem pos3 (hP : ∀ i, Unit01 (Pr V0 i)) : ∀ i, Pos (Tree.mu3 (F := Ideal) (Pr V0) i) := by
  have e : Tree.mu3 (F := Ideal) (Pr V0) = kNext fK2 (Tree.mu2 (F := Ideal) (Pr V0)) (Pr V0) := rfl
  rw [e]
  exact next_pos fK2 (by norm_num) (by norm_num) _ _ (pos2 V0 hP) hP

/-- The layer's share of the penalty: the kernel's coefficient over 4 nodes, the reference's half of it over 8 children. -/
def rterm2 : FVec Ideal Cert.ReferenceIdeal.S_ .f32 :=
  mulf (constant Cert.ReferenceIdeal.S_ .f32 0x3903126F#32) (Host.reduceAdd (addf (Host.log (res_main_v55 V0)) (Host.log1p (Host.negf (res_main_v55 V0)))) (constant Cert.ReferenceIdeal.S_ .f32 0x00000000#32) Cert.ReferenceIdeal.Facts₀.reducesTo_S8_S_d0 Cert.ReferenceIdeal.Facts₀.h_S_)

theorem term_eq2 (hP : ∀ i, Unit01 (Pr V0 i)) : Tree.term2 (F := Ideal) (Pr V0) = rterm2 V0 := by
  have e : Tree.term2 (F := Ideal) (Pr V0) = kTerm fK2 0x3983126F#32 (Tree.mu2 (F := Ideal) (Pr V0)) (Pr V0) := rfl
  rw [e, term_eq fK2 gR2 pR (by norm_num) (by norm_num) _ _ halves2 _ _ (pos2 V0 hP) hP, mu_eq2 V0]
  rfl

/-! ## Layer 3: 8 nodes -/

/-- The shape facts of layer 3 in the two programs. -/
theorem fK3 : KFacts 8 16 7 := ⟨Cert.KernelIdeal.Facts₀.slices_S32768x255_S32768x8_0_7, Cert.KernelIdeal.Facts₀.bcast_S_S32768x8, Cert.KernelIdeal.Facts₀.bcast_S32768x8_S32768x8x1_0_1, Cert.KernelIdeal.Facts₀.concatenates_S32768x8x1_S32768x8x1_S32768x8x2_d2, Cert.KernelIdeal.Facts₀.shapeCasts_S32768x8x2_S32768x16, Cert.KernelIdeal.Facts₀.reducesTo_S32768x8_S8_d0, Cert.KernelIdeal.Facts₀.reducesTo_S8_S_d0, Cert.KernelIdeal.Facts₀.h_S_⟩
theorem gR3 : RFacts 8 16 7 := ⟨Cert.ReferenceIdeal.Facts₀.slices_S32768x255x2_S32768x8x2_0_7_0, Cert.ReferenceIdeal.Facts₀.bcast_S32768x8_S32768x8x2_0_1, Cert.ReferenceIdeal.Facts₀.shapeCasts_S32768x8x2_S32768x16, Cert.ReferenceIdeal.Facts₀.reducesTo_S32768x16_S16_d0, Cert.ReferenceIdeal.Facts₀.reducesTo_S16_S_d0, Cert.ReferenceIdeal.Facts₀.h_S_⟩

/-- The kernel's children's path probabilities are the reference's: repeated mu times interleaved (p, 1 - p). -/
theorem mu_eq4 : Tree.mu4 (F := Ideal) (Pr V0) = mulf (res_main_v67 V0) (res_main_v65 V0) := by
  have e : Tree.mu4 (F := Ideal) (Pr V0) = kNext fK3 (Tree.mu3 (F := Ideal) (Pr V0)) (Pr V0) := rfl
  rw [e, next_eq fK3 gR3 pR (by norm_num) (by norm_num), mu_eq3 V0]
  rfl

/-- They are positive reals when the routing probabilities lie strictly between 0 and 1. -/
theorem pos4 (hP : ∀ i, Unit01 (Pr V0 i)) : ∀ i, Pos (Tree.mu4 (F := Ideal) (Pr V0) i) := by
  have e : Tree.mu4 (F := Ideal) (Pr V0) = kNext fK3 (Tree.mu3 (F := Ideal) (Pr V0)) (Pr V0) := rfl
  rw [e]
  exact next_pos fK3 (by norm_num) (by norm_num) _ _ (pos3 V0 hP) hP

/-- The layer's share of the penalty: the kernel's coefficient over 8 nodes, the reference's half of it over 16 children. -/
def rterm3 : FVec Ideal Cert.ReferenceIdeal.S_ .f32 :=
  mulf (constant Cert.ReferenceIdeal.S_ .f32 0x3883126F#32) (Host.reduceAdd (addf (Host.log (res_main_v71 V0)) (Host.log1p (Host.negf (res_main_v71 V0)))) (constant Cert.ReferenceIdeal.S_ .f32 0x00000000#32) Cert.ReferenceIdeal.Facts₀.reducesTo_S16_S_d0 Cert.ReferenceIdeal.Facts₀.h_S_)

theorem term_eq3 (hP : ∀ i, Unit01 (Pr V0 i)) : Tree.term3 (F := Ideal) (Pr V0) = rterm3 V0 := by
  have e : Tree.term3 (F := Ideal) (Pr V0) = kTerm fK3 0x3903126F#32 (Tree.mu3 (F := Ideal) (Pr V0)) (Pr V0) := rfl
  rw [e, term_eq fK3 gR3 pR (by norm_num) (by norm_num) _ _ halves3 _ _ (pos3 V0 hP) hP, mu_eq3 V0]
  rfl

/-! ## Layer 4: 16 nodes -/

/-- The shape facts of layer 4 in the two programs. -/
theorem fK4 : KFacts 16 32 15 := ⟨Cert.KernelIdeal.Facts₀.slices_S32768x255_S32768x16_0_15, Cert.KernelIdeal.Facts₀.bcast_S_S32768x16, Cert.KernelIdeal.Facts₀.bcast_S32768x16_S32768x16x1_0_1, Cert.KernelIdeal.Facts₀.concatenates_S32768x16x1_S32768x16x1_S32768x16x2_d2, Cert.KernelIdeal.Facts₀.shapeCasts_S32768x16x2_S32768x32, Cert.KernelIdeal.Facts₀.reducesTo_S32768x16_S16_d0, Cert.KernelIdeal.Facts₀.reducesTo_S16_S_d0, Cert.KernelIdeal.Facts₀.h_S_⟩
theorem gR4 : RFacts 16 32 15 := ⟨Cert.ReferenceIdeal.Facts₀.slices_S32768x255x2_S32768x16x2_0_15_0, Cert.ReferenceIdeal.Facts₀.bcast_S32768x16_S32768x16x2_0_1, Cert.ReferenceIdeal.Facts₀.shapeCasts_S32768x16x2_S32768x32, Cert.ReferenceIdeal.Facts₀.reducesTo_S32768x32_S32_d0, Cert.ReferenceIdeal.Facts₀.reducesTo_S32_S_d0, Cert.ReferenceIdeal.Facts₀.h_S_⟩

/-- The kernel's children's path probabilities are the reference's: repeated mu times interleaved (p, 1 - p). -/
theorem mu_eq5 : Tree.mu5 (F := Ideal) (Pr V0) = mulf (res_main_v83 V0) (res_main_v81 V0) := by
  have e : Tree.mu5 (F := Ideal) (Pr V0) = kNext fK4 (Tree.mu4 (F := Ideal) (Pr V0)) (Pr V0) := rfl
  rw [e, next_eq fK4 gR4 pR (by norm_num) (by norm_num), mu_eq4 V0]
  rfl

/-- They are positive reals when the routing probabilities lie strictly between 0 and 1. -/
theorem pos5 (hP : ∀ i, Unit01 (Pr V0 i)) : ∀ i, Pos (Tree.mu5 (F := Ideal) (Pr V0) i) := by
  have e : Tree.mu5 (F := Ideal) (Pr V0) = kNext fK4 (Tree.mu4 (F := Ideal) (Pr V0)) (Pr V0) := rfl
  rw [e]
  exact next_pos fK4 (by norm_num) (by norm_num) _ _ (pos4 V0 hP) hP

/-- The layer's share of the penalty: the kernel's coefficient over 16 nodes, the reference's half of it over 32 children. -/
def rterm4 : FVec Ideal Cert.ReferenceIdeal.S_ .f32 :=
  mulf (constant Cert.ReferenceIdeal.S_ .f32 0x3803126F#32) (Host.reduceAdd (addf (Host.log (res_main_v87 V0)) (Host.log1p (Host.negf (res_main_v87 V0)))) (constant Cert.ReferenceIdeal.S_ .f32 0x00000000#32) Cert.ReferenceIdeal.Facts₀.reducesTo_S32_S_d0 Cert.ReferenceIdeal.Facts₀.h_S_)

theorem term_eq4 (hP : ∀ i, Unit01 (Pr V0 i)) : Tree.term4 (F := Ideal) (Pr V0) = rterm4 V0 := by
  have e : Tree.term4 (F := Ideal) (Pr V0) = kTerm fK4 0x3883126F#32 (Tree.mu4 (F := Ideal) (Pr V0)) (Pr V0) := rfl
  rw [e, term_eq fK4 gR4 pR (by norm_num) (by norm_num) _ _ halves4 _ _ (pos4 V0 hP) hP, mu_eq4 V0]
  rfl

/-! ## Layer 5: 32 nodes -/

/-- The shape facts of layer 5 in the two programs. -/
theorem fK5 : KFacts 32 64 31 := ⟨Cert.KernelIdeal.Facts₀.slices_S32768x255_S32768x32_0_31, Cert.KernelIdeal.Facts₀.bcast_S_S32768x32, Cert.KernelIdeal.Facts₀.bcast_S32768x32_S32768x32x1_0_1, Cert.KernelIdeal.Facts₀.concatenates_S32768x32x1_S32768x32x1_S32768x32x2_d2, Cert.KernelIdeal.Facts₀.shapeCasts_S32768x32x2_S32768x64, Cert.KernelIdeal.Facts₀.reducesTo_S32768x32_S32_d0, Cert.KernelIdeal.Facts₀.reducesTo_S32_S_d0, Cert.KernelIdeal.Facts₀.h_S_⟩
theorem gR5 : RFacts 32 64 31 := ⟨Cert.ReferenceIdeal.Facts₀.slices_S32768x255x2_S32768x32x2_0_31_0, Cert.ReferenceIdeal.Facts₀.bcast_S32768x32_S32768x32x2_0_1, Cert.ReferenceIdeal.Facts₀.shapeCasts_S32768x32x2_S32768x64, Cert.ReferenceIdeal.Facts₀.reducesTo_S32768x64_S64_d0, Cert.ReferenceIdeal.Facts₀.reducesTo_S64_S_d0, Cert.ReferenceIdeal.Facts₀.h_S_⟩

/-- The kernel's children's path probabilities are the reference's: repeated mu times interleaved (p, 1 - p). -/
theorem mu_eq6 : Tree.mu6 (F := Ideal) (Pr V0) = mulf (res_main_v99 V0) (res_main_v97 V0) := by
  have e : Tree.mu6 (F := Ideal) (Pr V0) = kNext fK5 (Tree.mu5 (F := Ideal) (Pr V0)) (Pr V0) := rfl
  rw [e, next_eq fK5 gR5 pR (by norm_num) (by norm_num), mu_eq5 V0]
  rfl

/-- They are positive reals when the routing probabilities lie strictly between 0 and 1. -/
theorem pos6 (hP : ∀ i, Unit01 (Pr V0 i)) : ∀ i, Pos (Tree.mu6 (F := Ideal) (Pr V0) i) := by
  have e : Tree.mu6 (F := Ideal) (Pr V0) = kNext fK5 (Tree.mu5 (F := Ideal) (Pr V0)) (Pr V0) := rfl
  rw [e]
  exact next_pos fK5 (by norm_num) (by norm_num) _ _ (pos5 V0 hP) hP

/-- The layer's share of the penalty: the kernel's coefficient over 32 nodes, the reference's half of it over 64 children. -/
def rterm5 : FVec Ideal Cert.ReferenceIdeal.S_ .f32 :=
  mulf (constant Cert.ReferenceIdeal.S_ .f32 0x3783126F#32) (Host.reduceAdd (addf (Host.log (res_main_v103 V0)) (Host.log1p (Host.negf (res_main_v103 V0)))) (constant Cert.ReferenceIdeal.S_ .f32 0x00000000#32) Cert.ReferenceIdeal.Facts₀.reducesTo_S64_S_d0 Cert.ReferenceIdeal.Facts₀.h_S_)

theorem term_eq5 (hP : ∀ i, Unit01 (Pr V0 i)) : Tree.term5 (F := Ideal) (Pr V0) = rterm5 V0 := by
  have e : Tree.term5 (F := Ideal) (Pr V0) = kTerm fK5 0x3803126F#32 (Tree.mu5 (F := Ideal) (Pr V0)) (Pr V0) := rfl
  rw [e, term_eq fK5 gR5 pR (by norm_num) (by norm_num) _ _ halves5 _ _ (pos5 V0 hP) hP, mu_eq5 V0]
  rfl

/-! ## Layer 6: 64 nodes -/

/-- The shape facts of layer 6 in the two programs. -/
theorem fK6 : KFacts 64 128 63 := ⟨Cert.KernelIdeal.Facts₀.slices_S32768x255_S32768x64_0_63, Cert.KernelIdeal.Facts₀.bcast_S_S32768x64, Cert.KernelIdeal.Facts₀.bcast_S32768x64_S32768x64x1_0_1, Cert.KernelIdeal.Facts₀.concatenates_S32768x64x1_S32768x64x1_S32768x64x2_d2, Cert.KernelIdeal.Facts₀.shapeCasts_S32768x64x2_S32768x128, Cert.KernelIdeal.Facts₀.reducesTo_S32768x64_S64_d0, Cert.KernelIdeal.Facts₀.reducesTo_S64_S_d0, Cert.KernelIdeal.Facts₀.h_S_⟩
theorem gR6 : RFacts 64 128 63 := ⟨Cert.ReferenceIdeal.Facts₀.slices_S32768x255x2_S32768x64x2_0_63_0, Cert.ReferenceIdeal.Facts₀.bcast_S32768x64_S32768x64x2_0_1, Cert.ReferenceIdeal.Facts₀.shapeCasts_S32768x64x2_S32768x128, Cert.ReferenceIdeal.Facts₀.reducesTo_S32768x128_S128_d0, Cert.ReferenceIdeal.Facts₀.reducesTo_S128_S_d0, Cert.ReferenceIdeal.Facts₀.h_S_⟩

/-- The kernel's children's path probabilities are the reference's: repeated mu times interleaved (p, 1 - p). -/
theorem mu_eq7 : Tree.mu7 (F := Ideal) (Pr V0) = mulf (res_main_v115 V0) (res_main_v113 V0) := by
  have e : Tree.mu7 (F := Ideal) (Pr V0) = kNext fK6 (Tree.mu6 (F := Ideal) (Pr V0)) (Pr V0) := rfl
  rw [e, next_eq fK6 gR6 pR (by norm_num) (by norm_num), mu_eq6 V0]
  rfl

/-- They are positive reals when the routing probabilities lie strictly between 0 and 1. -/
theorem pos7 (hP : ∀ i, Unit01 (Pr V0 i)) : ∀ i, Pos (Tree.mu7 (F := Ideal) (Pr V0) i) := by
  have e : Tree.mu7 (F := Ideal) (Pr V0) = kNext fK6 (Tree.mu6 (F := Ideal) (Pr V0)) (Pr V0) := rfl
  rw [e]
  exact next_pos fK6 (by norm_num) (by norm_num) _ _ (pos6 V0 hP) hP

/-- The layer's share of the penalty: the kernel's coefficient over 64 nodes, the reference's half of it over 128 children. -/
def rterm6 : FVec Ideal Cert.ReferenceIdeal.S_ .f32 :=
  mulf (constant Cert.ReferenceIdeal.S_ .f32 0x3703126F#32) (Host.reduceAdd (addf (Host.log (res_main_v119 V0)) (Host.log1p (Host.negf (res_main_v119 V0)))) (constant Cert.ReferenceIdeal.S_ .f32 0x00000000#32) Cert.ReferenceIdeal.Facts₀.reducesTo_S128_S_d0 Cert.ReferenceIdeal.Facts₀.h_S_)

theorem term_eq6 (hP : ∀ i, Unit01 (Pr V0 i)) : Tree.term6 (F := Ideal) (Pr V0) = rterm6 V0 := by
  have e : Tree.term6 (F := Ideal) (Pr V0) = kTerm fK6 0x3783126F#32 (Tree.mu6 (F := Ideal) (Pr V0)) (Pr V0) := rfl
  rw [e, term_eq fK6 gR6 pR (by norm_num) (by norm_num) _ _ halves6 _ _ (pos6 V0 hP) hP, mu_eq6 V0]
  rfl

/-! ## Layer 7: 128 nodes -/

/-- The shape facts of layer 7 in the two programs. -/
theorem fK7 : KFacts 128 256 127 := ⟨Cert.KernelIdeal.Facts₀.slices_S32768x255_S32768x128_0_127, Cert.KernelIdeal.Facts₀.bcast_S_S32768x128, Cert.KernelIdeal.Facts₀.bcast_S32768x128_S32768x128x1_0_1, Cert.KernelIdeal.Facts₀.concatenates_S32768x128x1_S32768x128x1_S32768x128x2_d2, Cert.KernelIdeal.Facts₀.shapeCasts_S32768x128x2_S32768x256, Cert.KernelIdeal.Facts₀.reducesTo_S32768x128_S128_d0, Cert.KernelIdeal.Facts₀.reducesTo_S128_S_d0, Cert.KernelIdeal.Facts₀.h_S_⟩
theorem gR7 : RFacts 128 256 127 := ⟨Cert.ReferenceIdeal.Facts₀.slices_S32768x255x2_S32768x128x2_0_127_0, Cert.ReferenceIdeal.Facts₀.bcast_S32768x128_S32768x128x2_0_1, Cert.ReferenceIdeal.Facts₀.shapeCasts_S32768x128x2_S32768x256, Cert.ReferenceIdeal.Facts₀.reducesTo_S32768x256_S256_d0, Cert.ReferenceIdeal.Facts₀.reducesTo_S256_S_d0, Cert.ReferenceIdeal.Facts₀.h_S_⟩

/-- The kernel's children's path probabilities are the reference's: repeated mu times interleaved (p, 1 - p). -/
theorem mu_eq8 : Tree.mu8 (F := Ideal) (Pr V0) = mulf (res_main_v131 V0) (res_main_v129 V0) := by
  have e : Tree.mu8 (F := Ideal) (Pr V0) = kNext fK7 (Tree.mu7 (F := Ideal) (Pr V0)) (Pr V0) := rfl
  rw [e, next_eq fK7 gR7 pR (by norm_num) (by norm_num), mu_eq7 V0]
  rfl

/-- They are positive reals when the routing probabilities lie strictly between 0 and 1. -/
theorem pos8 (hP : ∀ i, Unit01 (Pr V0 i)) : ∀ i, Pos (Tree.mu8 (F := Ideal) (Pr V0) i) := by
  have e : Tree.mu8 (F := Ideal) (Pr V0) = kNext fK7 (Tree.mu7 (F := Ideal) (Pr V0)) (Pr V0) := rfl
  rw [e]
  exact next_pos fK7 (by norm_num) (by norm_num) _ _ (pos7 V0 hP) hP

/-- The layer's share of the penalty: the kernel's coefficient over 128 nodes, the reference's half of it over 256 children. -/
def rterm7 : FVec Ideal Cert.ReferenceIdeal.S_ .f32 :=
  mulf (constant Cert.ReferenceIdeal.S_ .f32 0x3683126F#32) (Host.reduceAdd (addf (Host.log (res_main_v135 V0)) (Host.log1p (Host.negf (res_main_v135 V0)))) (constant Cert.ReferenceIdeal.S_ .f32 0x00000000#32) Cert.ReferenceIdeal.Facts₀.reducesTo_S256_S_d0 Cert.ReferenceIdeal.Facts₀.h_S_)

theorem term_eq7 (hP : ∀ i, Unit01 (Pr V0 i)) : Tree.term7 (F := Ideal) (Pr V0) = rterm7 V0 := by
  have e : Tree.term7 (F := Ideal) (Pr V0) = kTerm fK7 0x3703126F#32 (Tree.mu7 (F := Ideal) (Pr V0)) (Pr V0) := rfl
  rw [e, term_eq fK7 gR7 pR (by norm_num) (by norm_num) _ _ halves7 _ _ (pos7 V0 hP) hP, mu_eq7 V0]
  rfl

/-! ## The results -/

/-- The reference's penalty: zero less each layer's share in turn. -/
def rpen : FVec Ideal Cert.ReferenceIdeal.S_ .f32 :=
  subf (subf (subf (subf (subf (subf (subf (subf (constant Cert.ReferenceIdeal.S_ .f32 0x00000000#32) (rterm0 V0)) (rterm1 V0)) (rterm2 V0)) (rterm3 V0)) (rterm4 V0)) (rterm5 V0)) (rterm6 V0)) (rterm7 V0)

/-- The kernel's penalty of the reference's routing probabilities is the reference's penalty. -/
theorem pen_eq (hP : ∀ i, Unit01 (Pr V0 i)) : Tree.pen7 (F := Ideal) (Pr V0) = rpen V0 := by
  unfold Tree.pen7 Tree.pen6 Tree.pen5 Tree.pen4 Tree.pen3 Tree.pen2 Tree.pen1 Tree.pen0
  rw [term_eq0 V0 hP, term_eq1 V0 hP, term_eq2 V0 hP, term_eq3 V0 hP, term_eq4 V0 hP, term_eq5 V0 hP, term_eq6 V0 hP, term_eq7 V0 hP]
  rfl

end Cert.Chain

end
-- ==== Proof.KVals.lean ====
/-
  What the kernel's program holds at each region's entry and at its end, read back through its host stretches:
  region 0 is entered with x, the transposed weight and the bias row; region 1 with the leaves' path probabilities
  `mu8` of region 0's result and the transposed leaf weight; the penalty is `pen7` of region 0's result.
-/
import proofs.«134657_j7687991460616_1_alg».proof.Proof.KDefs
import proofs.«134657_j7687991460616_1_alg».proof.Proof.Gen.KernelIdeal.Frame
import Idealize.ShloMosaic.Lib.StableHlo.Run

noncomputable section

namespace Cert.KernelIdeal.Vals

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Region 0's entry: the five operations before it -/

/-- Region 0 reads the first argument as launched. -/
theorem V1_arg0 (c : Dev nD) : (V1 m ρ c main_arg0 : Vec F S32768x1024 .f32) = m ((c : Thread nD τ).loc main_arg0) := by
  show StableHlo.after hostOps0 (W0 m ρ c) (Proc.devRef .tc main_arg0) = _
  after_results

/-- Region 0's weight operand: columns 1 … 1024 of the second argument, transposed. -/
theorem V1_wT (c : Dev nD) : (V1 m ρ c main_v4 : Vec F S1024x255 .f32)
    = transpose S1024x255 [1, 0] (extractStridedSlice S255x1024 ![0, 1] (m ((c : Thread nD τ).loc main_arg1) : Vec F S255x1025 .f32) slices_S255x1025_S255x1024_0_1) transposes_S255x1024_S1024x255_1_0 := by
  show StableHlo.after hostOps0 (W0 m ρ c) (Proc.devRef .tc main_v4) = _
  after_results

/-- Region 0's bias operand: column 0 of the second argument, as a row. -/
theorem V1_bias (c : Dev nD) : (V1 m ρ c main_v2 : Vec F S1x255 .f32)
    = shapeCast S1x255 (shapeCast S255 (extractStridedSlice S255x1 ![0, 0] (m ((c : Thread nD τ).loc main_arg1) : Vec F S255x1025 .f32) slices_S255x1025_S255x1_0_0) shapeCasts_S255x1_S255) shapeCasts_S255_S1x255 := by
  show StableHlo.after hostOps0 (W0 m ρ c) (Proc.devRef .tc main_v2) = _
  after_results
  rfl

/-- The routing probabilities: region 0's result array after its write-backs. -/
abbrev Pk (c : Dev nD) : Vec F S32768x255 .f32 := W2 m ρ c (Proc.devRef .tc main_v5)

theorem Pk_eq (c : Dev nD) : Pk m ρ c = ((dat0 (V1 m ρ) c).arrAt 3 cfg0.N : Vec F S32768x255 .f32) :=
  W2_arr m ρ c 3

/-! ## The stretch between the regions: 196 operations, read in four consecutive parts

Each part is read from the contents `V0` the stretch starts with. The routing probabilities `P` are `V0` at
`main_v5`, which no operation of the stretch writes. What a later part reads of an earlier one is stated as the
tree's named term of `P`: the penalty so far, the path probabilities into the layer being computed, and whatever
else of a layer cut in two the later part still reads. -/

section Stretch

/-- Two arrays of one shape joined along an axis, as a plain function of the two. -/
def join2 {α : Type} {S : Shape} (T : Shape) (d : Fin T.rank) (a b : S.Idx → α) (h : Shape.Concatenates [S, S] T d) : T.Idx → α :=
  concatenate T d [⟨S, a⟩, ⟨S, b⟩] h

theorem join2_fold {α : Type} {S : Shape} (T : Shape) (d : Fin T.rank) (a b : S.Idx → α) (h : Shape.Concatenates [S, S] T d) :
    concatenate T d [⟨S, a⟩, ⟨S, b⟩] h = join2 T d a b h := rfl

/-- Reads a buffer after a literal list of operations: each operation's result at its own buffer is its function of
    its operands' contents, at any other buffer what was there; a join of two computed arrays is read as `join2` of
    them, so that the two are read in turn. -/
local macro "read_window" : tactic =>
  `(tactic| (simp (disch := decide) only [after_cons, after_nil,
      nullary_result', unary_result', binary_result', reshape_result',
      nullary_result_ne', unary_result_ne', binary_result_ne', reshape_result_ne', join2_fold]))

variable (V0 : Valuation τ sig (Elt F))

/-- The contents after the stretch's first part (operations 1 … 54). -/
def at1 : Valuation τ sig (Elt F) := after main_part0_ops1 V0
/-- After its second part (operations 55 … 114). -/
def at2 : Valuation τ sig (Elt F) := after main_part1_ops0 (at1 V0)
/-- After its third part (operations 115 … 174). -/
def at3 : Valuation τ sig (Elt F) := after main_part2_ops0 (at2 V0)
/-- After its last part (operations 175 … 196). -/
def at4 : Valuation τ sig (Elt F) := after main_part3_ops0 (at3 V0)

set_option maxRecDepth 8192 in
/-- The stretch is its four parts in order. -/
theorem hostOps1_parts : (hostOps1 : List (HloOp τ sig (Elt F)))
    = main_part0_ops1 ++ (main_part1_ops0 ++ (main_part2_ops0 ++ main_part3_ops0)) := rfl

theorem after_hostOps1 : after hostOps1 V0 = at4 V0 := by
  rw [hostOps1_parts, after_append, after_append, after_append]
  rfl

/-! ### The first part: layers 0 and 1, and layer 2 up to its left children -/

/-- The buffers the first part writes. -/
abbrev part1_W : List (Ref sig .tc) := [main_cst, main_v6, main_v7, main_v8, main_cst_0, main_v9, main_v10, main_v11, main_cst_1, main_v12, main_cst_2, main_v13, main_v14, main_v15, main_v16, main_v17, main_v18, main_cst_3, main_v19, main_cst_4, main_v20, main_cst_5, main_v21, main_v22, main_v23, main_v24, main_v25, main_v26, main_v27, main_cst_6, main_v28, main_v29, main_v30, main_cst_7, main_v31, main_cst_8, main_v32, main_v33, main_v34, main_v35, main_v36, main_v37, main_cst_9, main_v38, main_cst_10, main_v39, main_v40, main_v41, main_v42, main_v43, main_v44, main_v45, main_v46, main_cst_11]
set_option maxRecDepth 8192 in
theorem part1_writes : (main_part0_ops1 : List (HloOp τ sig (Elt F))).Forall fun op => op.writes ⊆ (part1_W.map (Proc.devRef (τ := τ) .tc)).toFinset := by
  simp only [List.Forall, nullary_writes, unary_writes, binary_writes, reshape_writes, Finset.singleton_subset_iff, List.mem_toFinset]
  repeat' apply And.intro
  all_goals exact List.mem_map_of_mem (by decide)

/-- A buffer the first part does not write keeps its contents. -/
theorem at1_keep (r : Ref sig .tc) (h : r ∉ part1_W) : at1 V0 (Proc.devRef .tc r) = V0 (Proc.devRef .tc r) :=
  after_of_writes_sub main_part0_ops1 _ part1_writes h
theorem at1_P : at1 V0 (no_index (Proc.devRef .tc main_v5)) = V0 (Proc.devRef .tc main_v5) := at1_keep V0 main_v5 (by decide)
theorem at1_arg2 : at1 V0 (no_index (Proc.devRef .tc main_arg2)) = V0 (Proc.devRef .tc main_arg2) := at1_keep V0 main_arg2 (by decide)
set_option maxRecDepth 8192 in
set_option maxHeartbeats 2000000 in
/-- The penalty after layers 0 and 1. -/
theorem at1_pen1 : (at1 V0 (no_index (Proc.devRef .tc main_v40)) : Vec F S_ .f32) = Tree.pen1 (V0 (Proc.devRef .tc main_v5)) := by
  unfold at1
  simp only [main_part0_ops1]
  read_window
  rfl

set_option maxRecDepth 8192 in
set_option maxHeartbeats 2000000 in
/-- The path probabilities into layer 2. -/
theorem at1_mu2 : (at1 V0 (no_index (Proc.devRef .tc main_v44)) : Vec F S32768x4 .f32) = Tree.mu2 (V0 (Proc.devRef .tc main_v5)) := by
  unfold at1
  simp only [main_part0_ops1]
  read_window
  rfl

set_option maxRecDepth 8192 in
set_option maxHeartbeats 2000000 in
/-- Layer 2's routing probabilities. -/
theorem at1_pl2 : (at1 V0 (no_index (Proc.devRef .tc main_v45)) : Vec F S32768x4 .f32) = Tree.pl2 (V0 (Proc.devRef .tc main_v5)) := by
  unfold at1
  simp only [main_part0_ops1]
  read_window
  rfl

set_option maxRecDepth 8192 in
set_option maxHeartbeats 2000000 in
/-- The path probabilities into layer 2's left children. -/
theorem at1_left2 : (at1 V0 (no_index (Proc.devRef .tc main_v46)) : Vec F S32768x4 .f32) = Tree.left2 (V0 (Proc.devRef .tc main_v5)) := by
  unfold at1
  simp only [main_part0_ops1]
  read_window
  rfl

set_option maxRecDepth 8192 in
set_option maxHeartbeats 2000000 in
/-- The constant one that layer 2's right children are computed from. -/
theorem at1_one : (at1 V0 (no_index (Proc.devRef .tc main_cst_11)) : Vec F S_ .f32) = constant S_ .f32 0x3F800000#32 := by
  unfold at1
  simp only [main_part0_ops1]
  read_window

/-! ### The second part: the rest of layer 2, layer 3, and layer 4 up to log α + log1p (-α) -/

/-- The buffers the second part writes. -/
abbrev part2_W : List (Ref sig .tc) := [main_v47, main_v48, main_v49, main_cst_12, main_v50, main_cst_13, main_v51, main_v52, main_v53, main_v54, main_v55, main_v56, main_cst_14, main_v57, main_cst_15, main_v58, main_v59, main_v60, main_v61, main_v62, main_v63, main_v64, main_v65, main_cst_16, main_v66, main_v67, main_v68, main_cst_17, main_v69, main_cst_18, main_v70, main_v71, main_v72, main_v73, main_v74, main_v75, main_cst_19, main_v76, main_cst_20, main_v77, main_v78, main_v79, main_v80, main_v81, main_v82, main_v83, main_v84, main_cst_21, main_v85, main_v86, main_v87, main_cst_22, main_v88, main_cst_23, main_v89, main_v90, main_v91, main_v92, main_v93, main_v94]
set_option maxRecDepth 8192 in
theorem part2_writes : (main_part1_ops0 : List (HloOp τ sig (Elt F))).Forall fun op => op.writes ⊆ (part2_W.map (Proc.devRef (τ := τ) .tc)).toFinset := by
  simp only [List.Forall, nullary_writes, unary_writes, binary_writes, reshape_writes, Finset.singleton_subset_iff, List.mem_toFinset]
  repeat' apply And.intro
  all_goals exact List.mem_map_of_mem (by decide)

/-- A buffer the second part does not write keeps its contents. -/
theorem at2_keep (r : Ref sig .tc) (h : r ∉ part2_W) : at2 V0 (Proc.devRef .tc r) = at1 V0 (Proc.devRef .tc r) :=
  after_of_writes_sub main_part1_ops0 _ part2_writes h
theorem at2_P : at2 V0 (no_index (Proc.devRef .tc main_v5)) = V0 (Proc.devRef .tc main_v5) := (at2_keep V0 main_v5 (by decide)).trans (at1_P V0)
theorem at2_arg2 : at2 V0 (no_index (Proc.devRef .tc main_arg2)) = V0 (Proc.devRef .tc main_arg2) := (at2_keep V0 main_arg2 (by decide)).trans (at1_arg2 V0)
set_option maxRecDepth 8192 in
set_option maxHeartbeats 2000000 in
/-- The penalty after layers 0 … 3. -/
theorem at2_pen3 : (at2 V0 (no_index (Proc.devRef .tc main_v78)) : Vec F S_ .f32) = Tree.pen3 (V0 (Proc.devRef .tc main_v5)) := by
  unfold at2
  simp only [main_part1_ops0]
  read_window
  simp only [at1_P, at1_pen1, at1_mu2, at1_pl2, at1_left2, at1_one] <;> rfl

set_option maxRecDepth 8192 in
set_option maxHeartbeats 2000000 in
/-- The path probabilities into layer 4. -/
theorem at2_mu4 : (at2 V0 (no_index (Proc.devRef .tc main_v82)) : Vec F S32768x16 .f32) = Tree.mu4 (V0 (Proc.devRef .tc main_v5)) := by
  unfold at2
  simp only [main_part1_ops0]
  read_window
  simp only [at1_P, at1_pen1, at1_mu2, at1_pl2, at1_left2, at1_one] <;> rfl

set_option maxRecDepth 8192 in
set_option maxHeartbeats 2000000 in
/-- The path probabilities into layer 4's left children. -/
theorem at2_left4 : (at2 V0 (no_index (Proc.devRef .tc main_v84)) : Vec F S32768x16 .f32) = Tree.left4 (V0 (Proc.devRef .tc main_v5)) := by
  unfold at2
  simp only [main_part1_ops0]
  read_window
  simp only [at1_P, at1_pen1, at1_mu2, at1_pl2, at1_left2, at1_one] <;> rfl

set_option maxRecDepth 8192 in
set_option maxHeartbeats 2000000 in
/-- The path probabilities into layer 4's right children. -/
theorem at2_right4 : (at2 V0 (no_index (Proc.devRef .tc main_v87)) : Vec F S32768x16 .f32) = Tree.right4 (V0 (Proc.devRef .tc main_v5)) := by
  unfold at2
  simp only [main_part1_ops0]
  read_window
  simp only [at1_P, at1_pen1, at1_mu2, at1_pl2, at1_left2, at1_one] <;> rfl

set_option maxRecDepth 8192 in
set_option maxHeartbeats 2000000 in
/-- Layer 4's log α + log1p (-α), node by node: what its share of the penalty sums. -/
theorem at2_lg4 : (at2 V0 (no_index (Proc.devRef .tc main_v94)) : Vec F S16 .f32)
    = addf (Host.log (Tree.alpha4 (V0 (Proc.devRef .tc main_v5)))) (Host.log1p (Host.negf (Tree.alpha4 (V0 (Proc.devRef .tc main_v5))))) := by
  unfold at2
  simp only [main_part1_ops0]
  read_window
  simp only [at1_P, at1_pen1, at1_mu2, at1_pl2, at1_left2, at1_one] <;> rfl

/-! ### The third part: the rest of layer 4, layers 5 and 6, and layer 7 up to its left children -/

/-- The buffers the third part writes. -/
abbrev part3_W : List (Ref sig .tc) := [main_cst_24, main_v95, main_cst_25, main_v96, main_v97, main_v98, main_v99, main_v100, main_v101, main_v102, main_v103, main_cst_26, main_v104, main_v105, main_v106, main_cst_27, main_v107, main_cst_28, main_v108, main_v109, main_v110, main_v111, main_v112, main_v113, main_cst_29, main_v114, main_cst_30, main_v115, main_v116, main_v117, main_v118, main_v119, main_v120, main_v121, main_v122, main_cst_31, main_v123, main_v124, main_v125, main_cst_32, main_v126, main_cst_33, main_v127, main_v128, main_v129, main_v130, main_v131, main_v132, main_cst_34, main_v133, main_cst_35, main_v134, main_v135, main_v136, main_v137, main_v138, main_v139, main_v140, main_v141, main_cst_36]
set_option maxRecDepth 8192 in
theorem part3_writes : (main_part2_ops0 : List (HloOp τ sig (Elt F))).Forall fun op => op.writes ⊆ (part3_W.map (Proc.devRef (τ := τ) .tc)).toFinset := by
  simp only [List.Forall, nullary_writes, unary_writes, binary_writes, reshape_writes, Finset.singleton_subset_iff, List.mem_toFinset]
  repeat' apply And.intro
  all_goals exact List.mem_map_of_mem (by decide)

/-- A buffer the third part does not write keeps its contents. -/
theorem at3_keep (r : Ref sig .tc) (h : r ∉ part3_W) : at3 V0 (Proc.devRef .tc r) = at2 V0 (Proc.devRef .tc r) :=
  after_of_writes_sub main_part2_ops0 _ part3_writes h
theorem at3_arg2 : at3 V0 (no_index (Proc.devRef .tc main_arg2)) = V0 (Proc.devRef .tc main_arg2) := (at3_keep V0 main_arg2 (by decide)).trans (at2_arg2 V0)
set_option maxRecDepth 8192 in
set_option maxHeartbeats 2000000 in
/-- The penalty after layers 0 … 6. -/
theorem at3_pen6 : (at3 V0 (no_index (Proc.devRef .tc main_v135)) : Vec F S_ .f32) = Tree.pen6 (V0 (Proc.devRef .tc main_v5)) := by
  unfold at3
  simp only [main_part2_ops0]
  read_window
  simp only [at2_P, at2_pen3, at2_mu4, at2_left4, at2_right4, at2_lg4] <;> rfl

set_option maxRecDepth 8192 in
set_option maxHeartbeats 2000000 in
/-- The path probabilities into layer 7. -/
theorem at3_mu7 : (at3 V0 (no_index (Proc.devRef .tc main_v139)) : Vec F S32768x128 .f32) = Tree.mu7 (V0 (Proc.devRef .tc main_v5)) := by
  unfold at3
  simp only [main_part2_ops0]
  read_window
  simp only [at2_P, at2_pen3, at2_mu4, at2_left4, at2_right4, at2_lg4] <;> rfl

set_option maxRecDepth 8192 in
set_option maxHeartbeats 2000000 in
/-- Layer 7's routing probabilities. -/
theorem at3_pl7 : (at3 V0 (no_index (Proc.devRef .tc main_v140)) : Vec F S32768x128 .f32) = Tree.pl7 (V0 (Proc.devRef .tc main_v5)) := by
  unfold at3
  simp only [main_part2_ops0]
  read_window
  simp only [at2_P, at2_pen3, at2_mu4, at2_left4, at2_right4, at2_lg4] <;> rfl

set_option maxRecDepth 8192 in
set_option maxHeartbeats 2000000 in
/-- The path probabilities into layer 7's left children. -/
theorem at3_left7 : (at3 V0 (no_index (Proc.devRef .tc main_v141)) : Vec F S32768x128 .f32) = Tree.left7 (V0 (Proc.devRef .tc main_v5)) := by
  unfold at3
  simp only [main_part2_ops0]
  read_window
  simp only [at2_P, at2_pen3, at2_mu4, at2_left4, at2_right4, at2_lg4] <;> rfl

set_option maxRecDepth 8192 in
set_option maxHeartbeats 2000000 in
/-- The constant one that layer 7's right children are computed from. -/
theorem at3_one : (at3 V0 (no_index (Proc.devRef .tc main_cst_36)) : Vec F S_ .f32) = constant S_ .f32 0x3F800000#32 := by
  unfold at3
  simp only [main_part2_ops0]
  read_window

/-! ### The last part: the rest of layer 7, and the leaf weight transposed -/

set_option maxRecDepth 8192 in
set_option maxHeartbeats 2000000 in
/-- The whole penalty. -/
theorem at4_pen7 : (at4 V0 (no_index (Proc.devRef .tc main_v154)) : Vec F S_ .f32) = Tree.pen7 (V0 (Proc.devRef .tc main_v5)) := by
  unfold at4
  simp only [main_part3_ops0]
  read_window
  simp only [at3_arg2, at3_pen6, at3_mu7, at3_pl7, at3_left7, at3_one] <;> rfl

set_option maxRecDepth 8192 in
set_option maxHeartbeats 2000000 in
/-- The leaves' path probabilities. -/
theorem at4_mu8 : (at4 V0 (no_index (Proc.devRef .tc main_v158)) : Vec F S32768x256 .f32) = Tree.mu8 (V0 (Proc.devRef .tc main_v5)) := by
  unfold at4
  simp only [main_part3_ops0]
  read_window
  simp only [at3_arg2, at3_pen6, at3_mu7, at3_pl7, at3_left7, at3_one] <;> rfl

set_option maxRecDepth 8192 in
set_option maxHeartbeats 2000000 in
/-- The third argument, transposed. -/
theorem at4_wleafT : (at4 V0 (no_index (Proc.devRef .tc main_v159)) : Vec F S256x1000 .f32)
    = transpose S256x1000 [1, 0] (V0 (Proc.devRef .tc main_arg2) : Vec F S1000x256 .f32) transposes_S1000x256_S256x1000_1_0 := by
  unfold at4
  simp only [main_part3_ops0]
  read_window
  simp only [at3_arg2, at3_pen6, at3_mu7, at3_pl7, at3_left7, at3_one] <;> rfl

end Stretch

/-! ## Region 1's entry and the two results -/

/-- Region 1's first operand: the leaves' path probabilities. -/
theorem V3_mu (c : Dev nD) : (V3 m ρ c main_v158 : Vec F S32768x256 .f32) = Tree.mu8 (Pk m ρ c) := by
  show StableHlo.after hostOps1 (W2 m ρ c) (Proc.devRef .tc main_v158) = _
  rw [after_hostOps1]
  exact at4_mu8 (W2 m ρ c)

/-- Region 1's second operand: the third argument, transposed. -/
theorem V3_wleafT (c : Dev nD) : (V3 m ρ c main_v159 : Vec F S256x1000 .f32)
    = transpose S256x1000 [1, 0] (m ((c : Thread nD τ).loc main_arg2) : Vec F S1000x256 .f32) transposes_S1000x256_S256x1000_1_0 := by
  have e : W2 m ρ c (Proc.devRef .tc main_arg2) = m ((c : Thread nD τ).loc main_arg2) := by
    refine (W2_of_ne m ρ c main_arg2 (by decide)).trans ?_
    show StableHlo.after hostOps0 (W0 m ρ c) (Proc.devRef .tc main_arg2) = _
    after_results
  show StableHlo.after hostOps1 (W2 m ρ c) (Proc.devRef .tc main_v159) = _
  rw [after_hostOps1, ← e]
  exact at4_wleafT (W2 m ρ c)

/-- The penalty result. -/
theorem W4_pen (c : Dev nD) : (W4 m ρ c (Proc.devRef .tc main_v154) : Vec F S_ .f32) = Tree.pen7 (Pk m ρ c) := by
  refine (W4_of_ne m ρ c main_v154 (by decide)).trans ?_
  show StableHlo.after hostOps1 (W2 m ρ c) (Proc.devRef .tc main_v154) = _
  rw [after_hostOps1]
  exact at4_pen7 (W2 m ρ c)

/-- The prediction result: region 1's result array after its write-backs. -/
theorem W4_y (c : Dev nD) : (W4 m ρ c (Proc.devRef .tc main_v160) : Vec F S32768x1000 .f32) = ((dat1 (V3 m ρ) c).arrAt 2 cfg1.N : Vec F S32768x1000 .f32) :=
  W4_arr m ρ c 2

end Cert.KernelIdeal.Vals

end
-- ==== Proof.Region0.lean ====
/-
  The routing probabilities p = sigmoid(x · wᵀ + b): what the first pallas_call leaves in its result array, and that the
  reference computes the same array as sigmoid([1, x] · W_innerᵀ) (the bias is column 0 of W_inner, the constant-one
  column's weight), entry by entry strictly between 0 and 1 when the inputs are real.
-/
import proofs.«134657_j7687991460616_1_alg».proof.Proof.LBase
import proofs.«134657_j7687991460616_1_alg».proof.Proof.Gen.KernelIdeal.Frame
import proofs.«134657_j7687991460616_1_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws

noncomputable section

namespace Cert.Region0

open Idealize.ShloMosaic Idealize.ShloMosaic.ValueIdx

/-- The routing probability of row r and node q as a function of x : [32768, 1024] and W_inner : [255, 1025] alone:
    the logistic of Σ_k x(r, k) · W(q, k + 1), plus W(q, 0). -/
def probAt (A0 : (⟨2, ![32768, 1024]⟩ : Shape).Idx → EReal) (A1 : (⟨2, ![255, 1025]⟩ : Shape).Idx → EReal) (r : Fin 32768) (q : Fin 255) : EReal :=
  Ideal.logistic ((∑ k : Fin 1024, A0 (ix2 r k) * A1 (ix2 q (⟨k.val + 1, by omega⟩ : Fin 1025))) + A1 (ix2 q (⟨0, by omega⟩ : Fin 1025)))

end Cert.Region0

namespace Cert.Region0.Ref

open Idealize.ShloMosaic Idealize.ShloMosaic.TcCoe Idealize.SL.Sem Idealize.ShloMosaic.ValueIdx
open Cert.ReferenceIdeal Cert.ReferenceIdeal.Gen Cert.Layer

/-! ## The reference's product over the augmented column, read at an index -/

/-- Row axis of the left operand: the output's row. -/
theorem lhs_fulldot_0 (i : S32768x255.Idx) (q : dot_S32768x1025_S1025x255_S32768x255_1_0_0_1_n_n.contr.Idx) :
    (dot_S32768x1025_S1025x255_S32768x255_1_0_0_1_n_n.lhsIdx i q 0).val = (i 0).val := by
  unfold DotDims.lhsIdx
  rw [dif_neg (show ¬(0 : Fin S32768x1025.rank) ∈ dot_S32768x1025_S1025x255_S32768x255_1_0_0_1_n_n.lhsBatch by decide), dif_pos (show (0 : Fin S32768x1025.rank) ∈ dot_S32768x1025_S1025x255_S32768x255_1_0_0_1_n_n.lhsNonContracting by decide)]
  rfl
/-- Column axis of the left operand: the contraction position. -/
theorem lhs_fulldot_1 (i : S32768x255.Idx) (q : dot_S32768x1025_S1025x255_S32768x255_1_0_0_1_n_n.contr.Idx) :
    (dot_S32768x1025_S1025x255_S32768x255_1_0_0_1_n_n.lhsIdx i q 1).val = (q ⟨0, by decide⟩).val :=
  dot_S32768x1025_S1025x255_S32768x255_1_0_0_1_n_n.lhsIdx_val_of_single rfl i q
/-- Row axis of the right operand: the contraction position. -/
theorem rhs_fulldot_0 (i : S32768x255.Idx) (q : dot_S32768x1025_S1025x255_S32768x255_1_0_0_1_n_n.contr.Idx) :
    (dot_S32768x1025_S1025x255_S32768x255_1_0_0_1_n_n.rhsIdx i q 0).val = (q ⟨0, by decide⟩).val :=
  dot_S32768x1025_S1025x255_S32768x255_1_0_0_1_n_n.rhsIdx_val_of_single rfl i q
/-- Column axis of the right operand: the output's column. -/
theorem rhs_fulldot_1 (i : S32768x255.Idx) (q : dot_S32768x1025_S1025x255_S32768x255_1_0_0_1_n_n.contr.Idx) :
    (dot_S32768x1025_S1025x255_S32768x255_1_0_0_1_n_n.rhsIdx i q 1).val = (i 1).val := by
  unfold DotDims.rhsIdx
  rw [dif_neg (show ¬(1 : Fin S1025x255.rank) ∈ dot_S32768x1025_S1025x255_S32768x255_1_0_0_1_n_n.rhsBatch by decide), dif_pos (show (1 : Fin S1025x255.rank) ∈ dot_S32768x1025_S1025x255_S32768x255_1_0_0_1_n_n.rhsNonContracting by decide)]
  rfl

/-- The host product at row r and column q: the sum over the 1025 contraction positions of left(r, k) · right(k, q). -/
theorem fulldot_at (l : FVec Ideal S32768x1025 .f32) (w : FVec Ideal S1025x255 .f32) (r : Fin 32768) (q : Fin 255) :
    Host.dotGeneral dot_S32768x1025_S1025x255_S32768x255_1_0_0_1_n_n none l w (ix2 r q)
      = ∑ k : Fin 1025, l (ix2 r k) * w (ix2 k q) := by
  simp only [Host.dotGeneral]
  rw [Ideal.dotGeneral_apply, ← Equiv.sum_comp (contrEquiv1 dot_S32768x1025_S1025x255_S32768x255_1_0_0_1_n_n 1025 rfl rfl).symm]
  refine Finset.sum_congr rfl fun k _ => ?_
  have hk := contrEquiv1_symm_val dot_S32768x1025_S1025x255_S32768x255_1_0_0_1_n_n 1025 rfl rfl k
  have el : dot_S32768x1025_S1025x255_S32768x255_1_0_0_1_n_n.lhsIdx (ix2 r q) ((contrEquiv1 dot_S32768x1025_S1025x255_S32768x255_1_0_0_1_n_n 1025 rfl rfl).symm k) = ix2 r k := funext fun a => Fin.ext (by
    match a with
    | ⟨0, _⟩ => exact lhs_fulldot_0 _ _
    | ⟨1, _⟩ => exact (lhs_fulldot_1 _ _).trans hk)
  have er : dot_S32768x1025_S1025x255_S32768x255_1_0_0_1_n_n.rhsIdx (ix2 r q) ((contrEquiv1 dot_S32768x1025_S1025x255_S32768x255_1_0_0_1_n_n 1025 rfl rfl).symm k) = ix2 k q := funext fun a => Fin.ext (by
    match a with
    | ⟨0, _⟩ => exact (rhs_fulldot_0 _ _).trans hk
    | ⟨1, _⟩ => exact rhs_fulldot_1 _ _)
  rw [el, er]

/-- Column 0 of [1, x] is the constant one. -/
theorem onesx_zero (X : FVec Ideal S32768x1024 .f32) (r : Fin 32768) :
    concatenate S32768x1025 1 [⟨S32768x1, (broadcastInDim S32768x1 ![] bcast_S_S32768x1 (constant (F := Ideal) S_ .f32 0x3F800000#32))⟩, ⟨S32768x1024, X⟩] concatenates_S32768x1_S32768x1024_S32768x1025_d1 (ix2 r (⟨0, by omega⟩ : Fin 1025)) = 1 := by
  refine (concatenate_pair_apply_left (1 : Fin S32768x1025.rank) _ X concatenates_S32768x1_S32768x1024_S32768x1025_d1 (ix2 r (⟨0, by omega⟩ : Fin 1025)) rfl (ix2 r (0 : Fin 1)) fun b => ?_).trans ?_
  · match b with
    | ⟨0, _⟩ => rfl
    | ⟨1, _⟩ => rfl
  · show Ideal.ofBits .f32 0x3F800000#32 = 1
    exact ofBits_one

/-- Column k + 1 of [1, x] is column k of x. -/
theorem onesx_succ (X : FVec Ideal S32768x1024 .f32) (r : Fin 32768) (k : Fin 1024) :
    concatenate S32768x1025 1 [⟨S32768x1, (broadcastInDim S32768x1 ![] bcast_S_S32768x1 (constant (F := Ideal) S_ .f32 0x3F800000#32))⟩, ⟨S32768x1024, X⟩] concatenates_S32768x1_S32768x1024_S32768x1025_d1 (ix2 r (⟨k.val + 1, by omega⟩ : Fin 1025)) = X (ix2 r k) := by
  refine concatenate_pair_apply_right (1 : Fin S32768x1025.rank) _ X concatenates_S32768x1_S32768x1024_S32768x1025_d1 (ix2 r (⟨k.val + 1, by omega⟩ : Fin 1025)) rfl rfl (ix2 r k) (fun b hb => ?_) ?_
  · match b with
    | ⟨0, _⟩ => rfl
    | ⟨1, _⟩ => exact absurd rfl hb
  · rfl

/-- The transposed W_inner at (k, q) is W_inner at (q, k). -/
theorem wfull_at (W : FVec Ideal S255x1025 .f32) (k : Fin 1025) (q : Fin 255) :
    transpose S1025x255 [1, 0] W transposes_S255x1025_S1025x255_1_0 (ix2 k q) = W (ix2 q k) := by
  refine transpose_apply [1, 0] W transposes_S255x1025_S1025x255_1_0 (ix2 k q) (ix2 q k) fun b => ?_
  match b with
  | ⟨0, _⟩ => rfl
  | ⟨1, _⟩ => rfl

/-- The reference's expression sigmoid([1, x] · W_innerᵀ), written with negate, exponential, add and divide, at row r and
    node q: the constant column contributes 1 · W(q, 0), the rest the sum over x's columns. -/
theorem ref_at (X : FVec Ideal S32768x1024 .f32) (W : FVec Ideal S255x1025 .f32) (r : Fin 32768) (q : Fin 255) :
    Host.divf (F := Ideal) (broadcastInDim S32768x255 ![] bcast_S_S32768x255 (constant (F := Ideal) S_ .f32 0x3F800000#32))
      (addf (broadcastInDim S32768x255 ![] bcast_S_S32768x255 (constant (F := Ideal) S_ .f32 0x3F800000#32))
        (Host.exp (Host.negf (Host.dotGeneral dot_S32768x1025_S1025x255_S32768x255_1_0_0_1_n_n none
          (concatenate S32768x1025 1 [⟨S32768x1, (broadcastInDim S32768x1 ![] bcast_S_S32768x1 (constant (F := Ideal) S_ .f32 0x3F800000#32))⟩, ⟨S32768x1024, X⟩] concatenates_S32768x1_S32768x1024_S32768x1025_d1)
          (transpose S1025x255 [1, 0] W transposes_S255x1025_S1025x255_1_0))))) (ix2 r q)
      = probAt X W r q := by
  show Ideal.div (Ideal.ofBits .f32 0x3F800000#32) (Ideal.ofBits .f32 0x3F800000#32 + Ideal.exp (-(Host.dotGeneral (F := Ideal) (φ₁ := .f32) (φ₂ := .f32) dot_S32768x1025_S1025x255_S32768x255_1_0_0_1_n_n none _ _ (ix2 r q)))) = _
  rw [ofBits_one, fulldot_at]
  unfold probAt Ideal.logistic
  congr 4
  refine (Fin.sum_univ_succ (n := 1024) _).trans ?_
  rw [add_comm]
  congr 1
  · refine Finset.sum_congr rfl fun k _ => ?_
    show _ * _ = _
    rw [wfull_at]
    exact congrArg (· * _) (onesx_succ X r k)
  · show _ * _ = _
    rw [wfull_at]
    exact (congrArg (· * _) (onesx_zero X r)).trans (one_mul _)

/-- The reference's routing array at row r and node q, in terms of its two arguments. -/
theorem res_at (V0 : Valuation τ sig (Elt Ideal)) (r : Fin 32768) (q : Fin 255) :
    (Value.res_main_v9 V0 : Vec Ideal S32768x255 .f32) (ix2 r q)
      = probAt (V0 (Proc.devRef .tc main_arg0) : Vec Ideal S32768x1024 .f32) (V0 (Proc.devRef .tc main_arg1) : Vec Ideal S255x1025 .f32) r q := by
  unfold Value.res_main_v9
  exact ref_at _ _ r q

end Cert.Region0.Ref

namespace Cert.Region0

open Idealize.ShloMosaic Idealize.ShloMosaic.ValueIdx Cert.Layer

/-- A finite sum of reals, read in the extended reals, is the sum of the terms read there. -/
theorem coe_finsum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- With real entries of x and W_inner the routing probability is the logistic of a real number, a real strictly between
    0 and 1: 1 / (1 + e^(-z)) with e^(-z) > 0. -/
theorem probAt_unit01 (A0 : (⟨2, ![32768, 1024]⟩ : Shape).Idx → EReal) (A1 : (⟨2, ![255, 1025]⟩ : Shape).Idx → EReal)
    (h0 : ∀ i, IsReal (A0 i)) (h1 : ∀ i, IsReal (A1 i)) (r : Fin 32768) (q : Fin 255) : Unit01 (probAt A0 A1 r q) := by
  have h0' : ∀ i, ∃ x : ℝ, A0 i = (x : EReal) := h0
  have h1' : ∀ i, ∃ w : ℝ, A1 i = (w : EReal) := h1
  choose x hx using h0'
  choose w hw using h1'
  have hz : (∑ k : Fin 1024, A0 (ix2 r k) * A1 (ix2 q (⟨k.val + 1, by omega⟩ : Fin 1025))) + A1 (ix2 q (⟨0, by omega⟩ : Fin 1025))
      = (((∑ k : Fin 1024, x (ix2 r k) * w (ix2 q (⟨k.val + 1, by omega⟩ : Fin 1025))) + w (ix2 q (⟨0, by omega⟩ : Fin 1025)) : ℝ) : EReal) := by
    rw [EReal.coe_add, coe_finsum, hw]
    congr 1
    refine Finset.sum_congr rfl fun k _ => ?_
    rw [hx, hw, EReal.coe_mul]
  unfold probAt
  rw [hz, Ideal.logistic_coe]
  refine ⟨_, ?_, ?_, rfl⟩
  · positivity
  · have he : 0 < Real.exp (-((∑ k : Fin 1024, x (ix2 r k) * w (ix2 q (⟨k.val + 1, by omega⟩ : Fin 1025))) + w (ix2 q (⟨0, by omega⟩ : Fin 1025)))) := Real.exp_pos _
    exact inv_lt_one_of_one_lt₀ (by linarith)

end Cert.Region0

namespace Cert.Region0

open Idealize.ShloMosaic Idealize.ShloMosaic.TcCoe Idealize.SL.Sem Idealize.ShloMosaic.ValueIdx
open Idealize.ShloMosaic.Pipeline (Dat)
open Cert.KernelIdeal Cert.KernelIdeal.Gen Cert.Layer

variable (V : (c : Dev nD) → (b : Ref sig .tc) → Buf (Elt Ideal) ((c : Thread nD τ).loc b))

/-! ## The block product read at an index -/

/-- Row axis of the left operand: the output's row. -/
theorem lhs_blockdot_0 (i : S2048x255.Idx) (q : dot_S2048x1024_S1024x255_S2048x255_1_0_0_1_n_n.contr.Idx) :
    (dot_S2048x1024_S1024x255_S2048x255_1_0_0_1_n_n.lhsIdx i q 0).val = (i 0).val := by
  unfold DotDims.lhsIdx
  rw [dif_neg (show ¬(0 : Fin S2048x1024.rank) ∈ dot_S2048x1024_S1024x255_S2048x255_1_0_0_1_n_n.lhsBatch by decide), dif_pos (show (0 : Fin S2048x1024.rank) ∈ dot_S2048x1024_S1024x255_S2048x255_1_0_0_1_n_n.lhsNonContracting by decide)]
  rfl
/-- Column axis of the left operand: the contraction position. -/
theorem lhs_blockdot_1 (i : S2048x255.Idx) (q : dot_S2048x1024_S1024x255_S2048x255_1_0_0_1_n_n.contr.Idx) :
    (dot_S2048x1024_S1024x255_S2048x255_1_0_0_1_n_n.lhsIdx i q 1).val = (q ⟨0, by decide⟩).val :=
  dot_S2048x1024_S1024x255_S2048x255_1_0_0_1_n_n.lhsIdx_val_of_single rfl i q
/-- Row axis of the right operand: the contraction position. -/
theorem rhs_blockdot_0 (i : S2048x255.Idx) (q : dot_S2048x1024_S1024x255_S2048x255_1_0_0_1_n_n.contr.Idx) :
    (dot_S2048x1024_S1024x255_S2048x255_1_0_0_1_n_n.rhsIdx i q 0).val = (q ⟨0, by decide⟩).val :=
  dot_S2048x1024_S1024x255_S2048x255_1_0_0_1_n_n.rhsIdx_val_of_single rfl i q
/-- Column axis of the right operand: the output's column. -/
theorem rhs_blockdot_1 (i : S2048x255.Idx) (q : dot_S2048x1024_S1024x255_S2048x255_1_0_0_1_n_n.contr.Idx) :
    (dot_S2048x1024_S1024x255_S2048x255_1_0_0_1_n_n.rhsIdx i q 1).val = (i 1).val := by
  unfold DotDims.rhsIdx
  rw [dif_neg (show ¬(1 : Fin S1024x255.rank) ∈ dot_S2048x1024_S1024x255_S2048x255_1_0_0_1_n_n.rhsBatch by decide), dif_pos (show (1 : Fin S1024x255.rank) ∈ dot_S2048x1024_S1024x255_S2048x255_1_0_0_1_n_n.rhsNonContracting by decide)]
  rfl

/-- The block product into a zero accumulator, at row r and column q: the sum over the 1024 contraction positions of
    left(r, k) · right(k, q). -/
theorem blockdot_at (l : FVec Ideal S2048x1024 .bf16) (w : FVec Ideal S1024x255 .bf16) (r : Fin 2048) (q : Fin 255) :
    matmul dot_S2048x1024_S1024x255_S2048x255_1_0_0_1_n_n none l w (constant (F := Ideal) S2048x255 .f32 0x00000000#32) (ix2 r q)
      = ∑ k : Fin 1024, l (ix2 r k) * w (ix2 k q) := by
  simp only [matmul]
  rw [Ideal.matmul_constant_zero_apply, ← Equiv.sum_comp (contrEquiv1 dot_S2048x1024_S1024x255_S2048x255_1_0_0_1_n_n 1024 rfl rfl).symm]
  refine Finset.sum_congr rfl fun k _ => ?_
  have hk := contrEquiv1_symm_val dot_S2048x1024_S1024x255_S2048x255_1_0_0_1_n_n 1024 rfl rfl k
  have el : dot_S2048x1024_S1024x255_S2048x255_1_0_0_1_n_n.lhsIdx (ix2 r q) ((contrEquiv1 dot_S2048x1024_S1024x255_S2048x255_1_0_0_1_n_n 1024 rfl rfl).symm k) = ix2 r k := funext fun a => Fin.ext (by
    match a with
    | ⟨0, _⟩ => exact lhs_blockdot_0 _ _
    | ⟨1, _⟩ => exact (lhs_blockdot_1 _ _).trans hk)
  have er : dot_S2048x1024_S1024x255_S2048x255_1_0_0_1_n_n.rhsIdx (ix2 r q) ((contrEquiv1 dot_S2048x1024_S1024x255_S2048x255_1_0_0_1_n_n 1024 rfl rfl).symm k) = ix2 k q := funext fun a => Fin.ext (by
    match a with
    | ⟨0, _⟩ => exact (rhs_blockdot_0 _ _).trans hk
    | ⟨1, _⟩ => exact rhs_blockdot_1 _ _)
  rw [el, er]

/-- The bias row broadcast down the 2048 rows reads, at (r, q), the row's entry q. -/
theorem biasrow_at (b : FVec Ideal S1x255 .f32) (r : Fin 2048) (q : Fin 255) :
    broadcastTo S2048x255 b broadcasts_S1x255_S2048x255 (ix2 r q) = b (ix2 (0 : Fin 1) q) := by
  refine broadcastTo_apply b broadcasts_S1x255_S2048x255 (ix2 r q) (ix2 (0 : Fin 1) q) fun a => ?_
  match a with
  | ⟨0, _⟩ => rfl
  | ⟨1, _⟩ => rfl

/-- The body's stored value at row r, column q of its block: the logistic of the row of the x block against the column
    of the transposed weight, plus the bias entry of the column. -/
theorem pay_at (x0 : Vec Ideal S2048x1024 .f32) (x1 : Vec Ideal S1024x255 .f32) (x2 : Vec Ideal S1x255 .f32) (r : Fin 2048) (q : Fin 255) :
    k0_pay1 (F := Ideal) x0 x1 x2 (ix2 r q)
      = Ideal.logistic ((∑ k : Fin 1024, x0 (ix2 r k) * x1 (ix2 k q)) + x2 (ix2 (0 : Fin 1) q)) := by
  unfold k0_pay1
  show Ideal.logistic (_ + _) = _
  rw [blockdot_at, biasrow_at, shapeCast_self, shapeCast_self]
  rfl

/-! ## From blocks to the array -/

theorem zero_offsets : (![0, 0] : Fin 2 → Nat) = fun _ => 0 := funext fun a => by fin_cases a <;> rfl

/-- sigmoid(x · wT + b) at row r and column q, of the whole arrays x : [32768, 1024], wT : [1024, 255] and the bias row
    b : [1, 255]. -/
def routingAt (X : Vec Ideal S32768x1024 .f32) (WT : Vec Ideal S1024x255 .f32) (B : Vec Ideal S1x255 .f32) (r : Fin 32768) (q : Fin 255) : EReal :=
  Ideal.logistic ((∑ k : Fin 1024, X (ix2 r k) * WT (ix2 k q)) + B (ix2 (0 : Fin 1) q))

/-- The routing probabilities as one array of the three whole operands. -/
def routing (X : Vec Ideal S32768x1024 .f32) (WT : Vec Ideal S1024x255 .f32) (B : Vec Ideal S1x255 .f32) : Vec Ideal S32768x255 .f32 :=
  fun i => routingAt X WT B (i 0) (i 1)

/-- The windows' index maps over the 16 grid points: the x window and the result window sit at row block t, column block 0;
    the transposed weight and the bias row are whole, at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t is rows 2048·t … 2048·t + 2047 of x. -/
theorem xblock_apply (c : Dev nD) (t : Fin cfg0.N) (y : S2048x1024.Idx) (k : S32768x1024.Idx)
    (hk0 : (k 0).val = 2048 * t.val + (y 0).val) (hk1 : (k 1).val = (y 1).val) :
    (iblk0 V c 0 t : Vec Ideal S2048x1024 .f32) y = (V c main_arg0 : Vec Ideal S32768x1024 .f32) k := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 2048 + 1 * (y 0).val = (k 0).val; rw [e0, hk0]; omega
  | ⟨1, _⟩ => show win0_0.index t 1 * 1024 + 1 * (y 1).val = (k 1).val; rw [e1, hk1]; omega

/-- The transposed-weight block at every point is the whole array. -/
theorem wblock_apply (c : Dev nD) (t : Fin cfg0.N) (y : S1024x255.Idx) :
    (iblk0 V c 1 t : Vec Ideal S1024x255 .f32) y = (V c main_v4 : Vec Ideal S1024x255 .f32) y := by
  obtain ⟨-, -, e2, e3, -⟩ := block_indices t
  unfold iblk0
  rw [View.read_apply]
  show V c main_v4 _ = V c main_v4 _
  congr 1
  funext a
  apply Fin.ext
  match a with
  | ⟨0, _⟩ => show win0_1.index t 0 * 1024 + 1 * (y 0).val = (y 0).val; rw [e2]; omega
  | ⟨1, _⟩ => show win0_1.index t 1 * 255 + 1 * (y 1).val = (y 1).val; rw [e3]; omega

/-- The bias block at every point is the whole row. -/
theorem bblock_apply (c : Dev nD) (t : Fin cfg0.N) (y : S1x255.Idx) :
    (iblk0 V c 2 t : Vec Ideal S1x255 .f32) y = (V c main_v2 : Vec Ideal S1x255 .f32) y := by
  obtain ⟨-, -, -, -, e4, e5, -⟩ := block_indices t
  unfold iblk0
  rw [View.read_apply]
  show V c main_v2 _ = V c main_v2 _
  congr 1
  funext a
  apply Fin.ext
  match a with
  | ⟨0, _⟩ => show win0_2.index t 0 * 1 + 1 * (y 0).val = (y 0).val; rw [e4]; omega
  | ⟨1, _⟩ => show win0_2.index t 1 * 255 + 1 * (y 1).val = (y 1).val; rw [e5]; omega

/-- The body's stored value at block index j of point t is the routing array at the array index i that sits
    2048·t rows further down. -/
theorem block_value (c : Dev nD) (t : Fin cfg0.N) (j : S2048x255.Idx) (i : S32768x255.Idx)
    (hi0 : (i 0).val = 2048 * t.val + (j 0).val) (hi1 : (i 1).val = (j 1).val) :
    k0_pay1 (F := Ideal) (iblk0 V c 0 t) (iblk0 V c 1 t) (iblk0 V c 2 t) j
      = routing (V c main_arg0) (V c main_v4) (V c main_v2) i := by
  obtain ⟨r, q, rfl⟩ : ∃ (r : Fin 2048) (q : Fin 255), j = ix2 r q := ⟨j 0, j 1, eq_ix2 j⟩
  obtain ⟨r', q', rfl⟩ : ∃ (r' : Fin 32768) (q' : Fin 255), i = ix2 r' q' := ⟨i 0, i 1, eq_ix2 i⟩
  have hr : r'.val = 2048 * t.val + r.val := hi0
  obtain rfl : q' = q := Fin.ext hi1
  rw [pay_at]
  show _ = routingAt (V c main_arg0) (V c main_v4) (V c main_v2) r' q'
  unfold routingAt
  rw [bblock_apply]
  congr 2
  refine Finset.sum_congr rfl fun k _ => ?_
  rw [wblock_apply, xblock_apply V c t (ix2 r k) (ix2 r' k) hr rfl]

/-- What point t writes back is block t of the routing array of the three operands as the region finds them. -/
theorem writeback_is_routing_block (c : Dev nD) (t : Fin cfg0.N) :
    (dat0 (F := Ideal) V c).flushed 3 t
      = ((cfg0.win 3).blk t).view.read (Elt Ideal) (routing (V c main_arg0) (V c main_v4) (V c main_v2)) := by
  show (cfg0.win 3).cut (grid0.coords t) ((dat0 V c).after 3 t) = _
  rw [after0_3]
  unfold out0_3
  rw [View.canon_unit_zero zero_offsets]
  simp only [View.ld_unit_zero (S := S2048x1024) zero_offsets, View.ld_unit_zero (S := S1024x255) zero_offsets, View.ld_unit_zero (S := S1x255) zero_offsets]
  obtain ⟨-, -, -, -, -, -, e6, e7⟩ := block_indices t
  funext j
  refine block_value V c t j _ ?_ ?_
  · show win0_3.index t 0 * 2048 + 1 * (j 0).val = _; rw [e6]; omega
  · show win0_3.index t 1 * 255 + 1 * (j 1).val = _; rw [e7]; omega

/-- An index of the result array is in point t's block iff each coordinate is in the block's range on its axis. -/
theorem mem_block (t : Fin cfg0.N) (i : S32768x255.Idx) :
    i ∈ ((cfg0.win 3).blk t).view.set ↔ ∀ a : Fin 2, win0_3.index t a * S2048x255.size a ≤ (i a).val ∧ (i a).val < win0_3.index t a * S2048x255.size a + S2048x255.size a := by
  show i ∈ ((View.whole main_v5).slice (win0_3.rect t)).set ↔ _
  rw [View.set_slice_whole, Rect.mem_set_unit]
  exact Iff.rfl

/-- Row r of the result array is written by the point r / 2048. -/
theorem covered (i : S32768x255.Idx) :
    ∃ t : Fin cfg0.N, (cfg0.win 3).flush t = true ∧ i ∈ ((cfg0.win 3).blk t).view.set := by
  have hN : grid0.N = 16 := N_0
  have hi0 : (i 0).val < 32768 := (i 0).isLt
  have hi1 : (i 1).val < 255 := (i 1).isLt
  have ht : (i 0).val / 2048 < cfg0.N := by show (i 0).val / 2048 < grid0.N; rw [hN]; omega
  refine ⟨⟨(i 0).val / 2048, ht⟩, flush0_3 _, ?_⟩
  rw [mem_block]
  obtain ⟨-, -, -, -, -, -, e6, e7⟩ := block_indices ⟨(i 0).val / 2048, ht⟩
  intro a
  match a with
  | ⟨0, _⟩ => show win0_3.index ⟨(i 0).val / 2048, ht⟩ 0 * 2048 ≤ (i 0).val ∧ (i 0).val < win0_3.index ⟨(i 0).val / 2048, ht⟩ 0 * 2048 + 2048; rw [e6]; show (i 0).val / 2048 * 2048 ≤ (i 0).val ∧ (i 0).val < (i 0).val / 2048 * 2048 + 2048; omega
  | ⟨1, _⟩ => show win0_3.index ⟨(i 0).val / 2048, ht⟩ 1 * 255 ≤ (i 1).val ∧ (i 1).val < win0_3.index ⟨(i 0).val / 2048, ht⟩ 1 * 255 + 255; rw [e7]; omega

/-- Region 0's result array is the routing array of the three operands as the region finds them. -/
theorem result_eq_routing (c : Dev nD) :
    ((dat0 (F := Ideal) V c).arrAt 3 cfg0.N : Vec Ideal S32768x255 .f32) = routing (V c main_arg0) (V c main_v4) (V c main_v2) :=
  (dat0 V c).arrAt_eq_of_cover 3 (routing (V c main_arg0) (V c main_v4) (V c main_v2)) (fun t _ => writeback_is_routing_block V c t) covered

/-! ## The operands as the region finds them, in terms of W_inner -/

/-- The transposed inner weight at (k, q) is W_inner at (q, k + 1). -/
theorem wT_at (A1 : FVec Ideal S255x1025 .f32) (k : Fin 1024) (q : Fin 255) :
    transpose S1024x255 [1, 0] (extractStridedSlice S255x1024 ![0, 1] A1 slices_S255x1025_S255x1024_0_1) transposes_S255x1024_S1024x255_1_0 (ix2 k q)
      = A1 (ix2 q (⟨k.val + 1, by omega⟩ : Fin 1025)) := by
  refine (transpose_apply [1, 0] _ transposes_S255x1024_S1024x255_1_0 (ix2 k q) (ix2 q k) fun b => ?_).trans ?_
  · match b with
    | ⟨0, _⟩ => rfl
    | ⟨1, _⟩ => rfl
  · refine extractStridedSlice_apply ![0, 1] A1 slices_S255x1025_S255x1024_0_1 (ix2 q k) (ix2 q (⟨k.val + 1, by omega⟩ : Fin 1025)) fun a => ?_
    match a with
    | ⟨0, _⟩ => show q.val = 0 + q.val; omega
    | ⟨1, _⟩ => show k.val + 1 = 1 + k.val; omega

/-- The bias row at (0, q) is W_inner at (q, 0): column 0 of W_inner, reshaped [255, 1] → [255] → [1, 255]. -/
theorem bias_at (A1 : FVec Ideal S255x1025 .f32) (q : Fin 255) :
    shapeCast S1x255 (shapeCast S255 (extractStridedSlice S255x1 ![0, 0] A1 slices_S255x1025_S255x1_0_0) shapeCasts_S255x1_S255) shapeCasts_S255_S1x255 (ix2 (0 : Fin 1) q)
      = A1 (ix2 q (⟨0, by omega⟩ : Fin 1025)) := by
  refine (shapeCast_apply _ shapeCasts_S255_S1x255 (ix2 (0 : Fin 1) q) (ix1 q) ?_).trans ?_
  · rw [Shape.rowMajor_val_one, Shape.rowMajor_val_two]
    show q.val = 0 * 255 + q.val
    omega
  refine (shapeCast_apply _ shapeCasts_S255x1_S255 (ix1 q) (ix2 q (0 : Fin 1)) ?_).trans ?_
  · rw [Shape.rowMajor_val_two, Shape.rowMajor_val_one]
    show q.val * 1 + 0 = q.val
    omega
  refine extractStridedSlice_apply ![0, 0] A1 slices_S255x1025_S255x1_0_0 (ix2 q (0 : Fin 1)) (ix2 q (⟨0, by omega⟩ : Fin 1025)) fun a => ?_
  match a with
  | ⟨0, _⟩ => show q.val = 0 + q.val; omega
  | ⟨1, _⟩ => rfl

/-- The routing array of x, the transposed inner weight and the bias row of W_inner is the routing probability of x and
    W_inner: the weight's rows are W_inner's columns 1 … 1024 and the bias is its column 0. -/
theorem routing_eq_prob (A0 : FVec Ideal S32768x1024 .f32) (A1 : FVec Ideal S255x1025 .f32) (r : Fin 32768) (q : Fin 255) :
    routing A0 (transpose S1024x255 [1, 0] (extractStridedSlice S255x1024 ![0, 1] A1 slices_S255x1025_S255x1024_0_1) transposes_S255x1024_S1024x255_1_0)
      (shapeCast S1x255 (shapeCast S255 (extractStridedSlice S255x1 ![0, 0] A1 slices_S255x1025_S255x1_0_0) shapeCasts_S255x1_S255) shapeCasts_S255_S1x255) (ix2 r q)
      = probAt A0 A1 r q := by
  show routingAt _ _ _ r q = _
  unfold routingAt probAt
  rw [bias_at]
  congr 2
  refine Finset.sum_congr rfl fun k _ => ?_
  rw [wT_at]

/-- Region 0's result array, entered with x (`A0`), the transposed weight and the bias row of `A1`, is the reference's
    routing probabilities of the same two arguments. -/
theorem kernelP_eq_refP (c : Dev nD) (A0 : FVec Ideal S32768x1024 .f32) (A1 : FVec Ideal S255x1025 .f32)
    (h0 : (V c main_arg0 : Vec Ideal S32768x1024 .f32) = A0)
    (h4 : (V c main_v4 : Vec Ideal S1024x255 .f32) = transpose S1024x255 [1, 0] (extractStridedSlice S255x1024 ![0, 1] A1 slices_S255x1025_S255x1024_0_1) transposes_S255x1024_S1024x255_1_0)
    (h2 : (V c main_v2 : Vec Ideal S1x255 .f32) = shapeCast S1x255 (shapeCast S255 (extractStridedSlice S255x1 ![0, 0] A1 slices_S255x1025_S255x1_0_0) shapeCasts_S255x1_S255) shapeCasts_S255_S1x255)
    (V0 : Valuation Cert.ReferenceIdeal.τ Cert.ReferenceIdeal.sig (Elt Ideal))
    (r0 : (V0 (Proc.devRef .tc Cert.ReferenceIdeal.main_arg0) : Vec Ideal S32768x1024 .f32) = A0)
    (r1 : (V0 (Proc.devRef .tc Cert.ReferenceIdeal.main_arg1) : Vec Ideal S255x1025 .f32) = A1) :
    ((dat0 (F := Ideal) V c).arrAt 3 cfg0.N : Vec Ideal S32768x255 .f32) = Cert.ReferenceIdeal.Value.res_main_v9 V0 := by
  rw [result_eq_routing, h0, h4, h2]
  funext i
  obtain ⟨r, q, rfl⟩ : ∃ (r : Fin 32768) (q : Fin 255), i = ix2 r q := ⟨i 0, i 1, eq_ix2 i⟩
  rw [routing_eq_prob]
  refine Eq.trans ?_ (Ref.res_at V0 r q).symm
  rw [r0, r1]

/-- With real inputs every routing probability is a real strictly between 0 and 1. -/
theorem refP_unit01 (V0 : Valuation Cert.ReferenceIdeal.τ Cert.ReferenceIdeal.sig (Elt Ideal))
    (hx : ∀ i, IsReal ((V0 (Proc.devRef .tc Cert.ReferenceIdeal.main_arg0) : Vec Ideal S32768x1024 .f32) i))
    (hw : ∀ i, IsReal ((V0 (Proc.devRef .tc Cert.ReferenceIdeal.main_arg1) : Vec Ideal S255x1025 .f32) i)) :
    ∀ i, Unit01 ((Cert.ReferenceIdeal.Value.res_main_v9 V0 : Vec Ideal S32768x255 .f32) i) := by
  intro i
  obtain ⟨r, q, rfl⟩ : ∃ (r : Fin 32768) (q : Fin 255), i = ix2 r q := ⟨i 0, i 1, eq_ix2 i⟩
  rw [Ref.res_at]
  exact probAt_unit01 _ _ hx hw r q

end Cert.Region0

end
-- ==== Proof.Region1.lean ====
/-
  The leaf projection y = mu · W_leafᵀ: what the second pallas_call leaves in its result array is the reference's
  dot_general of the same two operands (each row block of 2048 samples is a matrix product into a zero accumulator;
  the blocks tile the rows).

  The middle term is `Yspec M Wt`: at (r, o) the sum over the 256 leaves k of M(r, k) · Wt(k, o). The host's dot_general
  is that sum at every index (its contraction index is the one coordinate k); a block's product is that sum over the
  block's rows; the left operand's and the result's blocks at grid point t are rows 2048·t … 2048·t + 2047 and the right
  operand's block is its whole array, so what point t writes back is block t of `Yspec`; the 16 blocks cover the rows.
-/
import proofs.«134657_j7687991460616_1_alg».proof.Proof.Gen.KernelIdeal.Frame
import proofs.«134657_j7687991460616_1_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws

noncomputable section

namespace Cert.Region1

open Idealize.ShloMosaic Idealize.ShloMosaic.TcCoe Idealize.SL.Sem Idealize.ShloMosaic.ValueIdx
open Idealize.ShloMosaic.Pipeline (Dat)
open Cert.KernelIdeal Cert.KernelIdeal.Gen

/-! ## The product, index by index -/

/-- Row `i 0` of `M` against column `i 1` of `Wt`, summed over the 256 leaves. -/
def Yspec (M : Vec Ideal S32768x256 .f32) (Wt : Vec Ideal S256x1000 .f32) : Vec Ideal S32768x1000 .f32 :=
  fun i => ∑ k : Fin 256, M (ix2 ⟨(i 0).val, idx2_lt0 i⟩ k) * Wt (ix2 k ⟨(i 1).val, idx2_lt1 i⟩)

/-! ## The host's dot_general is that sum

Its dimension numbers contract the left operand's axis 1 with the right operand's axis 0: at result index (r, o) and
contraction coordinate k the operands are read at (r, k) and (k, o). -/

theorem lhsHost_0 (j : Cert.ReferenceIdeal.S32768x1000.Idx) (k : Cert.ReferenceIdeal.dot_S32768x256_S256x1000_S32768x1000_1_0_0_1_n_n.contr.Idx) :
    (Cert.ReferenceIdeal.dot_S32768x256_S256x1000_S32768x1000_1_0_0_1_n_n.lhsIdx j k 0).val = (j 0).val := rfl
theorem lhsHost_1 (j : Cert.ReferenceIdeal.S32768x1000.Idx) (k : Cert.ReferenceIdeal.dot_S32768x256_S256x1000_S32768x1000_1_0_0_1_n_n.contr.Idx) :
    (Cert.ReferenceIdeal.dot_S32768x256_S256x1000_S32768x1000_1_0_0_1_n_n.lhsIdx j k 1).val = (k ⟨0, by decide⟩).val := rfl
theorem rhsHost_0 (j : Cert.ReferenceIdeal.S32768x1000.Idx) (k : Cert.ReferenceIdeal.dot_S32768x256_S256x1000_S32768x1000_1_0_0_1_n_n.contr.Idx) :
    (Cert.ReferenceIdeal.dot_S32768x256_S256x1000_S32768x1000_1_0_0_1_n_n.rhsIdx j k 0).val = (k ⟨0, by decide⟩).val := rfl
theorem rhsHost_1 (j : Cert.ReferenceIdeal.S32768x1000.Idx) (k : Cert.ReferenceIdeal.dot_S32768x256_S256x1000_S32768x1000_1_0_0_1_n_n.contr.Idx) :
    (Cert.ReferenceIdeal.dot_S32768x256_S256x1000_S32768x1000_1_0_0_1_n_n.rhsIdx j k 1).val = (j 1).val := rfl

/-- The host's dot_general of the whole operands is `Yspec` of them: the same sum, its contraction index re-indexed by
    its one coordinate. -/
theorem host_eq_Yspec (M : FVec Ideal S32768x256 .f32) (Wt : FVec Ideal S256x1000 .f32) :
    Host.dotGeneral (F := Ideal) Cert.ReferenceIdeal.dot_S32768x256_S256x1000_S32768x1000_1_0_0_1_n_n none M Wt = Yspec M Wt := by
  funext i
  obtain ⟨r, q, rfl⟩ : ∃ (r : Fin 32768) (q : Fin 1000), i = ix2 r q := ⟨i 0, i 1, eq_ix2 i⟩
  refine (Ideal.dotGeneral_apply Cert.ReferenceIdeal.dot_S32768x256_S256x1000_S32768x1000_1_0_0_1_n_n none .single M Wt (ix2 r q)).trans ?_
  rw [← Equiv.sum_comp (contrEquiv1 Cert.ReferenceIdeal.dot_S32768x256_S256x1000_S32768x1000_1_0_0_1_n_n 256 rfl rfl).symm]
  refine Finset.sum_congr rfl fun k _ => ?_
  have hk := contrEquiv1_symm_val Cert.ReferenceIdeal.dot_S32768x256_S256x1000_S32768x1000_1_0_0_1_n_n 256 rfl rfl k
  congr 2
  · funext a; apply Fin.ext
    match a with
    | ⟨0, _⟩ => exact lhsHost_0 _ _
    | ⟨1, _⟩ => exact (lhsHost_1 _ _).trans hk
  · funext a; apply Fin.ext
    match a with
    | ⟨0, _⟩ => exact (rhsHost_0 _ _).trans hk
    | ⟨1, _⟩ => exact rhsHost_1 _ _

/-! ## One block's product

The body casts each loaded block to bf16 (the identity on the extended reals) and multiplies into a zero accumulator:
at (r, q) of the block, the sum over k of left(r, k) · right(k, q). -/

theorem lhsBlock_0 (j : S2048x1000.Idx) (k : dot_S2048x256_S256x1000_S2048x1000_1_0_0_1_n_n.contr.Idx) :
    (dot_S2048x256_S256x1000_S2048x1000_1_0_0_1_n_n.lhsIdx j k 0).val = (j 0).val := rfl
theorem lhsBlock_1 (j : S2048x1000.Idx) (k : dot_S2048x256_S256x1000_S2048x1000_1_0_0_1_n_n.contr.Idx) :
    (dot_S2048x256_S256x1000_S2048x1000_1_0_0_1_n_n.lhsIdx j k 1).val = (k ⟨0, by decide⟩).val := rfl
theorem rhsBlock_0 (j : S2048x1000.Idx) (k : dot_S2048x256_S256x1000_S2048x1000_1_0_0_1_n_n.contr.Idx) :
    (dot_S2048x256_S256x1000_S2048x1000_1_0_0_1_n_n.rhsIdx j k 0).val = (k ⟨0, by decide⟩).val := rfl
theorem rhsBlock_1 (j : S2048x1000.Idx) (k : dot_S2048x256_S256x1000_S2048x1000_1_0_0_1_n_n.contr.Idx) :
    (dot_S2048x256_S256x1000_S2048x1000_1_0_0_1_n_n.rhsIdx j k 1).val = (j 1).val := rfl

/-- One block's product at (r, q): row r of the left block against column q of the right one. -/
theorem blockProduct_apply (x0 : Vec Ideal S2048x256 .f32) (x1 : Vec Ideal S256x1000 .f32) (r : Fin 2048) (q : Fin 1000) :
    k1_pay1 (F := Ideal) x0 x1 (ix2 r q) = ∑ k : Fin 256, x0 (ix2 r k) * x1 (ix2 k q) := by
  unfold k1_pay1
  simp only [shapeCast_self]
  refine (Ideal.matmul_constant_zero_apply dot_S2048x256_S256x1000_S2048x1000_1_0_0_1_n_n none _ _ (ix2 r q)).trans ?_
  rw [← Equiv.sum_comp (contrEquiv1 dot_S2048x256_S256x1000_S2048x1000_1_0_0_1_n_n 256 rfl rfl).symm]
  refine Finset.sum_congr rfl fun k _ => ?_
  have hk := contrEquiv1_symm_val dot_S2048x256_S256x1000_S2048x1000_1_0_0_1_n_n 256 rfl rfl k
  simp only [truncf_apply]
  congr 2
  · funext a; apply Fin.ext
    match a with
    | ⟨0, _⟩ => exact lhsBlock_0 _ _
    | ⟨1, _⟩ => exact (lhsBlock_1 _ _).trans hk
  · funext a; apply Fin.ext
    match a with
    | ⟨0, _⟩ => exact (rhsBlock_0 _ _).trans hk
    | ⟨1, _⟩ => exact rhsBlock_1 _ _

/-- The same at any index of the block, by its coordinates. -/
theorem blockProduct_apply_idx (x0 : Vec Ideal S2048x256 .f32) (x1 : Vec Ideal S256x1000 .f32) (y : S2048x1000.Idx) :
    k1_pay1 (F := Ideal) x0 x1 y = ∑ k : Fin 256, x0 (ix2 ⟨(y 0).val, idx2_lt0 y⟩ k) * x1 (ix2 k ⟨(y 1).val, idx2_lt1 y⟩) := by
  obtain ⟨r, q, rfl⟩ : ∃ (r : Fin 2048) (q : Fin 1000), y = ix2 r q := ⟨y 0, y 1, eq_ix2 y⟩
  exact blockProduct_apply x0 x1 r q

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the 16 grid points: the left operand's and the result's blocks move down the rows with
    the point, the right operand's block stays. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `2048 t … 2048 t + 2047` of its array. -/
theorem muBlock_apply (c : Dev nD) (t : Fin cfg1.N) (y : S2048x256.Idx) (i : S32768x256.Idx)
    (h0 : (i 0).val = 2048 * t.val + (y 0).val) (h1 : (i 1).val = (y 1).val) :
    (iblk1 V c 0 t : Vec Ideal S2048x256 .f32) y = (V c main_v158 : Vec Ideal S32768x256 .f32) i := by
  obtain ⟨e0, e1, -, -, -, -⟩ := block_indices t
  unfold iblk1
  rw [View.read_apply]
  show V c main_v158 _ = V c main_v158 _
  congr 1
  funext a
  apply Fin.ext
  match a with
  | ⟨0, _⟩ => show win1_0.index t (0 : Fin 2) * 2048 + 1 * (y 0).val = (i 0).val; rw [e0, h0]; omega
  | ⟨1, _⟩ => show win1_0.index t (1 : Fin 2) * 256 + 1 * (y 1).val = (i 1).val; rw [e1, h1]; omega

/-- The right operand's block at every point is its whole array. -/
theorem leafWeightBlock_apply (c : Dev nD) (t : Fin cfg1.N) (y : S256x1000.Idx) :
    (iblk1 V c 1 t : Vec Ideal S256x1000 .f32) y = (V c main_v159 : Vec Ideal S256x1000 .f32) y := by
  obtain ⟨-, -, e0, e1, -, -⟩ := block_indices t
  unfold iblk1
  rw [View.read_apply]
  show V c main_v159 _ = V c main_v159 _
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 1000 + 1 * (y 1).val = (y 1).val; rw [e1]; omega

/-- What point `t` writes back is block `t` of the product of the two arrays the region finds: the body's one store
    leaves the block product of the two loaded blocks, whose rows are the array's rows `2048 t + ·`. -/
theorem writtenBack_eq (c : Dev nD) (t : Fin cfg1.N) :
    (dat1 (F := Ideal) V c).flushed 2 t
      = ((cfg1.win 2).blk t).view.read (Elt Ideal) (Yspec (V c main_v158) (V c main_v159)) := by
  show (cfg1.win 2).cut (grid1.coords t) ((dat1 V c).after 2 t) = _
  rw [after1_2]
  unfold out1_2
  rw [View.canon_unit_zero zero_offsets]
  simp only [View.ld_unit_zero (S := S2048x256) zero_offsets, View.ld_unit_zero (S := S256x1000) zero_offsets]
  obtain ⟨-, -, -, -, e0, e1⟩ := block_indices t
  funext j
  rw [View.read_apply]
  refine (blockProduct_apply_idx (iblk1 V c 0 t) (iblk1 V c 1 t) _).trans ?_
  unfold Yspec
  refine Finset.sum_congr rfl fun k _ => ?_
  have hj0 : (j 0).val < 2048 := (j 0).isLt
  have hj1 : (j 1).val < 1000 := (j 1).isLt
  congr 1
  · refine muBlock_apply V c t _ _ ?_ ?_
    · show win1_2.index t (0 : Fin 2) * 2048 + 1 * (j 0).val = 2048 * t.val + (j 0).val
      rw [e0]; omega
    · rfl
  · refine (leafWeightBlock_apply V c t _).trans ?_
    congr 1
    funext a
    apply Fin.ext
    match a with
    | ⟨0, _⟩ => rfl
    | ⟨1, _⟩ => show (j 1).val = win1_2.index t (1 : Fin 2) * 1000 + 1 * (j 1).val; rw [e1]; omega

/-- An index of the result array is in point `t`'s block iff each coordinate is in the block's range on its axis. -/
theorem mem_resultBlock (t : Fin cfg1.N) (i : S32768x1000.Idx) :
    i ∈ ((cfg1.win 2).blk t).view.set ↔ ∀ a : Fin 2, win1_2.index t a * S2048x1000.size a ≤ (i a).val ∧ (i a).val < win1_2.index t a * S2048x1000.size a + S2048x1000.size a := by
  show i ∈ ((View.whole main_v160).slice (win1_2.rect t)).set ↔ _
  rw [View.set_slice_whole, Rect.mem_set_unit]
  exact Iff.rfl

/-- Every index of the result array is in the block of the point its row falls in: row `r` in point `r / 2048`'s. -/
theorem rows_covered (i : S32768x1000.Idx) :
    ∃ t : Fin cfg1.N, (cfg1.win 2).flush t = true ∧ i ∈ ((cfg1.win 2).blk t).view.set := by
  have hi0 : (i 0).val < 32768 := (i 0).isLt
  have hi1 : (i 1).val < 1000 := (i 1).isLt
  have hN : cfg1.N = 16 := N_1
  let t : Fin cfg1.N := ⟨(i 0).val / 2048, by rw [hN]; omega⟩
  obtain ⟨-, -, -, -, e0, e1⟩ := block_indices t
  have ht : t.val = (i 0).val / 2048 := rfl
  refine ⟨t, flush1_2 t, ?_⟩
  rw [mem_resultBlock]
  intro a
  match a with
  | ⟨0, _⟩ => show win1_2.index t (0 : Fin 2) * 2048 ≤ (i 0).val ∧ (i 0).val < win1_2.index t (0 : Fin 2) * 2048 + 2048; rw [e0, ht]; omega
  | ⟨1, _⟩ => show win1_2.index t (1 : Fin 2) * 1000 ≤ (i 1).val ∧ (i 1).val < win1_2.index t (1 : Fin 2) * 1000 + 1000; rw [e1]; omega

/-- The result array after the region: the product of the two arrays it was entered with. -/
theorem resultArray_eq (c : Dev nD) :
    (dat1 (F := Ideal) V c).arrAt 2 cfg1.N = Yspec (V c main_v158) (V c main_v159) :=
  (dat1 (F := Ideal) V c).arrAt_eq_of_cover 2 (Yspec (V c main_v158) (V c main_v159)) (fun t _ => writtenBack_eq V c t) rows_covered

/-! ## The two sides -/

/-- Region 1's result array, entered with the leaves' path probabilities `M` and the transposed leaf weight of `A2`,
    is the reference's dot_general of `M` and that transpose. -/
theorem kernelY_eq_refY (c : Dev nD) (M : FVec Ideal S32768x256 .f32) (A2 : FVec Ideal S1000x256 .f32)
    (hM : (V c main_v158 : Vec Ideal S32768x256 .f32) = M)
    (hW : (V c main_v159 : Vec Ideal S256x1000 .f32) = transpose S256x1000 [1, 0] A2 transposes_S1000x256_S256x1000_1_0) :
    ((dat1 (F := Ideal) V c).arrAt 2 cfg1.N : Vec Ideal S32768x1000 .f32)
      = Host.dotGeneral Cert.ReferenceIdeal.dot_S32768x256_S256x1000_S32768x1000_1_0_0_1_n_n none M
          (transpose Cert.ReferenceIdeal.S256x1000 [1, 0] A2 Cert.ReferenceIdeal.Facts₀.transposes_S1000x256_S256x1000_1_0) := by
  refine (resultArray_eq V c).trans ?_
  rw [hM, hW]
  exact (host_eq_Yspec M _).symm

end Cert.Region1

end
-- ==== Proof.Final.lean ====
/-
  The two results compared. With arguments that agree, region 0's result array is the reference's routing
  probabilities; through the eight layers the leaves' path probabilities and the penalty are the reference's; and
  region 1's result array is the reference's dot_general of those path probabilities with the transposed leaf weight.
-/
import proofs.«134657_j7687991460616_1_alg».proof.Proof.Chain
import proofs.«134657_j7687991460616_1_alg».proof.Proof.KVals
import proofs.«134657_j7687991460616_1_alg».proof.Proof.Region0
import proofs.«134657_j7687991460616_1_alg».proof.Proof.Region1

noncomputable section

namespace Cert.Final

open Idealize.ShloMosaic Idealize.ShloMosaic.TcCoe Idealize.SL.Sem Cert.Layer Cert.ReferenceIdeal.Value
open Cert.KernelIdeal Cert.KernelIdeal.Gen

variable (m : (ℓ : Loc nD τ sig) → Buf (Elt Ideal) ℓ) (ρ : Dev nD → PrngReg) (c : Dev nD)
variable (V0 : Valuation Cert.ReferenceIdeal.τ Cert.ReferenceIdeal.sig (Elt Ideal))

/-- Region 0's result array is the reference's routing probabilities of the same arguments. -/
theorem P_eq
    (a0 : (V0 (Proc.devRef .tc Cert.ReferenceIdeal.main_arg0) : Vec Ideal S32768x1024 .f32) = m ((c : Thread nD τ).loc main_arg0))
    (a1 : (V0 (Proc.devRef .tc Cert.ReferenceIdeal.main_arg1) : Vec Ideal S255x1025 .f32) = m ((c : Thread nD τ).loc main_arg1)) :
    Vals.Pk m ρ c = Cert.Chain.Pr V0 :=
  (Vals.Pk_eq m ρ c).trans
    (Cert.Region0.kernelP_eq_refP (V1 m ρ) c _ _ (Vals.V1_arg0 m ρ c) (Vals.V1_wT m ρ c) (Vals.V1_bias m ρ c) V0 a0 a1)

/-- The prediction: the kernel's result array is the reference's. -/
theorem y_eq
    (a0 : (V0 (Proc.devRef .tc Cert.ReferenceIdeal.main_arg0) : Vec Ideal S32768x1024 .f32) = m ((c : Thread nD τ).loc main_arg0))
    (a1 : (V0 (Proc.devRef .tc Cert.ReferenceIdeal.main_arg1) : Vec Ideal S255x1025 .f32) = m ((c : Thread nD τ).loc main_arg1))
    (a2 : (V0 (Proc.devRef .tc Cert.ReferenceIdeal.main_arg2) : Vec Ideal S1000x256 .f32) = m ((c : Thread nD τ).loc main_arg2)) :
    (W4 m ρ c (Proc.devRef .tc main_v160) : Vec Ideal S32768x1000 .f32)
      = Host.dotGeneral (φ₁ := .f32) (φ₂ := .f32) Cert.ReferenceIdeal.dot_S32768x256_S256x1000_S32768x1000_1_0_0_1_n_n none (mulf (res_main_v131 V0) (res_main_v129 V0))
          (transpose Cert.ReferenceIdeal.S256x1000 [1, 0] (V0 (Proc.devRef .tc Cert.ReferenceIdeal.main_arg2) : Vec Ideal Cert.ReferenceIdeal.S1000x256 .f32) Cert.ReferenceIdeal.Facts₀.transposes_S1000x256_S256x1000_1_0) := by
  rw [Vals.W4_y, Cert.Region1.kernelY_eq_refY (V3 m ρ) c _ _ (Vals.V3_mu m ρ c) (Vals.V3_wleafT m ρ c), P_eq m ρ c V0 a0 a1,
    Cert.Chain.mu_eq8, a2]

/-- The penalty: the kernel's result scalar is the reference's, when the first two arguments' entries are real. -/
theorem pen_eq
    (a0 : (V0 (Proc.devRef .tc Cert.ReferenceIdeal.main_arg0) : Vec Ideal S32768x1024 .f32) = m ((c : Thread nD τ).loc main_arg0))
    (a1 : (V0 (Proc.devRef .tc Cert.ReferenceIdeal.main_arg1) : Vec Ideal S255x1025 .f32) = m ((c : Thread nD τ).loc main_arg1))
    (hx : ∀ i, IsReal ((m ((c : Thread nD τ).loc main_arg0) : Vec Ideal S32768x1024 .f32) i))
    (hw : ∀ i, IsReal ((m ((c : Thread nD τ).loc main_arg1) : Vec Ideal S255x1025 .f32) i)) :
    (W4 m ρ c (Proc.devRef .tc main_v154) : Vec Ideal S_ .f32) = Cert.Chain.rpen V0 := by
  have hP : ∀ i, Unit01 (Cert.Chain.Pr V0 i) :=
    Cert.Region0.refP_unit01 V0 (fun i => by rw [a0]; exact hx i) (fun i => by rw [a1]; exact hw i)
  rw [Vals.W4_pen, P_eq m ρ c V0 a0 a1]
  exact Cert.Chain.pen_eq V0 hP

end Cert.Final

end
-- ==== Proof.Finite.lean ====
/-
  From the precondition to the inputs' entries: "every float input is finite" (|a| < +inf at every index, all three
  reductions true) says every entry of the first two arguments is a real number.
-/
import proofs.«134657_j7687991460616_1_alg».proof.Proof.LBase
import proofs.«134657_j7687991460616_1_alg».proof.Pre_finite_inputs
import proofs.«134657_j7687991460616_1_alg».proof.Proof.Gen.Pre_finite_inputs
import Idealize.ShloMosaic.Lib.ReduceAll
import Idealize.ShloMosaic.Lib.ValueIdx

noncomputable section

namespace Cert.Finite

open Idealize.ShloMosaic Cert.Layer

/-- The f32 word 0x7F800000 (sign 0, exponent field all ones, mantissa 0) is plus infinity. -/
private theorem ofBits_inf : Ideal.ofBits .f32 0x7F800000#32 = ⊤ := by simp [Ideal.ofBits, Ideal.ieee]

/-- An extended real whose absolute value max x (-x) compares below plus infinity is a real number: at either
    infinity the absolute value is plus infinity itself, which is not below plus infinity. -/
private theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

theorem real_of_pre (a0 : FVec Ideal Cert.Pre_finite_inputs.S32768x1024 .f32) (a1 : FVec Ideal Cert.Pre_finite_inputs.S255x1025 .f32)
    (a2 : FVec Ideal Cert.Pre_finite_inputs.S1000x256 .f32)
    (h : Cert.Pre_finite_inputs.fn (F := Ideal) a0 a1 a2 = fun _ => 1#1) :
    (∀ i, IsReal (a0 i)) ∧ (∀ i, IsReal (a1 i)) := by
  -- the result shape of a reduction over every axis has one index
  haveI : Subsingleton Cert.Pre_finite_inputs.S_.Idx := ⟨fun a b => funext fun d => d.elim0⟩
  -- the precondition at its one index: the conjunction of the three inputs' "all entries have |a| < +inf"
  have h0 := congrFun h ValueIdx.ix0
  dsimp only [Cert.Pre_finite_inputs.fn] at h0
  obtain ⟨h01, -⟩ := IntOp.andi_eq_one.1 h0
  obtain ⟨hA, hB⟩ := IntOp.andi_eq_one.1 h01
  -- a conjunction over all entries that is true is true at each entry
  refine ⟨fun i => ?_, fun i => ?_⟩
  · exact isReal_of_abs_lt (a0 i) (Host.reduce_andi_all _ _ _ _ _ hA i)
  · exact isReal_of_abs_lt (a1 i) (Host.reduce_andi_all _ _ _ _ _ hB i)

end Cert.Finite

end
-- ==== Proof.lean ====
/-
  The certificate of a depth-8 soft decision tree: routing probabilities p = sigmoid(x · wᵀ + b) (a Pallas matmul
  kernel over 16 row blocks), the tree recursion on the host (eight layers; each doubles the path probabilities
  mu into (mu · p, mu · (1 - p)) and adds c_l · Σ (log α + log1p (-α)) to a penalty, α a node's mean routing weighted
  by mu), and the leaf projection y = mu · W_leafᵀ (a second Pallas matmul kernel), against a jnp reference that
  augments x by a column of ones, stacks (p, 1 - p) once, repeats mu, and sums the penalty over both children of
  every node with half the coefficient.
  Over the extended reals the two agree: the augmented product is the bias plus the plain product; the interleaved
  products are the same arrays index by index; and a right child's mean routing is one minus its sibling's while
  log α + log1p (-α) is symmetric under α ↦ 1 - α, so the reference's sum over 2n children with c_l / 2 is the kernel's
  sum over n nodes with c_l. Only this last step uses that the inputs are finite (the path probabilities are then
  positive reals and every α a real strictly inside (0, 1)).
  The frames of the two kernel programs are the generated ones; the reference's is its generated run with the
  results dropped; the idealization rewrote nothing, so `preserves` is trivial.
-/
import proofs.«134657_j7687991460616_1_alg».proof.Defs
import proofs.«134657_j7687991460616_1_alg».proof.Proof.Gen.Kernel
import proofs.«134657_j7687991460616_1_alg».proof.Proof.Gen.Kernel.Frame
import proofs.«134657_j7687991460616_1_alg».proof.Proof.Gen.KernelIdeal
import proofs.«134657_j7687991460616_1_alg».proof.Proof.Gen.KernelIdeal.Frame
import proofs.«134657_j7687991460616_1_alg».proof.Proof.Gen.ReferenceIdeal
import proofs.«134657_j7687991460616_1_alg».proof.Proof.Gen.Pre_finite_inputs
import proofs.«134657_j7687991460616_1_alg».proof.Proof.Gen.ReferenceIdeal.Run
import proofs.«134657_j7687991460616_1_alg».proof.Proof.KRun
import proofs.«134657_j7687991460616_1_alg».proof.Proof.Final
import proofs.«134657_j7687991460616_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => ⟨(h c).2.2.1, (h c).2.2.2.1, (h c).2.2.2.2⟩)
    (Cert.ReferenceIdeal.Value.run (F := Ideal) m ρ)

/-- Both programs end with the same prediction array and the same penalty: the kernel's run keeps its two result
    buffers at the last boundary's contents, and those are the reference's results of agreeing arguments. -/
theorem algebraic : Cert.algebraic_KernelIdeal_ReferenceIdeal := by
  intro m ρ m' ρ' hpre hagree
  refine ⟨fun c => Cert.KernelIdeal.Gen.W4 m ρ c (Proc.devRef .tc Cert.KernelIdeal.main_v160),
    fun c => Cert.KernelIdeal.Gen.W4 m ρ c (Proc.devRef .tc Cert.KernelIdeal.main_v154),
    Cert.KernelIdeal.Results.run_results (F := Ideal) m ρ, ?_⟩
  refine (θ_run Cert.ReferenceIdeal.defs _ _).mono (fun r h c => ?_) (Cert.ReferenceIdeal.Value.run (F := Ideal) m' ρ')
  obtain ⟨hy, hp, h0, h1, h2⟩ := h c
  obtain ⟨e0, e1, e2⟩ := hagree c
  obtain ⟨hx, hw⟩ := Cert.Finite.real_of_pre _ _ _ (hpre c)
  exact ⟨hy.trans (Cert.Final.y_eq m ρ c (launchContents m' c) e0 e1 e2).symm,
    hp.trans (Cert.Final.pen_eq m ρ c (launchContents m' c) e0 e1 hx hw).symm, h0, h1, h2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
